-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x192 : Shape := ⟨3, ![4096, 64, 192]⟩
abbrev S64x64x64 : Shape := ⟨3, ![64, 64, 64]⟩
abbrev S576x192 : Shape := ⟨2, ![576, 192]⟩
abbrev S576 : Shape := ⟨1, ![576]⟩
abbrev S192x192 : Shape := ⟨2, ![192, 192]⟩
abbrev S192 : Shape := ⟨1, ![192]⟩
abbrev S225x6 : Shape := ⟨2, ![225, 6]⟩
abbrev S_ : Shape := ⟨0, ![]⟩

class Facts : Prop where
  bcast_S_S4096x64x192 : S_.BroadcastsInDim S4096x64x192 (![] : Fin 0 → Fin S4096x64x192.rank)
  reducesTo_S4096x64x192_S_d0_1_2 : S4096x64x192.ReducesTo [0, 1, 2] S_
  h_S_ : 0 < S_.numel
  bcast_S_S64x64x64 : S_.BroadcastsInDim S64x64x64 (![] : Fin 0 → Fin S64x64x64.rank)
  reducesTo_S64x64x64_S_d0_1_2 : S64x64x64.ReducesTo [0, 1, 2] S_
  bcast_S_S576x192 : S_.BroadcastsInDim S576x192 (![] : Fin 0 → Fin S576x192.rank)
  reducesTo_S576x192_S_d0_1 : S576x192.ReducesTo [0, 1] S_
  bcast_S_S576 : S_.BroadcastsInDim S576 (![] : Fin 0 → Fin S576.rank)
  reducesTo_S576_S_d0 : S576.ReducesTo [0] S_
  bcast_S_S192x192 : S_.BroadcastsInDim S192x192 (![] : Fin 0 → Fin S192x192.rank)
  reducesTo_S192x192_S_d0_1 : S192x192.ReducesTo [0, 1] S_
  bcast_S_S192 : S_.BroadcastsInDim S192 (![] : Fin 0 → Fin S192.rank)
  reducesTo_S192_S_d0 : S192.ReducesTo [0] S_
  bcast_S_S225x6 : S_.BroadcastsInDim S225x6 (![] : Fin 0 → Fin S225x6.rank)
  reducesTo_S225x6_S_d0_1 : S225x6.ReducesTo [0, 1] S_

variable [Facts]

def fn_part1 {F : FTy → Type} [FloatOps F] (main_arg4 : FVec F S192x192 .f32) (main_arg5 : FVec F S192 .f32) (main_arg6 : FVec F S225x6 .f32) (main_v13 : IVec S_ 1) (main_v16 : IVec S576 1) : IVec S_ 1 :=
  let main_c_5 : IVec S_ 1 := constantI S_ 1 1#1
  let main_v17 : IVec S_ 1 := (fun x v => Host.reduce IntOp.andi x v reducesTo_S576_S_d0 h_S_) main_v16 main_c_5
  let main_v18 : IVec S_ 1 := andi main_v13 main_v17
  let main_v19 : FVec F S192x192 .f32 := Host.absf main_arg4
  let main_cst_6 : FVec F S_ .f32 := constant S_ .f32 0x7F800000#32
  let main_v20 : FVec F S192x192 .f32 := broadcastInDim S192x192 ![] bcast_S_S192x192 main_cst_6
  let main_v21 : IVec S192x192 1 := cmpf .olt main_v19 main_v20
  let main_c_7 : IVec S_ 1 := constantI S_ 1 1#1
  let main_v22 : IVec S_ 1 := (fun x v => Host.reduce IntOp.andi x v reducesTo_S192x192_S_d0_1 h_S_) main_v21 main_c_7
  let main_v23 : IVec S_ 1 := andi main_v18 main_v22
  let main_v24 : FVec F S192 .f32 := Host.absf main_arg5
  let main_cst_8 : FVec F S_ .f32 := constant S_ .f32 0x7F800000#32
  let main_v25 : FVec F S192 .f32 := broadcastInDim S192 ![] bcast_S_S192 main_cst_8
  let main_v26 : IVec S192 1 := cmpf .olt main_v24 main_v25
  let main_c_9 : IVec S_ 1 := constantI S_ 1 1#1
  let main_v27 : IVec S_ 1 := (fun x v => Host.reduce IntOp.andi x v reducesTo_S192_S_d0 h_S_) main_v26 main_c_9
  let main_v28 : IVec S_ 1 := andi main_v23 main_v27
  let main_v29 : FVec F S225x6 .f32 := Host.absf main_arg6
  let main_cst_10 : FVec F S_ .f32 := constant S_ .f32 0x7F800000#32
  let main_v30 : FVec F S225x6 .f32 := broadcastInDim S225x6 ![] bcast_S_S225x6 main_cst_10
  let main_v31 : IVec S225x6 1 := cmpf .olt main_v29 main_v30
  let main_c_11 : IVec S_ 1 := constantI S_ 1 1#1
  let main_v32 : IVec S_ 1 := (fun x v => Host.reduce IntOp.andi x v reducesTo_S225x6_S_d0_1 h_S_) main_v31 main_c_11
  let main_v33 : IVec S_ 1 := andi main_v28 main_v32
  main_v33

def fn {F : FTy → Type} [FloatOps F] (main_arg0 : FVec F S4096x64x192 .f32) (main_arg1 : FVec F S64x64x64 .f32) (main_arg2 : FVec F S576x192 .f32) (main_arg3 : FVec F S576 .f32) (main_arg4 : FVec F S192x192 .f32) (main_arg5 : FVec F S192 .f32) (main_arg6 : FVec F S225x6 .f32) : IVec S_ 1 :=
  let main_v0 : FVec F S4096x64x192 .f32 := Host.absf main_arg0
  let main_cst : FVec F S_ .f32 := constant S_ .f32 0x7F800000#32
  let main_v1 : FVec F S4096x64x192 .f32 := broadcastInDim S4096x64x192 ![] bcast_S_S4096x64x192 main_cst
  let main_v2 : IVec S4096x64x192 1 := cmpf .olt main_v0 main_v1
  let main_c : IVec S_ 1 := constantI S_ 1 1#1
  let main_v3 : IVec S_ 1 := (fun x v => Host.reduce IntOp.andi x v reducesTo_S4096x64x192_S_d0_1_2 h_S_) main_v2 main_c
  let main_v4 : FVec F S64x64x64 .f32 := Host.absf main_arg1
  let main_cst_0 : FVec F S_ .f32 := constant S_ .f32 0x7F800000#32
  let main_v5 : FVec F S64x64x64 .f32 := broadcastInDim S64x64x64 ![] bcast_S_S64x64x64 main_cst_0
  let main_v6 : IVec S64x64x64 1 := cmpf .olt main_v4 main_v5
  let main_c_1 : IVec S_ 1 := constantI S_ 1 1#1
  let main_v7 : IVec S_ 1 := (fun x v => Host.reduce IntOp.andi x v reducesTo_S64x64x64_S_d0_1_2 h_S_) main_v6 main_c_1
  let main_v8 : IVec S_ 1 := andi main_v3 main_v7
  let main_v9 : FVec F S576x192 .f32 := Host.absf main_arg2
  let main_cst_2 : FVec F S_ .f32 := constant S_ .f32 0x7F800000#32
  let main_v10 : FVec F S576x192 .f32 := broadcastInDim S576x192 ![] bcast_S_S576x192 main_cst_2
  let main_v11 : IVec S576x192 1 := cmpf .olt main_v9 main_v10
  let main_c_3 : IVec S_ 1 := constantI S_ 1 1#1
  let main_v12 : IVec S_ 1 := (fun x v => Host.reduce IntOp.andi x v reducesTo_S576x192_S_d0_1 h_S_) main_v11 main_c_3
  let main_v13 : IVec S_ 1 := andi main_v8 main_v12
  let main_v14 : FVec F S576 .f32 := Host.absf main_arg3
  let main_cst_4 : FVec F S_ .f32 := constant S_ .f32 0x7F800000#32
  let main_v15 : FVec F S576 .f32 := broadcastInDim S576 ![] bcast_S_S576 main_cst_4
  let main_v16 : IVec S576 1 := cmpf .olt main_v14 main_v15
  fn_part1 (F := F) main_arg4 main_arg5 main_arg6 main_v13 main_v16
-- ==== Kernel.lean ====
abbrev S4096x64x192 : Shape := ⟨3, ![4096, 64, 192]⟩
abbrev S64x64x64 : Shape := ⟨3, ![64, 64, 64]⟩
abbrev S576x192 : Shape := ⟨2, ![576, 192]⟩
abbrev S576 : Shape := ⟨1, ![576]⟩
abbrev S192x192 : Shape := ⟨2, ![192, 192]⟩
abbrev S192 : Shape := ⟨1, ![192]⟩
abbrev S225x6 : Shape := ⟨2, ![225, 6]⟩
abbrev S4096 : Shape := ⟨1, ![4096]⟩
abbrev S_ : Shape := ⟨0, ![]⟩
abbrev S4096x1 : Shape := ⟨2, ![4096, 1]⟩
abbrev S4096x6 : Shape := ⟨2, ![4096, 6]⟩
abbrev S64x64x6 : Shape := ⟨3, ![64, 64, 6]⟩
abbrev S6x64x64 : Shape := ⟨3, ![6, 64, 64]⟩
abbrev S1x6x64x64 : Shape := ⟨4, ![1, 6, 64, 64]⟩
abbrev S64x1x64x64 : Shape := ⟨4, ![64, 1, 64, 64]⟩
abbrev S64x6x64x64 : Shape := ⟨4, ![64, 6, 64, 64]⟩
abbrev S192x576 : Shape := ⟨2, ![192, 576]⟩
abbrev S4096x12288 : Shape := ⟨2, ![4096, 12288]⟩
abbrev S4096x6x4096 : Shape := ⟨3, ![4096, 6, 4096]⟩
abbrev S32x64x192 : Shape := ⟨3, ![32, 64, 192]⟩
abbrev S32x12288 : Shape := ⟨2, ![32, 12288]⟩
abbrev S32x6x4096 : Shape := ⟨3, ![32, 6, 4096]⟩
abbrev S2048x192 : Shape := ⟨2, ![2048, 192]⟩
abbrev S2048x576 : Shape := ⟨2, ![2048, 576]⟩
abbrev S1x576 : Shape := ⟨2, ![1, 576]⟩
abbrev S32x64x6x32 : Shape := ⟨4, ![32, 64, 6, 32]⟩
abbrev S32x6x64x32 : Shape := ⟨4, ![32, 6, 64, 32]⟩
abbrev S192x64x32 : Shape := ⟨3, ![192, 64, 32]⟩
abbrev S192x64x64 : Shape := ⟨3, ![192, 64, 64]⟩
abbrev S32x6x64x64 : Shape := ⟨4, ![32, 6, 64, 64]⟩
abbrev S32x6x64 : Shape := ⟨3, ![32, 6, 64]⟩
abbrev S32x6x64x1 : Shape := ⟨4, ![32, 6, 64, 1]⟩
abbrev S1x192 : Shape := ⟨2, ![1, 192]⟩
abbrev S4096x6x64x64 : Shape := ⟨4, ![4096, 6, 64, 64]⟩

abbrev nBuf : Space → Nat
  | .hbm => 28
  | .vmem => 11
  | .smem => 0
  | _ => 0

abbrev bufTy : (tb : Table) → Fin (tcTables nBuf tb) → BufTy
  | .hbm, ⟨0, _⟩ => ⟨S4096x64x192, .f32⟩
  | .hbm, ⟨1, _⟩ => ⟨S64x64x64, .f32⟩
  | .hbm, ⟨2, _⟩ => ⟨S576x192, .f32⟩
  | .hbm, ⟨3, _⟩ => ⟨S576, .f32⟩
  | .hbm, ⟨4, _⟩ => ⟨S192x192, .f32⟩
  | .hbm, ⟨5, _⟩ => ⟨S192, .f32⟩
  | .hbm, ⟨6, _⟩ => ⟨S225x6, .f32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S4096x6, .f32⟩
  | .hbm, ⟨15, _⟩ => ⟨S64x64x6, .f32⟩
  | .hbm, ⟨16, _⟩ => ⟨S6x64x64, .f32⟩
  | .hbm, ⟨17, _⟩ => ⟨S1x6x64x64, .f32⟩
  | .hbm, ⟨18, _⟩ => ⟨S64x1x64x64, .f32⟩
  | .hbm, ⟨19, _⟩ => ⟨S64x6x64x64, .f32⟩
  | .hbm, ⟨20, _⟩ => ⟨S64x6x64x64, .f32⟩
  | .hbm, ⟨21, _⟩ => ⟨S64x6x64x64, .f32⟩
  | .hbm, ⟨22, _⟩ => ⟨S192x576, .f32⟩
  | .hbm, ⟨23, _⟩ => ⟨S192x192, .f32⟩
  | .hbm, ⟨24, _⟩ => ⟨S4096x12288, .f32⟩
  | .hbm, ⟨25, _⟩ => ⟨S4096x6x4096, .f32⟩
  | .hbm, ⟨26, _⟩ => ⟨S4096x64x192, .f32⟩
  | .hbm, ⟨27, _⟩ => ⟨S4096x6x64x64, .f32⟩
  | .local _ .vmem, ⟨0, _⟩ => ⟨S32x64x192, .f32⟩
  | .local _ .vmem, ⟨1, _⟩ => ⟨S32x64x192, .f32⟩
  | .local _ .vmem, ⟨2, _⟩ => ⟨S64x6x64x64, .f32⟩
  | .local _ .vmem, ⟨3, _⟩ => ⟨S192x576, .f32⟩
  | .local _ .vmem, ⟨4, _⟩ => ⟨S576, .f32⟩
  | .local _ .vmem, ⟨5, _⟩ => ⟨S192x192, .f32⟩
  | .local _ .vmem, ⟨6, _⟩ => ⟨S192, .f32⟩
  | .local _ .vmem, ⟨7, _⟩ => ⟨S32x12288, .f32⟩
  | .local _ .vmem, ⟨8, _⟩ => ⟨S32x12288, .f32⟩
  | .local _ .vmem, ⟨9, _⟩ => ⟨S32x6x4096, .f32⟩
  | .local _ .vmem, ⟨10, _⟩ => ⟨S32x6x4096, .f32⟩
  | _, _ => ⟨S4096x64x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def k0_mult1 (i : grid0.Coords) : BitVec 32 :=
  let arg0 : BitVec 32 := BitVec.ofNat 32 (i 0).val
  let c32_i32 : BitVec 32 := 32#32
  let v28 : BitVec 32 := Scalar.muli arg0 c32_i32
  let c64_i32 : BitVec 32 := 64#32
  let c0_i32 : BitVec 32 := 0#32
  let v29 : BitVec 1 := Scalar.cmpi .eq c64_i32 c0_i32
  let c1_i32 : BitVec 32 := 1#32
  let v30 : BitVec 32 := Scalar.select v29 c1_i32 c64_i32
  let v31 : BitVec 32 := Scalar.remsi v28 v30
  let c0_i32_8 : BitVec 32 := 0#32
  let v33 : BitVec 1 := Scalar.cmpi .slt v31 c0_i32_8
  let c0_i32_9 : BitVec 32 := 0#32
  let v34 : BitVec 1 := Scalar.cmpi .slt v30 c0_i32_9
  let v35 : BitVec 1 := Scalar.xori v33 v34
  let c0_i32_7 : BitVec 32 := 0#32
  let v32 : BitVec 1 := Scalar.cmpi .ne v31 c0_i32_7
  let v36 : BitVec 1 := Scalar.andi v35 v32
  let v37 : BitVec 32 := Scalar.addi v31 v30
  let v38 : BitVec 32 := Scalar.select v36 v37 v31
  v38
def k0_off1 (i : grid0.Coords) : Fin 4 → Nat :=
  let arg0 : BitVec 32 := BitVec.ofNat 32 (i 0).val
  let c32_i32 : BitVec 32 := 32#32
  let v28 : BitVec 32 := Scalar.muli arg0 c32_i32
  let c64_i32 : BitVec 32 := 64#32
  let c0_i32 : BitVec 32 := 0#32
  let v29 : BitVec 1 := Scalar.cmpi .eq c64_i32 c0_i32
  let c1_i32 : BitVec 32 := 1#32
  let v30 : BitVec 32 := Scalar.select v29 c1_i32 c64_i32
  let v31 : BitVec 32 := Scalar.remsi v28 v30
  let c0_i32_8 : BitVec 32 := 0#32
  let v33 : BitVec 1 := Scalar.cmpi .slt v31 c0_i32_8
  let c0_i32_9 : BitVec 32 := 0#32
  let v34 : BitVec 1 := Scalar.cmpi .slt v30 c0_i32_9
  let v35 : BitVec 1 := Scalar.xori v33 v34
  let c0_i32_7 : BitVec 32 := 0#32
  let v32 : BitVec 1 := Scalar.cmpi .ne v31 c0_i32_7
  let v36 : BitVec 1 := Scalar.andi v35 v32
  let v37 : BitVec 32 := Scalar.addi v31 v30
  let v38 : BitVec 32 := Scalar.select v36 v37 v31
  let v39 : BitVec 32 := v38
  let v40 : Index := Scalar.indexCast v39
  let c0_10 : Index := 0#32
  let c0_11 : Index := 0#32
  let c0_12 : Index := 0#32
  ![v40.toNat, 0, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x6x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S192x576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S576 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x12288 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x6x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  shapeCasts_S4096x6_S64x64x6 : S4096x6.ShapeCasts S64x64x6
  transposes_S64x64x6_S6x64x64_2_0_1 : S64x64x6.Transposes [2, 0, 1] S6x64x64
  bcast_S6x64x64_S1x6x64x64_1_2_3 : S6x64x64.BroadcastsInDim S1x6x64x64 (![1, 2, 3] : Fin 3 → Fin S1x6x64x64.rank)
  bcast_S64x64x64_S64x1x64x64_0_2_3 : S64x64x64.BroadcastsInDim S64x1x64x64 (![0, 2, 3] : Fin 3 → Fin S64x1x64x64.rank)
  bcast_S1x6x64x64_S64x6x64x64_0_1_2_3 : S1x6x64x64.BroadcastsInDim S64x6x64x64 (![0, 1, 2, 3] : Fin 4 → Fin S64x6x64x64.rank)
  bcast_S64x1x64x64_S64x6x64x64_0_1_2_3 : S64x1x64x64.BroadcastsInDim S64x6x64x64 (![0, 1, 2, 3] : Fin 4 → Fin S64x6x64x64.rank)
  transposes_S576x192_S192x576_1_0 : S576x192.Transposes [1, 0] S192x576
  transposes_S192x192_S192x192_1_0 : S192x192.Transposes [1, 0] S192x192
  inb_S32x64x192_S32x64x192_0_0_0 : ∀ a, (![0, 0, 0] : Fin 3 → Nat) a + S32x64x192.size a ≤ S32x64x192.size a
  h_S32x64x192 : 0 < S32x64x192.numel
  bitsLt_bf16_f32 : FTy.bits .bf16 < FTy.bits .f32
  shapeCasts_S32x64x192_S2048x192 : S32x64x192.ShapeCasts S2048x192
  inb_S192x576_S192x576_0_0 : ∀ a, (![0, 0] : Fin 2 → Nat) a + S192x576.size a ≤ S192x576.size a
  h_S192x576 : 0 < S192x576.numel
  shapeCasts_S192x576_S192x576 : S192x576.ShapeCasts S192x576
  inb_S576_S576_0 : ∀ a, (![0] : Fin 1 → Nat) a + S576.size a ≤ S576.size a
  h_S576 : 0 < S576.numel
  shapeCasts_S576_S1x576 : S576.ShapeCasts S1x576
  broadcasts_S1x576_S2048x576 : S1x576.Broadcasts S2048x576
  slices_S2048x576_o0_0_S2048x192 : S2048x576.Slices ![0, 0] S2048x192
  slices_S2048x576_o0_192_S2048x192 : S2048x576.Slices ![0, 192] S2048x192
  slices_S2048x576_o0_384_S2048x192 : S2048x576.Slices ![0, 384] S2048x192
  shapeCasts_S2048x192_S32x64x6x32 : S2048x192.ShapeCasts S32x64x6x32
  transposes_S32x64x6x32_p0_2_1_3_S32x6x64x32 : S32x64x6x32.Transposes [0, 2, 1, 3] S32x6x64x32
  shapeCasts_S32x6x64x32_S192x64x32 : S32x6x64x32.ShapeCasts S192x64x32
  shapeCasts_S192x64x64_S32x6x64x64 : S192x64x64.ShapeCasts S32x6x64x64
  h_S32x6x64x64 : 0 < S32x6x64x64.numel
  shapeCasts_S32x6x64x64_S32x6x64x64 : S32x6x64x64.ShapeCasts S32x6x64x64
  reduces_S32x6x64x64_S32x6x64 : S32x6x64x64.Reduces [3] S32x6x64
  shapeCasts_S32x6x64_S32x6x64x1 : S32x6x64.ShapeCasts S32x6x64x1
  broadcasts_S32x6x64x1_S32x6x64x64 : S32x6x64x1.Broadcasts S32x6x64x64
  shapeCasts_S32x6x64x64_S32x6x4096 : S32x6x64x64.ShapeCasts S32x6x4096
  inb_S32x6x4096_S32x6x4096_0_0_0 : ∀ a, (![0, 0, 0] : Fin 3 → Nat) a + S32x6x4096.size a ≤ S32x6x4096.size a
  h_S32x6x4096 : 0 < S32x6x4096.numel
  shapeCasts_S32x6x64x64_S192x64x64 : S32x6x64x64.ShapeCasts S192x64x64
  shapeCasts_S192x64x32_S32x6x64x32 : S192x64x32.ShapeCasts S32x6x64x32
  transposes_S32x6x64x32_p0_2_1_3_S32x64x6x32 : S32x6x64x32.Transposes [0, 2, 1, 3] S32x64x6x32
  shapeCasts_S32x64x6x32_S2048x192 : S32x64x6x32.ShapeCasts S2048x192
  inb_S192x192_S192x192_0_0 : ∀ a, (![0, 0] : Fin 2 → Nat) a + S192x192.size a ≤ S192x192.size a
  h_S192x192 : 0 < S192x192.numel
  shapeCasts_S192x192_S192x192 : S192x192.ShapeCasts S192x192
  inb_S192_S192_0 : ∀ a, (![0] : Fin 1 → Nat) a + S192.size a ≤ S192.size a
  h_S192 : 0 < S192.numel
  shapeCasts_S192_S1x192 : S192.ShapeCasts S1x192
  broadcasts_S1x192_S2048x192 : S1x192.Broadcasts S2048x192
  shapeCasts_S2048x192_S32x12288 : S2048x192.ShapeCasts S32x12288
  inb_S32x12288_S32x12288_0_0 : ∀ a, (![0, 0] : Fin 2 → Nat) a + S32x12288.size a ≤ S32x12288.size a
  h_S32x12288 : 0 < S32x12288.numel
  shapeCasts_S4096x12288_S4096x64x192 : S4096x12288.ShapeCasts S4096x64x192
  shapeCasts_S4096x6x4096_S4096x6x64x64 : S4096x6x4096.ShapeCasts S4096x6x64x64
  gather_S225x6_S4096x1_S4096x6_1_0_n_n_0_1_16_wf : GatherDims.WF S225x6 S4096x1 S4096x6 [1] [0] [] [0] [] 1 ![1, 6]
  dot_S2048x192_S192x576_S2048x576_1_0_0_1_n_n_wf : DotDims.WF S2048x192 S192x576 S2048x576 [1] [0] [0] [1] [] []
  dot_S192x64x32_S192x64x32_S192x64x64_2_2_1_1_0_0_wf : DotDims.WF S192x64x32 S192x64x32 S192x64x64 [2] [2] [1] [1] [0] [0]
  dot_S192x64x64_S192x64x32_S192x64x32_2_1_1_2_0_0_wf : DotDims.WF S192x64x64 S192x64x32 S192x64x32 [2] [1] [1] [2] [0] [0]
  dot_S2048x192_S192x192_S2048x192_1_0_0_1_n_n_wf : DotDims.WF S2048x192 S192x192 S2048x192 [1] [0] [0] [1] [] []
  hrank0 : 0 < grid0.rank
  k0_mult1_dvd : ∀ i : grid0.Coords, 32 ∣ (k0_mult1 i).toNat
  k0_off1_inb : ∀ i : grid0.Coords, ∀ a, (k0_off1 i) a + S32x6x64x64.size a ≤ S64x6x64x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x192.size a ≤ S4096x64x192.size a
  hwx0_0 : ∀ i : grid0.Coords, EltTy.bits .f32 = 32 ∨ (Rect.block (s := S4096x64x192) S32x64x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x6x64x64.size a ≤ S64x6x64x64.size a
  hwx0_1 : ∀ i : grid0.Coords, EltTy.bits .f32 = 32 ∨ (Rect.block (s := S64x6x64x64) S64x6x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x576.size a ≤ S192x576.size a
  hwx0_2 : ∀ i : grid0.Coords, EltTy.bits .f32 = 32 ∨ (Rect.block (s := S192x576) S192x576.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S576.size a ≤ S576.size a
  hwx0_3 : ∀ i : grid0.Coords, EltTy.bits .f32 = 32 ∨ (Rect.block (s := S576) S576.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S192x192.size a ≤ S192x192.size a
  hwx0_4 : ∀ i : grid0.Coords, EltTy.bits .f32 = 32 ∨ (Rect.block (s := S192x192) S192x192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S192.size a ≤ S192.size a
  hwx0_5 : ∀ i : grid0.Coords, EltTy.bits .f32 = 32 ∨ (Rect.block (s := S192) S192.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x12288.size a ≤ S4096x12288.size a
  hwx0_6 : ∀ i : grid0.Coords, EltTy.bits .f32 = 32 ∨ (Rect.block (s := S4096x12288) S32x12288.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x6x4096.size a ≤ S4096x6x4096.size a
  hwx0_7 : ∀ i : grid0.Coords, EltTy.bits .f32 = 32 ∨ (Rect.block (s := S4096x6x4096) S32x6x4096.size (cc0_transform_7 i) (hinb0_7 i)).WholeWords (EltTy.packing .f32)

variable [Facts₀]

def gather_S225x6_S4096x1_S4096x6_1_0_n_n_0_1_16 : GatherDims S225x6 S4096x1 S4096x6 where
  offsetDims := [1]
  collapsedSliceDims := [0]
  operandBatchingDims := []
  startIndicesBatchingDims := []
  startIndexMap := [0]
  indexVectorDim := 1
  sliceSizes := ![1, 6]
  wf := gather_S225x6_S4096x1_S4096x6_1_0_n_n_0_1_16_wf
def dot_S2048x192_S192x576_S2048x576_1_0_0_1_n_n : DotDims S2048x192 S192x576 S2048x576 where
  lhsContracting := [1]
  rhsContracting := [0]
  lhsNonContracting := [0]
  rhsNonContracting := [1]
  lhsBatch := []
  rhsBatch := []
  wf := dot_S2048x192_S192x576_S2048x576_1_0_0_1_n_n_wf
def dot_S192x64x32_S192x64x32_S192x64x64_2_2_1_1_0_0 : DotDims S192x64x32 S192x64x32 S192x64x64 where
  lhsContracting := [2]
  rhsContracting := [2]
  lhsNonContracting := [1]
  rhsNonContracting := [1]
  lhsBatch := [0]
  rhsBatch := [0]
  wf := dot_S192x64x32_S192x64x32_S192x64x64_2_2_1_1_0_0_wf
def dot_S192x64x64_S192x64x32_S192x64x32_2_1_1_2_0_0 : DotDims S192x64x64 S192x64x32 S192x64x32 where
  lhsContracting := [2]
  rhsContracting := [1]
  lhsNonContracting := [1]
  rhsNonContracting := [2]
  lhsBatch := [0]
  rhsBatch := [0]
  wf := dot_S192x64x64_S192x64x32_S192x64x32_2_1_1_2_0_0_wf
def dot_S2048x192_S192x192_S2048x192_1_0_0_1_n_n : DotDims S2048x192 S192x192 S2048x192 where
  lhsContracting := [1]
  rhsContracting := [0]
  lhsNonContracting := [0]
  rhsNonContracting := [1]
  lhsBatch := []
  rhsBatch := []
  wf := dot_S2048x192_S192x192_S2048x192_1_0_0_1_n_n_wf

abbrev win0_0 : Pipeline.Window sig grid0 :=
  Pipeline.Window.ofSpec (Memref.whole main_arg0) S32x64x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S64x6x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S192x576.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S576.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S192x192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14_0) S32x12288.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_1) S32x6x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x64x192 : Shape := ⟨3, ![4096, 64, 192]⟩
abbrev S64x64x64 : Shape := ⟨3, ![64, 64, 64]⟩
abbrev S576x192 : Shape := ⟨2, ![576, 192]⟩
abbrev S576 : Shape := ⟨1, ![576]⟩
abbrev S192x192 : Shape := ⟨2, ![192, 192]⟩
abbrev S192 : Shape := ⟨1, ![192]⟩
abbrev S225x6 : Shape := ⟨2, ![225, 6]⟩
abbrev S64x64 : Shape := ⟨2, ![64, 64]⟩
abbrev S4096x64x576 : Shape := ⟨3, ![4096, 64, 576]⟩
abbrev S1x1x576 : Shape := ⟨3, ![1, 1, 576]⟩
abbrev S4096x64x3x6x32 : Shape := ⟨5, ![4096, 64, 3, 6, 32]⟩
abbrev S3x4096x6x64x32 : Shape := ⟨5, ![3, 4096, 6, 64, 32]⟩
abbrev S1x4096x6x64x32 : Shape := ⟨5, ![1, 4096, 6, 64, 32]⟩
abbrev S4096x6x64x32 : Shape := ⟨4, ![4096, 6, 64, 32]⟩
abbrev S_ : Shape := ⟨0, ![]⟩
abbrev S4096x6x64x64 : Shape := ⟨4, ![4096, 6, 64, 64]⟩
abbrev S4096 : Shape := ⟨1, ![4096]⟩
abbrev S4096x1 : Shape := ⟨2, ![4096, 1]⟩
abbrev S4096x6 : Shape := ⟨2, ![4096, 6]⟩
abbrev S64x64x6 : Shape := ⟨3, ![64, 64, 6]⟩
abbrev S6x64x64 : Shape := ⟨3, ![6, 64, 64]⟩
abbrev S1x6x64x64 : Shape := ⟨4, ![1, 6, 64, 64]⟩
abbrev S64x64x6x64x64 : Shape := ⟨5, ![64, 64, 6, 64, 64]⟩
abbrev S1x64x1x64x64 : Shape := ⟨5, ![1, 64, 1, 64, 64]⟩
abbrev S4096x6x64 : Shape := ⟨3, ![4096, 6, 64]⟩
abbrev S4096x6x64x1 : Shape := ⟨4, ![4096, 6, 64, 1]⟩
abbrev S4096x64x6x32 : Shape := ⟨4, ![4096, 64, 6, 32]⟩
abbrev S1x1x192 : Shape := ⟨3, ![1, 1, 192]⟩

abbrev nBuf : Space → Nat
  | .hbm => 65
  | .vmem => 0
  | .smem => 0
  | _ => 0

abbrev bufTy : (tb : Table) → Fin (tcTables nBuf tb) → BufTy
  | .hbm, ⟨0, _⟩ => ⟨S4096x64x192, .f32⟩
  | .hbm, ⟨1, _⟩ => ⟨S64x64x64, .f32⟩
  | .hbm, ⟨2, _⟩ => ⟨S576x192, .f32⟩
  | .hbm, ⟨3, _⟩ => ⟨S576, .f32⟩
  | .hbm, ⟨4, _⟩ => ⟨S192x192, .f32⟩
  | .hbm, ⟨5, _⟩ => ⟨S192, .f32⟩
  | .hbm, ⟨6, _⟩ => ⟨S225x6, .f32⟩
  | .hbm, ⟨7, _⟩ => ⟨S64x64, .i32⟩
  | .hbm, ⟨8, _⟩ => ⟨S4096x64x576, .f32⟩
  | .hbm, ⟨9, _⟩ => ⟨S1x1x576, .f32⟩
  | .hbm, ⟨10, _⟩ => ⟨S4096x64x576, .f32⟩
  | .hbm, ⟨11, _⟩ => ⟨S4096x64x576, .f32⟩
  | .hbm, ⟨12, _⟩ => ⟨S4096x64x3x6x32, .f32⟩
  | .hbm, ⟨13, _⟩ => ⟨S3x4096x6x64x32, .f32⟩
  | .hbm, ⟨14, _⟩ => ⟨S1x4096x6x64x32, .f32⟩
  | .hbm, ⟨15, _⟩ => ⟨S4096x6x64x32, .f32⟩
  | .hbm, ⟨16, _⟩ => ⟨S1x4096x6x64x32, .f32⟩
  | .hbm, ⟨17, _⟩ => ⟨S4096x6x64x32, .f32⟩
  | .hbm, ⟨18, _⟩ => ⟨S1x4096x6x64x32, .f32⟩
  | .hbm, ⟨19, _⟩ => ⟨S4096x6x64x32, .f32⟩
  | .hbm, ⟨20, _⟩ => ⟨S_, .f32⟩
  | .hbm, ⟨21, _⟩ => ⟨S4096x6x64x32, .f32⟩
  | .hbm, ⟨22, _⟩ => ⟨S4096x6x64x32, .f32⟩
  | .hbm, ⟨23, _⟩ => ⟨S4096x6x64x64, .f32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S4096x6, .f32⟩
  | .hbm, ⟨34, _⟩ => ⟨S64x64x6, .f32⟩
  | .hbm, ⟨35, _⟩ => ⟨S6x64x64, .f32⟩
  | .hbm, ⟨36, _⟩ => ⟨S1x6x64x64, .f32⟩
  | .hbm, ⟨37, _⟩ => ⟨S4096x6x64x64, .f32⟩
  | .hbm, ⟨38, _⟩ => ⟨S4096x6x64x64, .f32⟩
  | .hbm, ⟨39, _⟩ => ⟨S64x64x6x64x64, .f32⟩
  | .hbm, ⟨40, _⟩ => ⟨S1x64x1x64x64, .f32⟩
  | .hbm, ⟨41, _⟩ => ⟨S64x64x6x64x64, .f32⟩
  | .hbm, ⟨42, _⟩ => ⟨S64x64x6x64x64, .f32⟩
  | .hbm, ⟨43, _⟩ => ⟨S4096x6x64x64, .f32⟩
  | .hbm, ⟨44, _⟩ => ⟨S_, .f32⟩
  | .hbm, ⟨45, _⟩ => ⟨S4096x6x64, .f32⟩
  | .hbm, ⟨46, _⟩ => ⟨S_, .f32⟩
  | .hbm, ⟨47, _⟩ => ⟨S4096x6x64, .f32⟩
  | .hbm, ⟨48, _⟩ => ⟨S4096x6x64, .f32⟩
  | .hbm, ⟨49, _⟩ => ⟨S4096x6x64x1, .f32⟩
  | .hbm, ⟨50, _⟩ => ⟨S4096x6x64x64, .f32⟩
  | .hbm, ⟨51, _⟩ => ⟨S4096x6x64x64, .f32⟩
  | .hbm, ⟨52, _⟩ => ⟨S4096x6x64x64, .f32⟩
  | .hbm, ⟨53, _⟩ => ⟨S_, .f32⟩
  | .hbm, ⟨54, _⟩ => ⟨S4096x6x64, .f32⟩
  | .hbm, ⟨55, _⟩ => ⟨S4096x6x64x1, .f32⟩
  | .hbm, ⟨56, _⟩ => ⟨S4096x6x64x64, .f32⟩
  | .hbm, ⟨57, _⟩ => ⟨S4096x6x64x64, .f32⟩
  | .hbm, ⟨58, _⟩ => ⟨S4096x6x64x32, .f32⟩
  | .hbm, ⟨59, _⟩ => ⟨S4096x64x6x32, .f32⟩
  | .hbm, ⟨60, _⟩ => ⟨S4096x64x192, .f32⟩
  | .hbm, ⟨61, _⟩ => ⟨S4096x64x192, .f32⟩
  | .hbm, ⟨62, _⟩ => ⟨S1x1x192, .f32⟩
  | .hbm, ⟨63, _⟩ => ⟨S4096x64x192, .f32⟩
  | .hbm, ⟨64, _⟩ => ⟨S4096x64x192, .f32⟩
  | _, _ => ⟨S4096x64x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_0 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]

class Facts₀ : Prop where
  bcast_S576_S1x1x576_2 : S576.BroadcastsInDim S1x1x576 (![2] : Fin 1 → Fin S1x1x576.rank)
  bcast_S1x1x576_S4096x64x576_0_1_2 : S1x1x576.BroadcastsInDim S4096x64x576 (![0, 1, 2] : Fin 3 → Fin S4096x64x576.rank)
  shapeCasts_S4096x64x576_S4096x64x3x6x32 : S4096x64x576.ShapeCasts S4096x64x3x6x32
  transposes_S4096x64x3x6x32_S3x4096x6x64x32_2_0_3_1_4 : S4096x64x3x6x32.Transposes [2, 0, 3, 1, 4] S3x4096x6x64x32
  slices_S3x4096x6x64x32_S1x4096x6x64x32_0_0_0_0_0 : S3x4096x6x64x32.Slices ![0, 0, 0, 0, 0] S1x4096x6x64x32
  shapeCasts_S1x4096x6x64x32_S4096x6x64x32 : S1x4096x6x64x32.ShapeCasts S4096x6x64x32
  slices_S3x4096x6x64x32_S1x4096x6x64x32_1_0_0_0_0 : S3x4096x6x64x32.Slices ![1, 0, 0, 0, 0] S1x4096x6x64x32
  slices_S3x4096x6x64x32_S1x4096x6x64x32_2_0_0_0_0 : S3x4096x6x64x32.Slices ![2, 0, 0, 0, 0] S1x4096x6x64x32
  bcast_S_S4096x6x64x32 : S_.BroadcastsInDim S4096x6x64x32 (![] : Fin 0 → Fin S4096x6x64x32.rank)
  shapeCasts_S64x64_S4096 : S64x64.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  shapeCasts_S4096x6_S64x64x6 : S4096x6.ShapeCasts S64x64x6
  transposes_S64x64x6_S6x64x64_2_0_1 : S64x64x6.Transposes [2, 0, 1] S6x64x64
  bcast_S6x64x64_S1x6x64x64_1_2_3 : S6x64x64.BroadcastsInDim S1x6x64x64 (![1, 2, 3] : Fin 3 → Fin S1x6x64x64.rank)
  bcast_S1x6x64x64_S4096x6x64x64_0_1_2_3 : S1x6x64x64.BroadcastsInDim S4096x6x64x64 (![0, 1, 2, 3] : Fin 4 → Fin S4096x6x64x64.rank)
  shapeCasts_S4096x6x64x64_S64x64x6x64x64 : S4096x6x64x64.ShapeCasts S64x64x6x64x64
  bcast_S64x64x64_S1x64x1x64x64_1_3_4 : S64x64x64.BroadcastsInDim S1x64x1x64x64 (![1, 3, 4] : Fin 3 → Fin S1x64x1x64x64.rank)
  bcast_S1x64x1x64x64_S64x64x6x64x64_0_1_2_3_4 : S1x64x1x64x64.BroadcastsInDim S64x64x6x64x64 (![0, 1, 2, 3, 4] : Fin 5 → Fin S64x64x6x64x64.rank)
  shapeCasts_S64x64x6x64x64_S4096x6x64x64 : S64x64x6x64x64.ShapeCasts S4096x6x64x64
  reducesTo_S4096x6x64x64_S4096x6x64_d3 : S4096x6x64x64.ReducesTo [3] S4096x6x64
  h_S_ : 0 < S_.numel
  bcast_S_S4096x6x64 : S_.BroadcastsInDim S4096x6x64 (![] : Fin 0 → Fin S4096x6x64.rank)
  bcast_S4096x6x64_S4096x6x64x1_0_1_2 : S4096x6x64.BroadcastsInDim S4096x6x64x1 (![0, 1, 2] : Fin 3 → Fin S4096x6x64x1.rank)
  bcast_S4096x6x64x1_S4096x6x64x64_0_1_2_3 : S4096x6x64x1.BroadcastsInDim S4096x6x64x64 (![0, 1, 2, 3] : Fin 4 → Fin S4096x6x64x64.rank)
  transposes_S4096x6x64x32_S4096x64x6x32_0_2_1_3 : S4096x6x64x32.Transposes [0, 2, 1, 3] S4096x64x6x32
  shapeCasts_S4096x64x6x32_S4096x64x192 : S4096x64x6x32.ShapeCasts S4096x64x192
  bcast_S192_S1x1x192_2 : S192.BroadcastsInDim S1x1x192 (![2] : Fin 1 → Fin S1x1x192.rank)
  bcast_S1x1x192_S4096x64x192_0_1_2 : S1x1x192.BroadcastsInDim S4096x64x192 (![0, 1, 2] : Fin 3 → Fin S4096x64x192.rank)
  dot_S4096x64x192_S576x192_S4096x64x576_2_1_01_0_n_n_wf : DotDims.WF S4096x64x192 S576x192 S4096x64x576 [2] [1] [0, 1] [0] [] []
  dot_S4096x6x64x32_S4096x6x64x32_S4096x6x64x64_3_3_2_2_01_01_wf : DotDims.WF S4096x6x64x32 S4096x6x64x32 S4096x6x64x64 [3] [3] [2] [2] [0, 1] [0, 1]
  gather_S225x6_S4096x1_S4096x6_1_0_n_n_0_1_16_wf : GatherDims.WF S225x6 S4096x1 S4096x6 [1] [0] [] [0] [] 1 ![1, 6]
  dot_S4096x6x64x64_S4096x6x64x32_S4096x6x64x32_3_2_2_3_01_01_wf : DotDims.WF S4096x6x64x64 S4096x6x64x32 S4096x6x64x32 [3] [2] [2] [3] [0, 1] [0, 1]
  dot_S4096x64x192_S192x192_S4096x64x192_2_1_01_0_n_n_wf : DotDims.WF S4096x64x192 S192x192 S4096x64x192 [2] [1] [0, 1] [0] [] []

variable [Facts₀]

def dot_S4096x64x192_S576x192_S4096x64x576_2_1_01_0_n_n : DotDims S4096x64x192 S576x192 S4096x64x576 where
  lhsContracting := [2]
  rhsContracting := [1]
  lhsNonContracting := [0, 1]
  rhsNonContracting := [0]
  lhsBatch := []
  rhsBatch := []
  wf := dot_S4096x64x192_S576x192_S4096x64x576_2_1_01_0_n_n_wf
def dot_S4096x6x64x32_S4096x6x64x32_S4096x6x64x64_3_3_2_2_01_01 : DotDims S4096x6x64x32 S4096x6x64x32 S4096x6x64x64 where
  lhsContracting := [3]
  rhsContracting := [3]
  lhsNonContracting := [2]
  rhsNonContracting := [2]
  lhsBatch := [0, 1]
  rhsBatch := [0, 1]
  wf := dot_S4096x6x64x32_S4096x6x64x32_S4096x6x64x64_3_3_2_2_01_01_wf
def gather_S225x6_S4096x1_S4096x6_1_0_n_n_0_1_16 : GatherDims S225x6 S4096x1 S4096x6 where
  offsetDims := [1]
  collapsedSliceDims := [0]
  operandBatchingDims := []
  startIndicesBatchingDims := []
  startIndexMap := [0]
  indexVectorDim := 1
  sliceSizes := ![1, 6]
  wf := gather_S225x6_S4096x1_S4096x6_1_0_n_n_0_1_16_wf
def dot_S4096x6x64x64_S4096x6x64x32_S4096x6x64x32_3_2_2_3_01_01 : DotDims S4096x6x64x64 S4096x6x64x32 S4096x6x64x32 where
  lhsContracting := [3]
  rhsContracting := [2]
  lhsNonContracting := [2]
  rhsNonContracting := [3]
  lhsBatch := [0, 1]
  rhsBatch := [0, 1]
  wf := dot_S4096x6x64x64_S4096x6x64x32_S4096x6x64x32_3_2_2_3_01_01_wf
def dot_S4096x64x192_S192x192_S4096x64x192_2_1_01_0_n_n : DotDims S4096x64x192 S192x192 S4096x64x192 where
  lhsContracting := [2]
  rhsContracting := [1]
  lhsNonContracting := [0, 1]
  rhsNonContracting := [0]
  lhsBatch := []
  rhsBatch := []
  wf := dot_S4096x64x192_S192x192_S4096x64x192_2_1_01_0_n_n_wf

class Facts : Prop extends Facts₀ where

variable [Facts]
-- ==== Proof.Spec.lean ====
/-
  Windowed multi-head attention with a relative-position bias and a per-window mask, index by index, on the
  extended reals: for a window `b` (4096 of them, 64 tokens each, 192 channels, 6 heads of 32 channels)
    qkv b n o        = Σ_c x[b,n,c] · qw[o,c] + qb[o]                           (the fused projection, 576 columns)
    score b h n m    = Σ_d (q[b,h,n,d] · s) · k[b,h,m,d]                        (q, k, v: columns 0.., 192.., 384.. of qkv)
    logit b h n m    = score b h n m + (bias[h,n,m] + mask[b mod 64, n, m])
    attn b h n ·     = the softmax of the row logit b h n · (row maximum subtracted, exact quotient)
    mix b n h d      = Σ_m attn b h n m · v[b,h,m,d]
    out b n o        = Σ_c mix b n (c / 32) (c mod 32) · pw[o,c] + pb[o]
  The two results are `out` and `attn`. No program is imported here: this is the common value both programs
  are shown to compute.
-/
import Idealize.ShloMosaic.PureOps.Ideal
import Idealize.ShloMosaic.PureOps.Ideal.Laws
import Idealize.ShloMosaic.Lib.ValueIdx

noncomputable section

namespace Cert.WinAttn

open Idealize.ShloMosaic Idealize.ShloMosaic.ValueIdx

abbrev Sx : Shape := ⟨3, ![4096, 64, 192]⟩
abbrev Smask : Shape := ⟨3, ![64, 64, 64]⟩
abbrev Sqw : Shape := ⟨2, ![576, 192]⟩
abbrev Sqb : Shape := ⟨1, ![576]⟩
abbrev Spw : Shape := ⟨2, ![192, 192]⟩
abbrev Spb : Shape := ⟨1, ![192]⟩
abbrev Sbias : Shape := ⟨3, ![6, 64, 64]⟩
abbrev Sattn : Shape := ⟨4, ![4096, 6, 64, 64]⟩

/-- The column of the fused projection holding channel `d` of head `h` of part `s` (0 the queries, 1 the keys,
    2 the values): `192 s + 32 h + d`. -/
def col (s : Fin 3) (h : Fin 6) (d : Fin 32) : Fin 576 := ⟨s.val * 192 + h.val * 32 + d.val, by omega⟩

/-- The mask row a window uses: windows cycle through the 64 masks. -/
def win (b : Fin 4096) : Fin 64 := ⟨b.val % 64, Nat.mod_lt _ (by norm_num)⟩

/-- The window that grid point `t` (of 128) handles in row `tb` (of 32) of its block: `32 t + tb`. -/
def blockWin (t : Fin 128) (tb : Fin 32) : Fin 4096 := ⟨t.val * 32 + tb.val, by omega⟩

/-- The head of channel `c` of the 192, and the channel's place inside its head. -/
def headOf (c : Fin 192) : Fin 6 := ⟨c.val / 32, by omega⟩
def chanOf (c : Fin 192) : Fin 32 := ⟨c.val % 32, Nat.mod_lt _ (by norm_num)⟩

/-- The scale on the queries: the binary32 value nearest to 1/√32, the same word in both programs (never evaluated). -/
def scale : EReal := Ideal.ofBits .f32 0x3E3504F3#32

/-- A row's maximum, folded from −∞. -/
def rowMax (f : Fin 64 → EReal) : EReal := (Finset.univ : Finset (Fin 64)).fold max (Ideal.ofBits .f32 0xFF800000#32) f

/-- The softmax of a row of 64 logits: exp (f m − max f) over the sum of those. -/
def softmaxRow (f : Fin 64 → EReal) (m : Fin 64) : EReal :=
  Ideal.div (Ideal.exp (f m - rowMax f)) (∑ k : Fin 64, Ideal.exp (f k - rowMax f))

variable (x : FVec Ideal Sx .f32) (mask : FVec Ideal Smask .f32) (qw : FVec Ideal Sqw .f32) (qb : FVec Ideal Sqb .f32)
  (pw : FVec Ideal Spw .f32) (pb : FVec Ideal Spb .f32) (bias : FVec Ideal Sbias .f32)

/-- The fused query/key/value projection of token `n` of window `b`, column `o`. -/
def qkv (b : Fin 4096) (n : Fin 64) (o : Fin 576) : EReal :=
  (∑ c : Fin 192, x (ix3 b n c) * qw (ix2 o c)) + qb (ix1 o)

/-- The scaled query–key product of tokens `n`, `m` in head `h`. -/
def score (b : Fin 4096) (h : Fin 6) (n m : Fin 64) : EReal :=
  ∑ d : Fin 32, (qkv x qw qb b n (col 0 h d) * scale) * qkv x qw qb b m (col 1 h d)

/-- The logit: the score plus the head's relative-position bias plus the window's mask. -/
def logit (b : Fin 4096) (h : Fin 6) (n m : Fin 64) : EReal :=
  score x qw qb b h n m + (bias (ix3 h n m) + mask (ix3 (win b) n m))

/-- The attention weights. -/
def attn (b : Fin 4096) (h : Fin 6) (n m : Fin 64) : EReal :=
  softmaxRow (fun k => logit x mask qw qb bias b h n k) m

/-- The values mixed by the weights. -/
def mix (b : Fin 4096) (n : Fin 64) (h : Fin 6) (d : Fin 32) : EReal :=
  ∑ m : Fin 64, attn x mask qw qb bias b h n m * qkv x qw qb b m (col 2 h d)

/-- The output projection of the heads laid side by side. -/
def out (b : Fin 4096) (n : Fin 64) (o : Fin 192) : EReal :=
  (∑ c : Fin 192, mix x mask qw qb bias b n (headOf c) (chanOf c) * pw (ix2 o c)) + pb (ix1 o)

/-- The first result, as an array. -/
def outArr : FVec Ideal Sx .f32 := fun j => out x mask qw qb pw pb bias (j 0) (j 1) (j 2)

/-- The second result, as an array. -/
def attnArr : FVec Ideal Sattn .f32 := fun j => attn x mask qw qb bias (j 0) (j 1) (j 2) (j 3)

theorem outArr_apply (b : Fin 4096) (n : Fin 64) (o : Fin 192) :
    outArr x mask qw qb pw pb bias (ix3 b n o) = out x mask qw qb pw pb bias b n o := rfl

theorem attnArr_apply (b : Fin 4096) (h : Fin 6) (n m : Fin 64) :
    attnArr x mask qw qb bias (ix4 b h n m) = attn x mask qw qb bias b h n m := rfl

/-- The two groupings of the three summands of a logit agree: addition on the extended reals is associative. -/
theorem add_bias_mask (s bb mm : EReal) : (s + bb) + mm = s + (bb + mm) := add_assoc s bb mm

end Cert.WinAttn

end
-- ==== Proof.KerBlocks.lean ====
/-
  Names for what a grid point finds in its six input windows, each at its literal shape, and the two pieces of
  arithmetic on the point's number: the point as a number below 128, and the slab of the bias-and-mask block a
  point's row reads, `(32 t) mod 64 + tb`.
-/
import proofs.«428607_j12240656794299_3_alg».proof.Proof.Gen.KernelIdeal.Frame
import proofs.«428607_j12240656794299_3_alg».proof.Proof.Spec

noncomputable section

namespace Cert.KernelIdeal.Blocks

open Cert.KernelIdeal Cert.KernelIdeal.Gen Idealize.ShloMosaic Idealize.ShloMosaic.TcCoe Idealize.ShloMosaic.ValueIdx Cert.WinAttn

theorem N_eq : cfg0.N = 128 := by decide

/-- A grid point as a number below 128. -/
def pt (t : Fin cfg0.N) : Fin 128 := ⟨t.val, N_eq ▸ t.isLt⟩

/-- The slab (mask number) that row `tb` of point `t`'s block reads: `(32 t) mod 64 + tb`, which is the mask of
    window `32 t + tb`. -/
def slab (t : Fin cfg0.N) (tb : Fin 32) : Fin 64 := ⟨(t.val * 32) % 64 + tb.val, by have := tb.isLt; omega⟩

theorem slab_eq_win (t : Fin cfg0.N) (tb : Fin 32) : slab t tb = win (blockWin (pt t) tb) := by
  apply Fin.ext; show (t.val * 32) % 64 + tb.val = (t.val * 32 + tb.val) % 64
  have := tb.isLt; omega

variable (m : (ℓ : Loc nD τ sig) → Buf (Elt Ideal) ℓ)

/-- The point's 32 windows of tokens. -/
abbrev xblk (c : Dev nD) (t : Fin cfg0.N) : Vec Ideal S32x64x192 .f32 := iblk m c 0 t
/-- The whole bias-and-mask array (every point finds all of it). -/
abbrev cblk (c : Dev nD) (t : Fin cfg0.N) : Vec Ideal S64x6x64x64 .f32 := iblk m c 1 t
/-- The fused projection's weights, transposed. -/
abbrev wblk (c : Dev nD) (t : Fin cfg0.N) : Vec Ideal S192x576 .f32 := iblk m c 2 t
/-- The fused projection's bias. -/
abbrev bqblk (c : Dev nD) (t : Fin cfg0.N) : Vec Ideal S576 .f32 := iblk m c 3 t
/-- The output projection's weights, transposed. -/
abbrev pwblk (c : Dev nD) (t : Fin cfg0.N) : Vec Ideal S192x192 .f32 := iblk m c 4 t
/-- The output projection's bias. -/
abbrev pbblk (c : Dev nD) (t : Fin cfg0.N) : Vec Ideal S192 .f32 := iblk m c 5 t

end Cert.KernelIdeal.Blocks

end
-- ==== Proof.KerPieces.lean ====
/-
  What the kernel body leaves in its two output blocks at a grid point, as the body's payloads of the point's
  input blocks; and the slabs of the bias-and-mask block the body loads, read at an index.
-/
import proofs.«428607_j12240656794299_3_alg».proof.Proof.KerBlocks
import Idealize.ShloMosaic.Lib.Pipeline.Value
import Idealize.ShloMosaic.Lib.Tactic

noncomputable section

namespace Cert.KernelIdeal.Pieces

open Cert.KernelIdeal Cert.KernelIdeal.Gen Cert.KernelIdeal.Blocks Idealize.ShloMosaic Idealize.ShloMosaic.TcCoe Idealize.ShloMosaic.ValueIdx Cert.WinAttn
open Idealize.ShloMosaic.Tactic Idealize.SL.Sem

section Generic

variable {F : FTy → Type} [FloatOps F]

/-- The zero offsets of a whole-block access, at ranks one, two and three: each is the constant zero. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- What the body's load of 32 consecutive slabs reads of the whole bias-and-mask block `x1` at grid coordinates
    `i`: entry `(tb, h, n, k)` is `x1` at `(off i + tb, h, n, k)`, with `off i` the offset the body computes from
    the coordinate (`32 i` reduced mod 64, by the body's signed remainder and its sign correction). -/
def gload (i : grid0.Coords) (x1 : Vec F S64x6x64x64 .f32) : Vec F S32x6x64x64 .f32 :=
  View.ld x1 (Rect.unit (s := S64x6x64x64) (k0_off1 i) S32x6x64x64.size (k0_off1_inb i))

/-- The first output block after the body: its one store covers the block, so the block is the store's value, the
    output projection of the mixed values, over what the loads read: the whole input blocks, and the 32 slabs of
    the bias-and-mask block. -/
theorem piece6 (c : Dev nD) (i : grid0.Coords) (a1 : Memref sig .tc .vmem S32x64x192 .f32) (h1 : a1.IsWhole) (a2 : Memref sig .tc .vmem S64x6x64x64 .f32) (h2 : a2.IsWhole) (a3 : Memref sig .tc .vmem S192x576 .f32) (h3 : a3.IsWhole) (a4 : Memref sig .tc .vmem S576 .f32) (h4 : a4.IsWhole) (a5 : Memref sig .tc .vmem S192x192 .f32) (h5 : a5.IsWhole) (a6 : Memref sig .tc .vmem S192 .f32) (h6 : a6.IsWhole) (a7 : Memref sig .tc .vmem S32x12288 .f32) (h7 : a7.IsWhole) (a8 : Memref sig .tc .vmem S32x6x4096 .f32) (h8 : a8.IsWhole)
    (x0 : Vec F S32x64x192 .f32) (x1 : Vec F S64x6x64x64 .f32) (x2 : Vec F S192x576 .f32) (x3 : Vec F S576 .f32) (x4 : Vec F S192x192 .f32) (x5 : Vec F S192 .f32) :
    out0_A_6 c i a1 h1 a2 h2 a3 h3 a4 h4 a5 h5 a6 h6 a7 h7 a8 h8 x0 x1 x2 x3 x4 x5 = k0_pay3 (k0_pay5 x0 x2 x3) (k0_pay6 x0 x2 x3) (gload i x1) x4 x5 := by
  unfold out0_A_6
  rw [View.read_writes_eq_canon _ _ _ (cover0_A_6 c i a1 h1 a2 h2 a3 h3 a4 h4 a5 h5 a6 h6 a7 h7 a8 h8 x0 x1 x2 x3 x4 x5)]
  unfold kernelRun0_A
  dsimp only
  sl_unfold_words
  rw [View.canon_unit_zero hz2]
  simp only [View.readAt_eq_ld, h1.read_unread, h2.read_unread, h3.read_unread, h4.read_unread, h5.read_unread, h6.read_unread,
    View.ld_unit_zero (S := S32x64x192) hz3, View.ld_unit_zero (S := S192x576) hz2, View.ld_unit_zero (S := S576) hz1,
    View.ld_unit_zero (S := S192x192) hz2, View.ld_unit_zero (S := S192) hz1]
  rfl

/-- The second output block after the body: likewise its one covering store's value, the attention weights. -/
theorem piece7 (c : Dev nD) (i : grid0.Coords) (a1 : Memref sig .tc .vmem S32x64x192 .f32) (h1 : a1.IsWhole) (a2 : Memref sig .tc .vmem S64x6x64x64 .f32) (h2 : a2.IsWhole) (a3 : Memref sig .tc .vmem S192x576 .f32) (h3 : a3.IsWhole) (a4 : Memref sig .tc .vmem S576 .f32) (h4 : a4.IsWhole) (a5 : Memref sig .tc .vmem S192x192 .f32) (h5 : a5.IsWhole) (a6 : Memref sig .tc .vmem S192 .f32) (h6 : a6.IsWhole) (a7 : Memref sig .tc .vmem S32x12288 .f32) (h7 : a7.IsWhole) (a8 : Memref sig .tc .vmem S32x6x4096 .f32) (h8 : a8.IsWhole)
    (x0 : Vec F S32x64x192 .f32) (x1 : Vec F S64x6x64x64 .f32) (x2 : Vec F S192x576 .f32) (x3 : Vec F S576 .f32) (x4 : Vec F S192x192 .f32) (x5 : Vec F S192 .f32) :
    out0_A_7 c i a1 h1 a2 h2 a3 h3 a4 h4 a5 h5 a6 h6 a7 h7 a8 h8 x0 x1 x2 x3 x4 x5 = k0_pay2 (k0_pay6 x0 x2 x3) (gload i x1) := by
  unfold out0_A_7
  rw [View.read_writes_eq_canon _ _ _ (cover0_A_7 c i a1 h1 a2 h2 a3 h3 a4 h4 a5 h5 a6 h6 a7 h7 a8 h8 x0 x1 x2 x3 x4 x5)]
  unfold kernelRun0_A
  dsimp only
  sl_unfold_words
  rw [View.canon_unit_zero hz3]
  simp only [View.readAt_eq_ld, h1.read_unread, h2.read_unread, h3.read_unread, h4.read_unread, h5.read_unread, h6.read_unread,
    View.ld_unit_zero (S := S32x64x192) hz3, View.ld_unit_zero (S := S192x576) hz2, View.ld_unit_zero (S := S576) hz1,
    View.ld_unit_zero (S := S192x192) hz2, View.ld_unit_zero (S := S192) hz1]
  rfl

/-- The offset the body computes at point `t` of the 128 is `(32 t) mod 64`: checked at every point. -/
theorem off_eq : ∀ t : Fin cfg0.N, k0_off1 (grid0.coords t) 0 = (t.val * 32) % 64 :=
  (by decide +kernel : ∀ t : Fin grid0.N, k0_off1 (grid0.coords t) 0 = (t.val * 32) % 64)

/-- The loaded slabs at an index: row `tb` of point `t`'s load is slab `(32 t) mod 64 + tb` of the block, the
    other three coordinates unchanged (offset zero, stride one). -/
theorem gload_apply (t : Fin cfg0.N) (x1 : Vec F S64x6x64x64 .f32) (tb : Fin 32) (h : Fin 6) (n k : Fin 64) :
    gload (grid0.coords t) x1 (ix4 tb h n k) = x1 (ix4 (slab t tb) h n k) := by
  unfold gload
  show x1 _ = x1 _
  congr 1
  funext a
  apply Fin.ext
  match a with
  | ⟨0, _⟩ =>
    show k0_off1 (grid0.coords t) 0 + 1 * tb.val = (t.val * 32) % 64 + tb.val
    rw [off_eq t]; omega
  | ⟨1, _⟩ => show 0 + 1 * h.val = h.val; omega
  | ⟨2, _⟩ => show 0 + 1 * n.val = n.val; omega
  | ⟨3, _⟩ => show 0 + 1 * k.val = k.val; omega

end Generic

variable (m : (ℓ : Loc nD τ sig) → Buf (Elt Ideal) ℓ)

/-- The 32 slabs of the bias-and-mask block that point `t`'s body loads (slabs `(32 t) mod 64` onward). -/
def cload (c : Dev nD) (t : Fin cfg0.N) : Vec Ideal S32x6x64x64 .f32 :=
  gload (F := Ideal) (grid0.coords t) (cblk m c t)

theorem cload_apply (c : Dev nD) (t : Fin cfg0.N) (tb : Fin 32) (h : Fin 6) (n k : Fin 64) :
    cload m c t (ix4 tb h n k) = cblk m c t (ix4 (slab t tb) h n k) := by
  exact gload_apply (F := Ideal) t (cblk m c t) tb h n k

/-- The output block (window 6) after the body at point `t`. -/
theorem outs_fst (c : Dev nD) (t : Fin cfg0.N) :
    (outsAt0 m c t).1
      = k0_pay3 (k0_pay5 (xblk m c t) (wblk m c t) (bqblk m c t)) (k0_pay6 (xblk m c t) (wblk m c t) (bqblk m c t))
          (cload m c t) (pwblk m c t) (pbblk m c t) := by
  unfold outsAt0; dsimp only
  exact piece6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t)

/-- The attention block (window 7) after the body at point `t`. -/
theorem outs_snd (c : Dev nD) (t : Fin cfg0.N) :
    (outsAt0 m c t).2 = k0_pay2 (k0_pay6 (xblk m c t) (wblk m c t) (bqblk m c t)) (cload m c t) := by
  unfold outsAt0; dsimp only
  exact piece7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t)

end Cert.KernelIdeal.Pieces

end
-- ==== Proof.KerStages.lean ====
/-
  The kernel program's host lines before the launch, as named stages of the arguments:
    idxK   the relative-position index table as a column of start indices (the wrap of negative words is
           already resolved in this program: the selecting mask is the constant false)
    biasK  the bias table's rows at idxK, laid out [6, 64, 64]
    combK  bias (over all 64 masks) + mask (over all 6 heads)     [64, 6, 64, 64]
  The two weight matrices reach the launch transposed.
-/
import proofs.«428607_j12240656794299_3_alg».proof.Proof.Gen.KernelIdeal

noncomputable section

namespace Cert.KernelIdeal.KStages

open Cert.KernelIdeal Cert.KernelIdeal.Gen Idealize.ShloMosaic Idealize.ShloMosaic.TcCoe

variable {F : FTy → Type} [FloatOps F]

/-- The index table, one row of 4096 words. -/
def litK : IVec S4096 32 := fun i => lit0 (S4096.rowMajor i)

/-- The start indices: the table's words (the wrapped alternative is never selected). -/
def idxK : IVec S4096x1 32 :=
  broadcastInDim S4096x1 ![0] bcast_S4096_S4096x1_0
    (select (constantI S4096 1 0#1) (addi litK (broadcastInDim S4096 ![] bcast_S_S4096 (constantI S_ 32 225#32))) litK)

/-- The relative-position bias, head-major. -/
def biasK (tbl : FVec F S225x6 .f32) : FVec F S6x64x64 .f32 :=
  transpose S6x64x64 [2, 0, 1] (shapeCast S64x64x6 (Host.gather gather_S225x6_S4096x1_S4096x6_1_0_n_n_0_1_16 tbl idxK) shapeCasts_S4096x6_S64x64x6)
    transposes_S64x64x6_S6x64x64_2_0_1

/-- Bias and mask added once for every (mask, head) pair. -/
def combK (mask : FVec F S64x64x64 .f32) (tbl : FVec F S225x6 .f32) : FVec F S64x6x64x64 .f32 :=
  addf
    (broadcastInDim S64x6x64x64 ![0, 1, 2, 3] bcast_S1x6x64x64_S64x6x64x64_0_1_2_3
      (broadcastInDim S1x6x64x64 ![1, 2, 3] bcast_S6x64x64_S1x6x64x64_1_2_3 (biasK tbl)))
    (broadcastInDim S64x6x64x64 ![0, 1, 2, 3] bcast_S64x1x64x64_S64x6x64x64_0_1_2_3
      (broadcastInDim S64x1x64x64 ![0, 2, 3] bcast_S64x64x64_S64x1x64x64_0_2_3 mask))

/-- The projection weights as the launch receives them. -/
def qwT (qw : FVec F S576x192 .f32) : FVec F S192x576 .f32 := transpose S192x576 [1, 0] qw transposes_S576x192_S192x576_1_0
def pwT (pw : FVec F S192x192 .f32) : FVec F S192x192 .f32 := transpose S192x192 [1, 0] pw transposes_S192x192_S192x192_1_0

end Cert.KernelIdeal.KStages

end
-- ==== Proof.KerHost.lean ====
/-
  The arrays the launch finds, as the host lines before it leave them, and each input block read at an index:
  the tokens' block is 32 consecutive windows of the first argument; the weights arrive transposed; the
  bias-and-mask array is the bias plus the mask.
-/
import proofs.«428607_j12240656794299_3_alg».proof.Proof.KerBlocks
import proofs.«428607_j12240656794299_3_alg».proof.Proof.KerStages
import Idealize.ShloMosaic.Lib.Pipeline.Value
import Idealize.ShloMosaic.Lib.ValueLayout

noncomputable section

namespace Cert.KernelIdeal.KHost

open Cert.KernelIdeal Cert.KernelIdeal.Gen Cert.KernelIdeal.Blocks Cert.KernelIdeal.KStages Idealize.ShloMosaic Idealize.ShloMosaic.TcCoe Idealize.ShloMosaic.ValueIdx Cert.WinAttn

variable (m : (ℓ : Loc nD τ sig) → Buf (Elt Ideal) ℓ)

/-! ## The three arrays the host lines leave for the launch -/

/-- The bias-and-mask array: the seventeen host lines before the launch, read at their fifteenth result. -/
theorem V_comb (c : Dev nD) : V m c main_v11 = combK (F := Ideal) (m ((c.tc : Thread nD τ).loc main_arg1)) (m ((c.tc : Thread nD τ).loc main_arg6)) := by
  show StableHlo.after hostOps0 (fun b => m (c, b)) (Proc.devRef .tc main_v11) = _
  after_results
  rfl
/-- The fused projection's weights reach the launch transposed. -/
theorem V_qwT (c : Dev nD) : V m c main_v12 = qwT (F := Ideal) (m ((c.tc : Thread nD τ).loc main_arg2)) := by
  show StableHlo.after hostOps0 (fun b => m (c, b)) (Proc.devRef .tc main_v12) = _
  after_results
  rfl
/-- The output projection's weights reach the launch transposed. -/
theorem V_pwT (c : Dev nD) : V m c main_v13 = pwT (F := Ideal) (m ((c.tc : Thread nD τ).loc main_arg4)) := by
  show StableHlo.after hostOps0 (fun b => m (c, b)) (Proc.devRef .tc main_v13) = _
  after_results
  rfl

/-! ## Where each window's block sits: the index maps over the 128 grid points -/

/-- The tokens' window moves along the first axis with the point and stays at 0 on the other two. -/
theorem index_x : ∀ t : Fin cfg0.N, win0_0.index t (0 : Fin 3) = t.val ∧ win0_0.index t (1 : Fin 3) = 0 ∧ win0_0.index t (2 : Fin 3) = 0 :=
  (by decide +kernel : ∀ t : Fin grid0.N, _)
/-- The other five input windows never move: block index 0 on every axis, at every point. -/
theorem index_c : ∀ t : Fin cfg0.N, win0_1.index t (0 : Fin 4) = 0 ∧ win0_1.index t (1 : Fin 4) = 0 ∧ win0_1.index t (2 : Fin 4) = 0 ∧ win0_1.index t (3 : Fin 4) = 0 :=
  (by decide +kernel : ∀ t : Fin grid0.N, _)
theorem index_w : ∀ t : Fin cfg0.N, win0_2.index t (0 : Fin 2) = 0 ∧ win0_2.index t (1 : Fin 2) = 0 :=
  (by decide +kernel : ∀ t : Fin grid0.N, _)
theorem index_bq : ∀ t : Fin cfg0.N, win0_3.index t (0 : Fin 1) = 0 :=
  (by decide +kernel : ∀ t : Fin grid0.N, _)
theorem index_pw : ∀ t : Fin cfg0.N, win0_4.index t (0 : Fin 2) = 0 ∧ win0_4.index t (1 : Fin 2) = 0 :=
  (by decide +kernel : ∀ t : Fin grid0.N, _)
theorem index_pb : ∀ t : Fin cfg0.N, win0_5.index t (0 : Fin 1) = 0 :=
  (by decide +kernel : ∀ t : Fin grid0.N, _)

/-! ## The bias-and-mask array at an index -/

/-- At (mask w, head h, row n, column k) the sum of the two broadcasts is the bias at (h, n, k) plus the mask at
    (w, n, k): the bias is repeated over the 64 masks through a unit leading axis, the mask over the 6 heads through
    a unit second axis. -/
theorem combK_apply (mask : FVec Ideal S64x64x64 .f32) (tbl : FVec Ideal S225x6 .f32) (w : Fin 64) (h : Fin 6) (n k : Fin 64) :
    combK (F := Ideal) mask tbl (ix4 w h n k) = biasK (F := Ideal) tbl (ix3 h n k) + mask (ix3 w n k) := by
  unfold combK
  refine (addf_apply _ _ _).trans ?_
  refine congrArg₂ (· + ·) ?_ ?_
  · refine (broadcastInDim_apply _ _ _ (ix4 w h n k) (ix4 (0 : Fin 1) h n k) ?_).trans ?_
    · intro a
      match a with
      | ⟨0, _⟩ => rfl
      | ⟨1, _⟩ => rfl
      | ⟨2, _⟩ => rfl
      | ⟨3, _⟩ => rfl
    · refine broadcastInDim_apply _ _ _ (ix4 (0 : Fin 1) h n k) (ix3 h n k) ?_
      intro a
      match a with
      | ⟨0, _⟩ => rfl
      | ⟨1, _⟩ => rfl
      | ⟨2, _⟩ => rfl
  · refine (broadcastInDim_apply _ _ _ (ix4 w h n k) (ix4 w (0 : Fin 1) n k) ?_).trans ?_
    · intro a
      match a with
      | ⟨0, _⟩ => rfl
      | ⟨1, _⟩ => rfl
      | ⟨2, _⟩ => rfl
      | ⟨3, _⟩ => rfl
    · refine broadcastInDim_apply _ _ _ (ix4 w (0 : Fin 1) n k) (ix3 w n k) ?_
      intro a
      match a with
      | ⟨0, _⟩ => rfl
      | ⟨1, _⟩ => rfl
      | ⟨2, _⟩ => rfl

/-! ## Each input block read at an index

A block's element sits in its array, on each axis, at the block index times the block's size plus its own
coordinate. -/

/-- Row tb of point t's block of tokens is window 32 t + tb of the first argument. -/
theorem xblk_apply (c : Dev nD) (t : Fin cfg0.N) (tb : Fin 32) (n : Fin 64) (ch : Fin 192) :
    xblk m c t (ix3 tb n ch) = (m ((c.tc : Thread nD τ).loc main_arg0)) (ix3 (blockWin (pt t) tb) n ch) := by
  show V m c main_arg0 (((cfg0.win 0).blk t).view.emb (ix3 tb n ch)) = _
  rw [Gen.V_main_arg0]
  refine congrArg _ (funext fun a => Fin.ext ?_)
  obtain ⟨e0, e1, e2⟩ := index_x t
  match a with
  | ⟨0, _⟩ => show win0_0.index t (0 : Fin 3) * 32 + 1 * tb.val = t.val * 32 + tb.val; omega
  | ⟨1, _⟩ => show win0_0.index t (1 : Fin 3) * 64 + 1 * n.val = n.val; omega
  | ⟨2, _⟩ => show win0_0.index t (2 : Fin 3) * 192 + 1 * ch.val = ch.val; omega
/-- Every point finds the whole bias-and-mask array: the bias plus the mask. -/
theorem cblk_apply (c : Dev nD) (t : Fin cfg0.N) (w : Fin 64) (h : Fin 6) (n k : Fin 64) :
    cblk m c t (ix4 w h n k) = biasK (F := Ideal) (m ((c.tc : Thread nD τ).loc main_arg6)) (ix3 h n k) + (m ((c.tc : Thread nD τ).loc main_arg1)) (ix3 w n k) := by
  show V m c main_v11 (((cfg0.win 1).blk t).view.emb (ix4 w h n k)) = _
  have e : ((cfg0.win 1).blk t).view.emb (ix4 w h n k) = ix4 w h n k := by
    obtain ⟨e0, e1, e2, e3⟩ := index_c t
    funext a; apply Fin.ext
    match a with
    | ⟨0, _⟩ => show win0_1.index t (0 : Fin 4) * 64 + 1 * w.val = w.val; omega
    | ⟨1, _⟩ => show win0_1.index t (1 : Fin 4) * 6 + 1 * h.val = h.val; omega
    | ⟨2, _⟩ => show win0_1.index t (2 : Fin 4) * 64 + 1 * n.val = n.val; omega
    | ⟨3, _⟩ => show win0_1.index t (3 : Fin 4) * 64 + 1 * k.val = k.val; omega
  rw [e]
  exact (congrFun (V_comb m c) (ix4 w h n k)).trans (combK_apply _ _ w h n k)
/-- The fused projection's weights at (channel, column) are the argument's at (column, channel). -/
theorem wblk_apply (c : Dev nD) (t : Fin cfg0.N) (ch : Fin 192) (o : Fin 576) :
    wblk m c t (ix2 ch o) = (m ((c.tc : Thread nD τ).loc main_arg2)) (ix2 o ch) := by
  show V m c main_v12 (((cfg0.win 2).blk t).view.emb (ix2 ch o)) = _
  have e : ((cfg0.win 2).blk t).view.emb (ix2 ch o) = ix2 ch o := by
    obtain ⟨e0, e1⟩ := index_w t
    funext a; apply Fin.ext
    match a with
    | ⟨0, _⟩ => show win0_2.index t (0 : Fin 2) * 192 + 1 * ch.val = ch.val; omega
    | ⟨1, _⟩ => show win0_2.index t (1 : Fin 2) * 576 + 1 * o.val = o.val; omega
  rw [e]
  refine (congrFun (V_qwT m c) (ix2 ch o)).trans ?_
  unfold qwT
  exact transpose_ix2_apply _ _ ch o
/-- The fused projection's bias is the fourth argument, whole. -/
theorem bqblk_apply (c : Dev nD) (t : Fin cfg0.N) (o : Fin 576) :
    bqblk m c t (ix1 o) = (m ((c.tc : Thread nD τ).loc main_arg3)) (ix1 o) := by
  show V m c main_arg3 (((cfg0.win 3).blk t).view.emb (ix1 o)) = _
  rw [Gen.V_main_arg3]
  refine congrArg _ (funext fun a => Fin.ext ?_)
  have e0 := index_bq t
  match a with
  | ⟨0, _⟩ => show win0_3.index t (0 : Fin 1) * 576 + 1 * o.val = o.val; omega
/-- The output projection's weights at (channel, column) are the argument's at (column, channel). -/
theorem pwblk_apply (c : Dev nD) (t : Fin cfg0.N) (ch o : Fin 192) :
    pwblk m c t (ix2 ch o) = (m ((c.tc : Thread nD τ).loc main_arg4)) (ix2 o ch) := by
  show V m c main_v13 (((cfg0.win 4).blk t).view.emb (ix2 ch o)) = _
  have e : ((cfg0.win 4).blk t).view.emb (ix2 ch o) = ix2 ch o := by
    obtain ⟨e0, e1⟩ := index_pw t
    funext a; apply Fin.ext
    match a with
    | ⟨0, _⟩ => show win0_4.index t (0 : Fin 2) * 192 + 1 * ch.val = ch.val; omega
    | ⟨1, _⟩ => show win0_4.index t (1 : Fin 2) * 192 + 1 * o.val = o.val; omega
  rw [e]
  refine (congrFun (V_pwT m c) (ix2 ch o)).trans ?_
  unfold pwT
  exact transpose_ix2_apply _ _ ch o
/-- The output projection's bias is the sixth argument, whole. -/
theorem pbblk_apply (c : Dev nD) (t : Fin cfg0.N) (o : Fin 192) :
    pbblk m c t (ix1 o) = (m ((c.tc : Thread nD τ).loc main_arg5)) (ix1 o) := by
  show V m c main_arg5 (((cfg0.win 5).blk t).view.emb (ix1 o)) = _
  rw [Gen.V_main_arg5]
  refine congrArg _ (funext fun a => Fin.ext ?_)
  have e0 := index_pb t
  match a with
  | ⟨0, _⟩ => show win0_5.index t (0 : Fin 1) * 192 + 1 * o.val = o.val; omega

end Cert.KernelIdeal.KHost

end
-- ==== Proof.KerPayA.lean ====
/-
  The kernel body's first three payloads read at an index on the extended reals, over ANY loaded blocks:
  the fused projection of the block's 2048 rows, the values laid out head-major, and the scaled query–key products.
-/
import proofs.«428607_j12240656794299_3_alg».proof.Proof.Gen.KernelIdeal.Skeleton
import proofs.«428607_j12240656794299_3_alg».proof.Proof.Spec
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx Cert.WinAttn

variable (x0 : Vec Ideal S32x64x192 .f32) (w : Vec Ideal S192x576 .f32) (bq : Vec Ideal S576 .f32)

/-- Row `64 tb + n` of the block's 2048 rows is token `n` of the block's window `tb`. -/
def row (tb : Fin 32) (n : Fin 64) : Fin 2048 := ⟨tb.val * 64 + n.val, by omega⟩

/-- The projection's product into the zero accumulator, read at (r, o): the sum over the 192 channels of the
    products of the two operands' entries. -/
private theorem mm1_apply (A : FVec Ideal S2048x192 .bf16) (B : FVec Ideal S192x576 .bf16) (r : Fin 2048) (o : Fin 576) :
    matmul dot_S2048x192_S192x576_S2048x576_1_0_0_1_n_n none A B (constant (F := Ideal) S2048x576 .f32 0x00000000#32) (ix2 r o)
      = ∑ c : Fin 192, A (ix2 r c) * B (ix2 c o) := by
  show FloatOps.matmul _ none A B _ (ix2 r o) = _
  rw [Ideal.matmul_constant_zero_apply,
    ← Equiv.sum_comp (contrEquiv1 dot_S2048x192_S192x576_S2048x576_1_0_0_1_n_n 192 rfl rfl).symm]
  refine Finset.sum_congr rfl fun c _ => ?_
  have c2 := contrEquiv1_symm_val dot_S2048x192_S192x576_S2048x576_1_0_0_1_n_n 192 rfl rfl c
  have l2 : dot_S2048x192_S192x576_S2048x576_1_0_0_1_n_n.lhsIdx (ix2 r o) ((contrEquiv1 _ 192 rfl rfl).symm c) = ix2 r c := by
    funext ax; apply Fin.ext
    match ax with
    | ⟨0, _⟩ => simp [DotDims.lhsIdx, dot_S2048x192_S192x576_S2048x576_1_0_0_1_n_n]; rfl
    | ⟨1, _⟩ => simp [DotDims.lhsIdx, dot_S2048x192_S192x576_S2048x576_1_0_0_1_n_n]; exact c2
  have r2 : dot_S2048x192_S192x576_S2048x576_1_0_0_1_n_n.rhsIdx (ix2 r o) ((contrEquiv1 _ 192 rfl rfl).symm c) = ix2 c o := by
    funext ax; apply Fin.ext
    match ax with
    | ⟨0, _⟩ => simp [DotDims.rhsIdx, dot_S2048x192_S192x576_S2048x576_1_0_0_1_n_n]; exact c2
    | ⟨1, _⟩ => simp [DotDims.rhsIdx, dot_S2048x192_S192x576_S2048x576_1_0_0_1_n_n]; rfl
  rw [l2, r2]

/-- The batched product (one matrix pair per (window, head) pair `e`), read at (e, n, m): the sum over the 32
    channels of the head of the products of the two operands' entries at rows n and m. -/
private theorem mm2_apply (A B : FVec Ideal S192x64x32 .bf16) (e : Fin 192) (n m : Fin 64) :
    matmul dot_S192x64x32_S192x64x32_S192x64x64_2_2_1_1_0_0 none A B (constant (F := Ideal) S192x64x64 .f32 0x00000000#32) (ix3 e n m)
      = ∑ d : Fin 32, A (ix3 e n d) * B (ix3 e m d) := by
  show FloatOps.matmul _ none A B _ (ix3 e n m) = _
  rw [Ideal.matmul_constant_zero_apply,
    ← Equiv.sum_comp (contrEquiv1 dot_S192x64x32_S192x64x32_S192x64x64_2_2_1_1_0_0 32 rfl rfl).symm]
  refine Finset.sum_congr rfl fun c _ => ?_
  have c3 := contrEquiv1_symm_val dot_S192x64x32_S192x64x32_S192x64x64_2_2_1_1_0_0 32 rfl rfl c
  have l3 : dot_S192x64x32_S192x64x32_S192x64x64_2_2_1_1_0_0.lhsIdx (ix3 e n m) ((contrEquiv1 _ 32 rfl rfl).symm c) = ix3 e n c := by
    funext ax; apply Fin.ext
    match ax with
    | ⟨0, _⟩ => simp [DotDims.lhsIdx, dot_S192x64x32_S192x64x32_S192x64x64_2_2_1_1_0_0]; rfl
    | ⟨1, _⟩ => simp [DotDims.lhsIdx, dot_S192x64x32_S192x64x32_S192x64x64_2_2_1_1_0_0]; rfl
    | ⟨2, _⟩ => simp [DotDims.lhsIdx, dot_S192x64x32_S192x64x32_S192x64x64_2_2_1_1_0_0]; exact c3
  have r3 : dot_S192x64x32_S192x64x32_S192x64x64_2_2_1_1_0_0.rhsIdx (ix3 e n m) ((contrEquiv1 _ 32 rfl rfl).symm c) = ix3 e m c := by
    funext ax; apply Fin.ext
    match ax with
    | ⟨0, _⟩ => simp [DotDims.rhsIdx, dot_S192x64x32_S192x64x32_S192x64x64_2_2_1_1_0_0]; rfl
    | ⟨1, _⟩ => simp [DotDims.rhsIdx, dot_S192x64x32_S192x64x32_S192x64x64_2_2_1_1_0_0]; rfl
    | ⟨2, _⟩ => simp [DotDims.rhsIdx, dot_S192x64x32_S192x64x32_S192x64x64_2_2_1_1_0_0]; exact c3
  rw [l3, r3]

/-- A 192-column part of the 2048 × 576 array (columns from `off`), viewed [32, 64, 6, 32] and laid out head-major,
    reads at (tb, h, n, d) the array at row `64 tb + n`, column `off + 32 h + d`. -/
private theorem heads_apply (X : FVec Ideal S2048x576 .f32) (off : Nat) (hs : S2048x576.Slices ![0, off] S2048x192)
    (tb : Fin 32) (h : Fin 6) (n : Fin 64) (d : Fin 32) (k : Fin 576) (hk : k.val = off + (h.val * 32 + d.val)) :
    transpose S32x6x64x32 [0, 2, 1, 3]
        (shapeCast S32x64x6x32 (extractStridedSlice S2048x192 ![0, off] X hs) shapeCasts_S2048x192_S32x64x6x32)
        transposes_S32x64x6x32_p0_2_1_3_S32x6x64x32 (ix4 tb h n d)
      = X (ix2 (row tb n) k) := by
  refine (transpose_apply _ _ transposes_S32x64x6x32_p0_2_1_3_S32x6x64x32 (ix4 tb h n d) (ix4 tb n h d) fun b => ?_).trans ?_
  · match b with
    | ⟨0, _⟩ => rfl
    | ⟨1, _⟩ => rfl
    | ⟨2, _⟩ => rfl
    | ⟨3, _⟩ => rfl
  refine (shapeCast_apply _ shapeCasts_S2048x192_S32x64x6x32 (ix4 tb n h d)
    (ix2 (row tb n) (⟨h.val * 32 + d.val, by omega⟩ : Fin 192)) ?_).trans ?_
  · rw [Shape.rowMajor_val_two, Shape.rowMajor_val_four]
    show (tb.val * 64 + n.val) * 192 + (h.val * 32 + d.val) = ((tb.val * 64 + n.val) * 6 + h.val) * 32 + d.val
    omega
  exact slice2_axis1_apply off X hs (row tb n) _ k hk

theorem pay4_apply (tb : Fin 32) (n : Fin 64) (o : Fin 576) :
    k0_pay4 x0 w bq (ix2 (row tb n) o) = (∑ c : Fin 192, x0 (ix3 tb n c) * w (ix2 c o)) + bq (ix1 o) := by
  unfold k0_pay4
  refine (addf_apply _ _ _).trans ?_
  refine congrArg₂ (· + ·) ?_ ?_
  · refine (mm1_apply _ _ _ _).trans ?_
    refine Finset.sum_congr rfl fun c _ => ?_
    refine congrArg₂ (· * ·) ?_ ?_
    · exact shapeCast_apply (truncf (F := Ideal) .bf16 x0 bitsLt_bf16_f32) shapeCasts_S32x64x192_S2048x192
        (ix2 (row tb n) c) (ix3 tb n c) (by rw [Shape.rowMajor_val_three, Shape.rowMajor_val_two]; rfl)
    · exact congrFun (shapeCast_self w shapeCasts_S192x576_S192x576) (ix2 c o)
  · refine (broadcastTo_1b_ab_apply _ _ _ _).trans ?_
    exact shapeCast_a_1a_apply _ _ _ _

theorem pay5_apply (tb : Fin 32) (h : Fin 6) (n : Fin 64) (d : Fin 32) :
    k0_pay5 x0 w bq (ix4 tb h n d) = k0_pay4 x0 w bq (ix2 (row tb n) (col 2 h d)) := by
  unfold k0_pay5
  exact heads_apply (k0_pay4 x0 w bq) 384 slices_S2048x576_o0_384_S2048x192 tb h n d (col 2 h d) (by
    show 2 * 192 + h.val * 32 + d.val = 384 + (h.val * 32 + d.val)
    omega)

theorem pay6_apply (tb : Fin 32) (h : Fin 6) (n m : Fin 64) :
    k0_pay6 x0 w bq (ix4 tb h n m)
      = ∑ d : Fin 32, (k0_pay4 x0 w bq (ix2 (row tb n) (col 0 h d)) * scale) * k0_pay4 x0 w bq (ix2 (row tb m) (col 1 h d)) := by
  unfold k0_pay6
  refine (shapeCast_apply _ shapeCasts_S192x64x64_S32x6x64x64 (ix4 tb h n m)
    (ix3 (⟨tb.val * 6 + h.val, by omega⟩ : Fin 192) n m) ?_).trans ?_
  · rw [Shape.rowMajor_val_three, Shape.rowMajor_val_four]
    rfl
  refine (mm2_apply _ _ _ _ _).trans ?_
  refine Finset.sum_congr rfl fun d _ => ?_
  refine congrArg₂ (· * ·) ?_ ?_
  · refine (shapeCast_apply _ shapeCasts_S32x6x64x32_S192x64x32 (ix3 (⟨tb.val * 6 + h.val, by omega⟩ : Fin 192) n d)
      (ix4 tb h n d) (by rw [Shape.rowMajor_val_three, Shape.rowMajor_val_four]; rfl)).trans ?_
    refine (truncf_apply (ψ := .bf16) _ bitsLt_bf16_f32 _).trans ?_
    refine (mulf_apply _ _ _).trans ?_
    refine congrArg₂ (· * ·) ?_ rfl
    exact heads_apply (k0_pay4 x0 w bq) 0 slices_S2048x576_o0_0_S2048x192 tb h n d (col 0 h d) (by
      show 0 * 192 + h.val * 32 + d.val = 0 + (h.val * 32 + d.val)
      omega)
  · refine (shapeCast_apply _ shapeCasts_S32x6x64x32_S192x64x32 (ix3 (⟨tb.val * 6 + h.val, by omega⟩ : Fin 192) m d)
      (ix4 tb h m d) (by rw [Shape.rowMajor_val_three, Shape.rowMajor_val_four]; rfl)).trans ?_
    refine (truncf_apply (ψ := .bf16) _ bitsLt_bf16_f32 _).trans ?_
    exact heads_apply (k0_pay4 x0 w bq) 192 slices_S2048x576_o0_192_S2048x192 tb h m d (col 1 h d) (by
      show 1 * 192 + h.val * 32 + d.val = 192 + (h.val * 32 + d.val)
      omega)

end Cert.KernelIdeal.Pay

end
-- ==== Proof.KerPayB.lean ====
/-
  The kernel body's last three payloads read at an index on the extended reals, over ANY operands: the row softmax
  of scores plus the loaded bias-and-mask block, its flat layout, and the weighted values projected and laid flat.
-/
import proofs.«428607_j12240656794299_3_alg».proof.Proof.Gen.KernelIdeal.Skeleton
import proofs.«428607_j12240656794299_3_alg».proof.Proof.Spec
import Idealize.ShloMosaic.Lib.Pipeline.Value
import Idealize.ShloMosaic.Lib.ValueLayout
import Idealize.ShloMosaic.Lib.StackMember

noncomputable section

namespace Cert.KernelIdeal.Pay

open Cert.KernelIdeal Cert.KernelIdeal.Gen Idealize.ShloMosaic Idealize.ShloMosaic.ValueIdx Cert.WinAttn

variable (v19 : FVec Ideal S32x6x64x32 .f32) (v27 : FVec Ideal S32x6x64x64 .f32) (v41 : Vec Ideal S32x6x64x64 .f32)
  (v63 : Vec Ideal S192x192 .f32) (v66 : Vec Ideal S192 .f32)

/-- Position `p` of a flattened 64 × 64 matrix: its row and its column. -/
def rowOf (p : Fin 4096) : Fin 64 := ⟨p.val / 64, by omega⟩
def colOf (p : Fin 4096) : Fin 64 := ⟨p.val % 64, Nat.mod_lt _ (by norm_num)⟩
/-- Position `q` of a flattened 64 × 192 matrix: its token and its channel. -/
def tokOf (q : Fin 12288) : Fin 64 := ⟨q.val / 192, by omega⟩
def chOf (q : Fin 12288) : Fin 192 := ⟨q.val % 192, Nat.mod_lt _ (by norm_num)⟩

/-- The index over `(tb, h, n)` with `k` put on the reduced last axis is `(tb, h, n, k)`. -/
private theorem lift_last (tb : Fin 32) (h : Fin 6) (n : Fin 64) (k : Fin 64) :
    reduces_S32x6x64x64_S32x6x64.lift (ix3 tb h n) k = ix4 tb h n k := by
  funext c
  apply Fin.ext
  match c with
  | ⟨0, _⟩ => rfl
  | ⟨1, _⟩ => rfl
  | ⟨2, _⟩ => rfl
  | ⟨3, _⟩ => rfl

/-- A value per row, kept as a unit last axis and spread along the row, reads the row's value. -/
private theorem keep_col {α : Type} (Y : S32x6x64.Idx → α) (tb : Fin 32) (h : Fin 6) (n m : Fin 64) :
    broadcastTo S32x6x64x64 (shapeCast S32x6x64x1 Y shapeCasts_S32x6x64_S32x6x64x1) broadcasts_S32x6x64x1_S32x6x64x64
      (ix4 tb h n m) = Y (ix3 tb h n) := by
  refine (broadcastTo_apply _ broadcasts_S32x6x64x1_S32x6x64x64 (ix4 tb h n m) (ix4 tb h n (0 : Fin 1)) fun ax => ?_).trans ?_
  · match ax with
    | ⟨0, _⟩ => rfl
    | ⟨1, _⟩ => rfl
    | ⟨2, _⟩ => rfl
    | ⟨3, _⟩ => rfl
  · refine shapeCast_apply Y shapeCasts_S32x6x64_S32x6x64x1 _ _ ?_
    rw [Shape.rowMajor_val_three, Shape.rowMajor_val_four]
    show (tb.val * 6 + h.val) * 64 + n.val = ((tb.val * 6 + h.val) * 64 + n.val) * 1 + 0
    omega

/-- The row maximum the kernel takes is the specification's: the fold of `max` from −∞ over the row's 64 columns. -/
private theorem rowmax_apply (X : FVec Ideal S32x6x64x64 .f32) (tb : Fin 32) (h : Fin 6) (n : Fin 64) :
    multiReduction (F := Ideal) .maximumf [3] S32x6x64 X 0xFF800000#32 reduces_S32x6x64x64_S32x6x64 (.inl rfl) rfl (ix3 tb h n)
      = rowMax (fun k => X (ix4 tb h n k)) := by
  refine (Ideal.multiReduction_maximumf_single X 0xFF800000#32 reduces_S32x6x64x64_S32x6x64 (.inl rfl) rfl (ix3 tb h n)).trans ?_
  show (Finset.univ : Finset (Fin 64)).fold max (Ideal.ofBits .f32 0xFF800000#32)
      (fun k => X (reduces_S32x6x64x64_S32x6x64.lift (ix3 tb h n) k)) = _
  unfold rowMax
  exact congrArg (fun f => (Finset.univ : Finset (Fin 64)).fold max (Ideal.ofBits .f32 0xFF800000#32) f)
    (funext fun k => congrArg X (lift_last tb h n k))

/-- The row sum the kernel takes is the sum over the row's 64 columns. -/
private theorem rowsum_apply (X : FVec Ideal S32x6x64x64 .f32) (tb : Fin 32) (h : Fin 6) (n : Fin 64) :
    multiReduction (F := Ideal) .add [3] S32x6x64 X 0x00000000#32 reduces_S32x6x64x64_S32x6x64 (.inl rfl) rfl (ix3 tb h n)
      = ∑ k : Fin 64, X (ix4 tb h n k) := by
  refine (Ideal.multiReduction_add_single X 0x00000000#32 reduces_S32x6x64x64_S32x6x64 (.inl rfl) rfl (ix3 tb h n)).trans ?_
  show ∑ k : Fin 64, X (reduces_S32x6x64x64_S32x6x64.lift (ix3 tb h n) k) = _
  exact Finset.sum_congr rfl fun k _ => congrArg X (lift_last tb h n k)

/-- The exponential of an entry less its row's maximum, as the kernel forms it. -/
private theorem expsub_apply (X : FVec Ideal S32x6x64x64 .f32) (tb : Fin 32) (h : Fin 6) (n m : Fin 64) :
    exp (subf X (broadcastTo S32x6x64x64 (shapeCast S32x6x64x1
        (multiReduction (F := Ideal) .maximumf [3] S32x6x64 X 0xFF800000#32 reduces_S32x6x64x64_S32x6x64 (.inl rfl) rfl)
        shapeCasts_S32x6x64_S32x6x64x1) broadcasts_S32x6x64x1_S32x6x64x64)) (ix4 tb h n m)
      = Ideal.exp (X (ix4 tb h n m) - rowMax (fun k => X (ix4 tb h n k))) := by
  show Ideal.exp (X (ix4 tb h n m) - broadcastTo S32x6x64x64 (shapeCast S32x6x64x1
        (multiReduction (F := Ideal) .maximumf [3] S32x6x64 X 0xFF800000#32 reduces_S32x6x64x64_S32x6x64 (.inl rfl) rfl)
        shapeCasts_S32x6x64_S32x6x64x1) broadcasts_S32x6x64x1_S32x6x64x64 (ix4 tb h n m)) = _
  rw [keep_col, rowmax_apply]

theorem pay1_apply (tb : Fin 32) (h : Fin 6) (n m : Fin 64) :
    k0_pay1 v27 v41 (ix4 tb h n m) = softmaxRow (fun k => v27 (ix4 tb h n k) + v41 (ix4 tb h n k)) m := by
  unfold k0_pay1
  simp only [shapeCast_self]
  rw [divf_apply, keep_col, rowsum_apply]
  unfold softmaxRow
  exact congrArg₂ Ideal.div (expsub_apply _ tb h n m) (Finset.sum_congr rfl fun k _ => expsub_apply _ tb h n k)

theorem pay2_apply (tb : Fin 32) (h : Fin 6) (p : Fin 4096) :
    k0_pay2 v27 v41 (ix3 tb h p) = k0_pay1 v27 v41 (ix4 tb h (rowOf p) (colOf p)) := by
  unfold k0_pay2
  refine shapeCast_apply (k0_pay1 v27 v41) shapeCasts_S32x6x64x64_S32x6x4096 _ _ ?_
  rw [Shape.rowMajor_val_four, Shape.rowMajor_val_three]
  show ((tb.val * 6 + h.val) * 64 + p.val / 64) * 64 + p.val % 64 = (tb.val * 6 + h.val) * 4096 + p.val
  omega

/-- The output block laid flat: position `q` of row `tb` is token `q / 192`, channel `q % 192` of window `tb`. -/
private theorem flat_out {α : Type} (Z : S2048x192.Idx → α) (tb : Fin 32) (q : Fin 12288) :
    shapeCast S32x12288 Z shapeCasts_S2048x192_S32x12288 (ix2 tb q)
      = Z (ix2 (⟨tb.val * 64 + (tokOf q).val, by have := (tokOf q).isLt; omega⟩ : Fin 2048) (chOf q)) := by
  refine shapeCast_apply Z shapeCasts_S2048x192_S32x12288 _ _ ?_
  rw [Shape.rowMajor_val_two, Shape.rowMajor_val_two]
  show (tb.val * 64 + q.val / 192) * 192 + q.val % 192 = tb.val * 12288 + q.val
  omega

/-- The bias laid along every row. -/
private theorem bias_row {α : Type} (b : S192.Idx → α) (r : Fin 2048) (o : Fin 192) :
    broadcastTo S2048x192 (shapeCast S1x192 b shapeCasts_S192_S1x192) broadcasts_S1x192_S2048x192 (ix2 r o) = b (ix1 o) :=
  (broadcastTo_1b_ab_apply _ broadcasts_S1x192_S2048x192 r o).trans (shapeCast_a_1a_apply b shapeCasts_S192_S1x192 0 o)

/-- The projection: a plain product of a 2048 × 192 by a 192 × 192 matrix into zero. -/
private theorem proj_apply (A : FVec Ideal S2048x192 .bf16) (B : FVec Ideal S192x192 .bf16) (r : Fin 2048) (o : Fin 192) :
    matmul (F := Ideal) dot_S2048x192_S192x192_S2048x192_1_0_0_1_n_n none A B (constant (F := Ideal) S2048x192 .f32 0x00000000#32) (ix2 r o)
      = ∑ c : Fin 192, A (ix2 r c) * B (ix2 c o) :=
  (congrFun (matmul_zero_eq_dotGeneral _ none A B) (ix2 r o)).trans (StackMember.dotGeneral_plain_apply none A B r o)

/-- The weights times the values, one product per (window, head). -/
private theorem mix_apply (A : FVec Ideal S192x64x64 .bf16) (B : FVec Ideal S192x64x32 .bf16) (e : Fin 192) (n : Fin 64) (d : Fin 32) :
    matmul (F := Ideal) dot_S192x64x64_S192x64x32_S192x64x32_2_1_1_2_0_0 none A B (constant (F := Ideal) S192x64x32 .f32 0x00000000#32) (ix3 e n d)
      = ∑ m : Fin 64, A (ix3 e n m) * B (ix3 e m d) :=
  (congrFun (matmul_zero_eq_dotGeneral _ none A B) (ix3 e n d)).trans
    (StackMember.dotGeneral_stack_apply dot_S192x64x64_S192x64x32_S192x64x32_2_1_1_2_0_0_wf none A B e n d)

/-- The (window, head) pairs as one axis of 192: pair `6 tb + hd` of the stack is head `hd` of window `tb` (64 columns). -/
private theorem pairs64_apply {α : Type} (Y : S32x6x64x64.Idx → α) (tb : Fin 32) (hd : Fin 6) (n m : Fin 64) :
    shapeCast S192x64x64 Y shapeCasts_S32x6x64x64_S192x64x64 (ix3 (⟨tb.val * 6 + hd.val, by omega⟩ : Fin 192) n m)
      = Y (ix4 tb hd n m) := by
  refine shapeCast_apply Y shapeCasts_S32x6x64x64_S192x64x64 _ _ ?_
  rw [Shape.rowMajor_val_four, Shape.rowMajor_val_three]
  rfl

/-- The same for the values (32 columns). -/
private theorem pairs32_apply {α : Type} (Y : S32x6x64x32.Idx → α) (tb : Fin 32) (hd : Fin 6) (n : Fin 64) (d : Fin 32) :
    shapeCast S192x64x32 Y shapeCasts_S32x6x64x32_S192x64x32 (ix3 (⟨tb.val * 6 + hd.val, by omega⟩ : Fin 192) n d)
      = Y (ix4 tb hd n d) := by
  refine shapeCast_apply Y shapeCasts_S32x6x64x32_S192x64x32 _ _ ?_
  rw [Shape.rowMajor_val_four, Shape.rowMajor_val_three]
  rfl

/-- The stack of 192 read back as 32 windows of 6 heads. -/
private theorem unpairs_apply {α : Type} (Z : S192x64x32.Idx → α) (tb : Fin 32) (hd : Fin 6) (n : Fin 64) (d : Fin 32) :
    shapeCast S32x6x64x32 Z shapeCasts_S192x64x32_S32x6x64x32 (ix4 tb hd n d)
      = Z (ix3 (⟨tb.val * 6 + hd.val, by omega⟩ : Fin 192) n d) := by
  refine shapeCast_apply Z shapeCasts_S192x64x32_S32x6x64x32 _ _ ?_
  rw [Shape.rowMajor_val_four, Shape.rowMajor_val_three]
  rfl

/-- Heads and tokens exchanged. -/
private theorem swap_apply {α : Type} (Y : S32x6x64x32.Idx → α) (tb : Fin 32) (n : Fin 64) (hd : Fin 6) (d : Fin 32) :
    transpose S32x64x6x32 [0, 2, 1, 3] Y transposes_S32x6x64x32_p0_2_1_3_S32x64x6x32 (ix4 tb n hd d) = Y (ix4 tb hd n d) :=
  transpose_apply _ Y transposes_S32x6x64x32_p0_2_1_3_S32x64x6x32 _ _ fun c =>
    match c with | ⟨0, _⟩ => rfl | ⟨1, _⟩ => rfl | ⟨2, _⟩ => rfl | ⟨3, _⟩ => rfl

/-- The heads laid side by side: row `64 tb + n`, channel `c` is token `n` of window `tb`, head `c / 32`, place `c % 32`. -/
private theorem sidebyside_apply {α : Type} (Y : S32x64x6x32.Idx → α) (tb : Fin 32) (n : Fin 64) (c : Fin 192) :
    shapeCast S2048x192 Y shapeCasts_S32x64x6x32_S2048x192 (ix2 (⟨tb.val * 64 + n.val, by omega⟩ : Fin 2048) c)
      = Y (ix4 tb n (headOf c) (chanOf c)) := by
  refine shapeCast_apply Y shapeCasts_S32x64x6x32_S2048x192 _ _ ?_
  rw [Shape.rowMajor_val_four, Shape.rowMajor_val_two]
  show ((tb.val * 64 + n.val) * 6 + c.val / 32) * 32 + c.val % 32 = (tb.val * 64 + n.val) * 192 + c.val
  omega

theorem pay3_apply (tb : Fin 32) (q : Fin 12288) :
    k0_pay3 v19 v27 v41 v63 v66 (ix2 tb q)
      = (∑ c : Fin 192, (∑ m : Fin 64, k0_pay1 v27 v41 (ix4 tb (headOf c) (tokOf q) m) * v19 (ix4 tb (headOf c) m (chanOf c))) * v63 (ix2 c (chOf q)))
        + v66 (ix1 (chOf q)) := by
  unfold k0_pay3
  simp only [shapeCast_self]
  rw [flat_out, addf_apply, bias_row, proj_apply]
  refine congrArg (· + v66 (ix1 (chOf q))) (Finset.sum_congr rfl fun c _ => ?_)
  rw [truncf_apply, truncf_apply, sidebyside_apply, swap_apply, unpairs_apply, mix_apply]
  refine congrArg (· * v63 (ix2 c (chOf q))) (Finset.sum_congr rfl fun m _ => ?_)
  rw [pairs64_apply, pairs32_apply, truncf_apply, truncf_apply]

end Cert.KernelIdeal.Pay

end
-- ==== Proof.KerPaySpec.lean ====
/-
  What one grid point stores, as the specification's values: if the point's loaded blocks are the arguments'
  entries of its 32 windows (the projection weights transposed, the bias-and-mask block the sum of the bias and the
  window's mask), the stored attention block holds `attn` and the stored output block holds `out` of those windows.
  Each payload read at an index is the specification's quantity of the same place: the block's row `64 tb + n` of the
  fused projection is `qkv` of token `n` of window `32 t + tb`; its scaled query–key products are `score`; adding the
  loaded bias-and-mask entry gives `logit`; the row softmax gives `attn`; the weighted values are `mix`; the output
  projection gives `out`.
-/
import proofs.«428607_j12240656794299_3_alg».proof.Proof.KerPayA
import proofs.«428607_j12240656794299_3_alg».proof.Proof.KerPayB

noncomputable section

namespace Cert.KernelIdeal.Pay

open Cert.KernelIdeal Cert.KernelIdeal.Gen Idealize.ShloMosaic Idealize.ShloMosaic.ValueIdx Cert.WinAttn

variable (x : FVec Ideal Sx .f32) (mask : FVec Ideal Smask .f32) (qw : FVec Ideal Sqw .f32) (qb : FVec Ideal Sqb .f32)
  (pw : FVec Ideal Spw .f32) (pb : FVec Ideal Spb .f32) (bias : FVec Ideal Sbias .f32)
variable (x0 : Vec Ideal S32x64x192 .f32) (w : Vec Ideal S192x576 .f32) (bq : Vec Ideal S576 .f32) (v41 : Vec Ideal S32x6x64x64 .f32)
  (v63 : Vec Ideal S192x192 .f32) (v66 : Vec Ideal S192 .f32)

section
variable (t : Fin 128)
  (hx : ∀ (tb : Fin 32) (n : Fin 64) (c : Fin 192), x0 (ix3 tb n c) = x (ix3 (blockWin t tb) n c))
  (hw : ∀ (c : Fin 192) (o : Fin 576), w (ix2 c o) = qw (ix2 o c))
  (hb : ∀ o : Fin 576, bq (ix1 o) = qb (ix1 o))
include hx hw hb

/-- The block's fused projection is the windows' `qkv`. -/
theorem pay4_spec (tb : Fin 32) (n : Fin 64) (o : Fin 576) :
    k0_pay4 x0 w bq (ix2 (row tb n) o) = qkv x qw qb (blockWin t tb) n o := by
  rw [pay4_apply]
  unfold qkv
  rw [hb o]
  congr 1
  exact Finset.sum_congr rfl (fun c _ => by rw [hx tb n c, hw c o])

/-- The block's values are the value columns of `qkv`. -/
theorem pay5_spec (tb : Fin 32) (h : Fin 6) (n : Fin 64) (d : Fin 32) :
    k0_pay5 x0 w bq (ix4 tb h n d) = qkv x qw qb (blockWin t tb) n (col 2 h d) := by
  rw [pay5_apply]
  exact pay4_spec x qw qb x0 w bq t hx hw hb tb n (col 2 h d)

/-- The block's scaled query–key products are the windows' `score`. -/
theorem pay6_spec (tb : Fin 32) (h : Fin 6) (n k : Fin 64) :
    k0_pay6 x0 w bq (ix4 tb h n k) = score x qw qb (blockWin t tb) h n k := by
  rw [pay6_apply]
  unfold score
  exact Finset.sum_congr rfl (fun d _ => by
    rw [pay4_spec x qw qb x0 w bq t hx hw hb tb n (col 0 h d), pay4_spec x qw qb x0 w bq t hx hw hb tb k (col 1 h d)])

variable (hcomb : ∀ (tb : Fin 32) (h : Fin 6) (n k : Fin 64), v41 (ix4 tb h n k) = bias (ix3 h n k) + mask (ix3 (win (blockWin t tb)) n k))
include hcomb

/-- The block's row softmax is the windows' `attn`. -/
theorem pay1_spec (tb : Fin 32) (h : Fin 6) (n k : Fin 64) :
    k0_pay1 (k0_pay6 x0 w bq) v41 (ix4 tb h n k) = attn x mask qw qb bias (blockWin t tb) h n k := by
  rw [pay1_apply]
  unfold attn
  congr 1
  funext j
  rw [pay6_spec x qw qb x0 w bq t hx hw hb tb h n j, hcomb tb h n j]
  rfl

theorem attn_block (tb : Fin 32) (h : Fin 6) (p : Fin 4096) :
    k0_pay2 (k0_pay6 x0 w bq) v41 (ix3 tb h p) = attn x mask qw qb bias (blockWin t tb) h (rowOf p) (colOf p) := by
  rw [pay2_apply]
  exact pay1_spec x mask qw qb bias x0 w bq v41 t hx hw hb hcomb tb h (rowOf p) (colOf p)

variable (hpw : ∀ (c o : Fin 192), v63 (ix2 c o) = pw (ix2 o c))
  (hpb : ∀ o : Fin 192, v66 (ix1 o) = pb (ix1 o))
include hpw hpb

theorem out_block (tb : Fin 32) (q : Fin 12288) :
    k0_pay3 (k0_pay5 x0 w bq) (k0_pay6 x0 w bq) v41 v63 v66 (ix2 tb q) = out x mask qw qb pw pb bias (blockWin t tb) (tokOf q) (chOf q) := by
  rw [pay3_apply]
  unfold out
  rw [hpb (chOf q)]
  refine congrArg (fun s => s + pb (ix1 (chOf q))) ?_
  refine Finset.sum_congr rfl (fun c _ => ?_)
  rw [hpw c (chOf q)]
  refine congrArg (fun s => s * pw (ix2 (chOf q) c)) ?_
  unfold mix
  exact Finset.sum_congr rfl (fun j _ => by
    rw [pay1_spec x mask qw qb bias x0 w bq v41 t hx hw hb hcomb tb (headOf c) (tokOf q) j,
      pay5_spec x qw qb x0 w bq t hx hw hb tb (headOf c) j (chanOf c)])

end

end Cert.KernelIdeal.Pay

end
-- ==== Proof.KerFlat.lean ====
/-
  The launch writes its two results flat: the output as [4096, 64·192] and the weights as [4096, 6, 64·64]. These
  are the flat arrays of the specification's values, and the host's reshapes after the launch turn them into the
  specification's two arrays: position q = 192 n + o of a flat row is token n, channel o; position p = 64 n + k of a
  flat weight row is row n, column k.
-/
import proofs.«428607_j12240656794299_3_alg».proof.Proof.KerPayB
import Idealize.ShloMosaic.Lib.Pipeline.Value

noncomputable section

namespace Cert.KernelIdeal.Flat

open Cert.KernelIdeal Cert.KernelIdeal.Gen Cert.KernelIdeal.Pay Idealize.ShloMosaic Idealize.ShloMosaic.ValueIdx Cert.WinAttn

variable (x : FVec Ideal Sx .f32) (mask : FVec Ideal Smask .f32) (qw : FVec Ideal Sqw .f32) (qb : FVec Ideal Sqb .f32)
  (pw : FVec Ideal Spw .f32) (pb : FVec Ideal Spb .f32) (bias : FVec Ideal Sbias .f32)

/-- The output, each window's 64 × 192 entries laid in one row. -/
def outFlat : Vec Ideal S4096x12288 .f32 := fun i => out x mask qw qb pw pb bias (i 0) (tokOf (i 1)) (chOf (i 1))

/-- The weights, each (window, head)'s 64 × 64 entries laid in one row. -/
def attnFlat : Vec Ideal S4096x6x4096 .f32 := fun i => attn x mask qw qb bias (i 0) (i 1) (rowOf (i 2)) (colOf (i 2))

theorem outFlat_apply (b : Fin 4096) (q : Fin 12288) :
    outFlat x mask qw qb pw pb bias (ix2 b q) = out x mask qw qb pw pb bias b (tokOf q) (chOf q) := rfl

theorem attnFlat_apply (b : Fin 4096) (h : Fin 6) (p : Fin 4096) :
    attnFlat x mask qw qb bias (ix3 b h p) = attn x mask qw qb bias b h (rowOf p) (colOf p) := rfl

/-- The flat output viewed [4096, 64, 192] is the specification's output array. -/
theorem shapeCast_outFlat :
    shapeCast S4096x64x192 (outFlat x mask qw qb pw pb bias) shapeCasts_S4096x12288_S4096x64x192 = outArr x mask qw qb pw pb bias := by
  funext j
  obtain ⟨b, n, o, rfl⟩ : ∃ (b : Fin 4096) (n : Fin 64) (o : Fin 192), j = ix3 b n o := ⟨j 0, j 1, j 2, eq_ix3 j⟩
  have hq : n.val * 192 + o.val < 12288 := by have := n.isLt; have := o.isLt; omega
  refine (shapeCast_apply _ _ _ (ix2 b ⟨n.val * 192 + o.val, hq⟩) ?_).trans ?_
  · rw [Shape.rowMajor_val_two, Shape.rowMajor_val_three]
    show b.val * 12288 + (n.val * 192 + o.val) = (b.val * 64 + n.val) * 192 + o.val
    omega
  · rw [outFlat_apply, outArr_apply]
    have h1 : tokOf ⟨n.val * 192 + o.val, hq⟩ = n := Fin.ext (by
      show (n.val * 192 + o.val) / 192 = n.val
      have := o.isLt; omega)
    have h2 : chOf ⟨n.val * 192 + o.val, hq⟩ = o := Fin.ext (by
      show (n.val * 192 + o.val) % 192 = o.val
      have := o.isLt; omega)
    rw [h1, h2]

/-- The flat weights viewed [4096, 6, 64, 64] are the specification's weight array. -/
theorem shapeCast_attnFlat :
    shapeCast S4096x6x64x64 (attnFlat x mask qw qb bias) shapeCasts_S4096x6x4096_S4096x6x64x64 = attnArr x mask qw qb bias := by
  funext j
  obtain ⟨b, h, n, k, rfl⟩ : ∃ (b : Fin 4096) (h : Fin 6) (n k : Fin 64), j = ix4 b h n k := ⟨j 0, j 1, j 2, j 3, eq_ix4 j⟩
  have hp : n.val * 64 + k.val < 4096 := by have := n.isLt; have := k.isLt; omega
  refine (shapeCast_apply _ _ _ (ix3 b h ⟨n.val * 64 + k.val, hp⟩) ?_).trans ?_
  · rw [Shape.rowMajor_val_three, Shape.rowMajor_val_four]
    show (b.val * 6 + h.val) * 4096 + (n.val * 64 + k.val) = ((b.val * 6 + h.val) * 64 + n.val) * 64 + k.val
    omega
  · rw [attnFlat_apply, attnArr_apply]
    have h1 : rowOf ⟨n.val * 64 + k.val, hp⟩ = n := Fin.ext (by
      show (n.val * 64 + k.val) / 64 = n.val
      have := k.isLt; omega)
    have h2 : colOf ⟨n.val * 64 + k.val, hp⟩ = k := Fin.ext (by
      show (n.val * 64 + k.val) % 64 = k.val
      have := k.isLt; omega)
    rw [h1, h2]

end Cert.KernelIdeal.Flat

end
-- ==== Proof.KerTail.lean ====
/-
  The kernel program's run with its two results read through the host lines after the launch: each result buffer
  ends at the reshape of the launch's flat output array as the pipeline leaves it, and the arguments end unchanged.
-/
import proofs.«428607_j12240656794299_3_alg».proof.Proof.Gen.KernelIdeal.Frame
import Idealize.ShloMosaic.Lib.StableHlo.Run
import Idealize.ShloMosaic.PureOps.Ideal

noncomputable section

namespace Cert.KernelIdeal.KTail

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The launch's flat output array after the last grid point. -/
abbrev arr6 (c : Dev nD) : Vec Ideal S4096x12288 .f32 := (dats m 0 c).arrAt 6 cfg0.N
/-- The launch's flat weight array after the last grid point. -/
abbrev arr7 (c : Dev nD) : Vec Ideal S4096x6x4096 .f32 := (dats m 0 c).arrAt 7 cfg0.N

/-- The first result after the two reshapes that follow the launch: the reshape of the flat output array. -/
theorem v15_eq (c : Dev nD) :
    Pipeline.afterTail₀ cfgs (dats m) 0 (V0 m) [hostOps1] c main_v15
      = shapeCast S4096x64x192 (arr6 m c) shapeCasts_S4096x12288_S4096x64x192 := by
  unfold Pipeline.afterTail₀
  show StableHlo.after hostOps1 _ (Proc.devRef .tc main_v15) = _
  after_results
  exact congrArg (fun v => shapeCast S4096x64x192 v shapeCasts_S4096x12288_S4096x64x192)
    (Pipeline.withArrays_arr spec0 launch0.win.arr_inj c _ _ 6)

/-- The second result after the two reshapes: the reshape of the flat weight array. -/
theorem v16_eq (c : Dev nD) :
    Pipeline.afterTail₀ cfgs (dats m) 0 (V0 m) [hostOps1] c main_v16
      = shapeCast S4096x6x64x64 (arr7 m c) shapeCasts_S4096x6x4096_S4096x6x64x64 := by
  unfold Pipeline.afterTail₀
  show StableHlo.after hostOps1 _ (Proc.devRef .tc main_v16) = _
  after_results
  exact congrArg (fun v => shapeCast S4096x6x64x64 v shapeCasts_S4096x6x4096_S4096x6x64x64)
    (Pipeline.withArrays_arr spec0 launch0.win.arr_inj c _ _ 7)

theorem run_named :
    θ_run defs (onTc (τ := τ) (main (F := Ideal))) ⟨m, fun _ => 0, ρ⟩ (fun r => ∀ c : Dev nD,
      r.2.mem ((c.tc : Thread nD τ).loc main_v15) = shapeCast S4096x64x192 (arr6 m c) shapeCasts_S4096x12288_S4096x64x192
      ∧ r.2.mem ((c.tc : Thread nD τ).loc main_v16) = shapeCast S4096x6x64x64 (arr7 m c) shapeCasts_S4096x6x4096_S4096x6x64x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  exact (θ_run defs _ _).mono (fun _ h c =>
    ⟨((h c).2 main_v15 (Pipeline.mem_restRefs_of main_v15 (by decide) (by decide))).trans (v15_eq m c),
      ((h c).2 main_v16 (Pipeline.mem_restRefs_of main_v16 (by decide) (by decide))).trans (v16_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

end Cert.KernelIdeal.KTail

end
-- ==== Proof.KerFinal7.lean ====
/-
  The launch's flat weight array after the last grid point is the specification's weights laid flat: each grid
  point's stored block holds `attn` of its 32 windows, and the 128 blocks tile the array.
-/
import proofs.«428607_j12240656794299_3_alg».proof.Proof.KerPieces
import proofs.«428607_j12240656794299_3_alg».proof.Proof.KerHost
import proofs.«428607_j12240656794299_3_alg».proof.Proof.KerPaySpec
import proofs.«428607_j12240656794299_3_alg».proof.Proof.KerFlat

noncomputable section

namespace Cert.KernelIdeal.KFinal7

open Cert.KernelIdeal Cert.KernelIdeal.Gen Cert.KernelIdeal.Blocks Cert.KernelIdeal.KStages Cert.KernelIdeal.Flat Idealize.ShloMosaic Idealize.ShloMosaic.TcCoe Idealize.ShloMosaic.ValueIdx Cert.WinAttn
open Cert.KernelIdeal.Pay Idealize.SL.Sem
open Idealize.ShloMosaic.Pipeline (Dat)

variable (m : (ℓ : Loc nD τ sig) → Buf (Elt Ideal) ℓ)

/-- The launch's second result: the flat weights of the arguments. -/
abbrev G7 (c : Dev nD) : Vec Ideal S4096x6x4096 .f32 :=
  attnFlat (m ((c.tc : Thread nD τ).loc main_arg0)) (m ((c.tc : Thread nD τ).loc main_arg1)) (m ((c.tc : Thread nD τ).loc main_arg2)) (m ((c.tc : Thread nD τ).loc main_arg3)) (biasK (F := Ideal) (m ((c.tc : Thread nD τ).loc main_arg6)))

/-- Point `t` writes block `t` of the weights' windows, all heads and all positions. -/
theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)

/-- The bias-and-mask slabs a point loads are the bias plus the masks of its 32 windows: row `tb` reads slab
    `(32 t) mod 64 + tb`, which is the mask of window `32 t + tb`. -/
theorem cload_spec (c : Dev nD) (t : Fin cfg0.N) (tb : Fin 32) (h : Fin 6) (n k : Fin 64) :
    Pieces.cload m c t (ix4 tb h n k)
      = biasK (F := Ideal) (m ((c.tc : Thread nD τ).loc main_arg6)) (ix3 h n k)
        + (m ((c.tc : Thread nD τ).loc main_arg1)) (ix3 (win (blockWin (pt t) tb)) n k) := by
  rw [Pieces.cload_apply, KHost.cblk_apply, slab_eq_win]

/-- What point `t` writes back to the weights is block `t` of the flat weights: the block's entry `(tb, h, p)` sits at
    `(32 t + tb, h, p)` of the array, and the stored value there is `attn` of window `32 t + tb`. -/
theorem flushed7_eq (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after0_7, Pieces.outs_snd]
  funext y
  obtain ⟨tb, h, p, rfl⟩ : ∃ (tb : Fin 32) (h : Fin 6) (p : Fin 4096), y = ix3 tb h p := ⟨y 0, y 1, y 2, eq_ix3 y⟩
  rw [View.read_apply]
  have hemb : ((cfg0.win 7).blk t).view.emb (ix3 tb h p) = ix3 (blockWin (pt t) tb) h p := by
    funext a; apply Fin.ext
    match a with
    | ⟨0, _⟩ => show win0_7.index t (0 : Fin 3) * 32 + 1 * tb.val = t.val * 32 + tb.val; rw [(idx7 t).1]; omega
    | ⟨1, _⟩ => show win0_7.index t (1 : Fin 3) * 6 + 1 * h.val = h.val; rw [(idx7 t).2.1]; omega
    | ⟨2, _⟩ => show win0_7.index t (2 : Fin 3) * 4096 + 1 * p.val = p.val; rw [(idx7 t).2.2]; omega
  show k0_pay2 (k0_pay6 (xblk m c t) (wblk m c t) (bqblk m c t)) (Pieces.cload m c t) (ix3 tb h p)
      = G7 m c (((cfg0.win 7).blk t).view.emb (ix3 tb h p))
  rw [hemb]
  exact Pay.attn_block _ _ _ _ _ _ _ _ _ (pt t) (KHost.xblk_apply m c t) (KHost.wblk_apply m c t) (KHost.bqblk_apply m c t)
    (cload_spec m c t) tb h p

/-- An index of the flat weights is in point `t`'s block iff each coordinate is in the block's range on its axis. -/
theorem mem_blk7 (t : Fin cfg0.N) (i : S4096x6x4096.Idx) :
    i ∈ ((cfg0.win 7).blk t).view.set ↔ ∀ a : Fin 3, win0_7.index t a * S32x6x4096.size a ≤ (i a).val ∧ (i a).val < win0_7.index t a * S32x6x4096.size a + S32x6x4096.size a := by
  show i ∈ ((View.whole main_v14_1).slice (win0_7.rect t)).set ↔ _
  rw [View.set_slice_whole, Rect.mem_set_unit]
  exact Iff.rfl

/-- Window `b` of the flat weights is in the block of point `b / 32`: the 128 blocks tile the array. -/
theorem cover7 (i : S4096x6x4096.Idx) :
    ∃ t : Fin cfg0.N, (cfg0.win 7).flush t = true ∧ i ∈ ((cfg0.win 7).blk t).view.set := by
  have hi0 : (i 0).val < 4096 := (i 0).isLt
  have hi1 : (i 1).val < 6 := (i 1).isLt
  have hi2 : (i 2).val < 4096 := (i 2).isLt
  have hlt : (i 0).val / 32 < cfg0.N := by rw [N_eq]; omega
  obtain ⟨e0, e1, e2⟩ := idx7 ⟨(i 0).val / 32, hlt⟩
  refine ⟨⟨(i 0).val / 32, hlt⟩, flush0_7 _, ?_⟩
  rw [mem_blk7]
  intro a
  match a with
  | ⟨0, _⟩ =>
    show win0_7.index ⟨(i 0).val / 32, hlt⟩ (0 : Fin 3) * 32 ≤ (i 0).val ∧ (i 0).val < win0_7.index ⟨(i 0).val / 32, hlt⟩ (0 : Fin 3) * 32 + 32
    rw [e0]; show (i 0).val / 32 * 32 ≤ (i 0).val ∧ (i 0).val < (i 0).val / 32 * 32 + 32; omega
  | ⟨1, _⟩ =>
    show win0_7.index ⟨(i 0).val / 32, hlt⟩ (1 : Fin 3) * 6 ≤ (i 1).val ∧ (i 1).val < win0_7.index ⟨(i 0).val / 32, hlt⟩ (1 : Fin 3) * 6 + 6
    rw [e1]; omega
  | ⟨2, _⟩ =>
    show win0_7.index ⟨(i 0).val / 32, hlt⟩ (2 : Fin 3) * 4096 ≤ (i 2).val ∧ (i 2).val < win0_7.index ⟨(i 0).val / 32, hlt⟩ (2 : Fin 3) * 4096 + 4096
    rw [e2]; omega

/-- After the launch the second result's flat array holds the flat weights: every point writes its block of them,
    and the blocks cover the array. -/
theorem final7 (c : Dev nD) :
    (dats m 0 c).arrAt 7 cfg0.N
      = attnFlat (m ((c.tc : Thread nD τ).loc main_arg0)) (m ((c.tc : Thread nD τ).loc main_arg1)) (m ((c.tc : Thread nD τ).loc main_arg2)) (m ((c.tc : Thread nD τ).loc main_arg3)) (biasK (F := Ideal) (m ((c.tc : Thread nD τ).loc main_arg6))) := by
  exact (dats m 0 c).arrAt_eq_of_cover 7 (G7 m c) (fun t _ => flushed7_eq m c t) cover7

end Cert.KernelIdeal.KFinal7

end
-- ==== Proof.KerRun.lean ====
/-
  The kernel program's run with its two results named: every weakly fair execution terminates with the first result
  at the specification's `outArr` and the second at `attnArr` of the arguments (the bias the program's own gathered
  table), the arguments unchanged. Each grid point's two stored blocks are the specification's values of its 32
  windows; the 128 blocks tile the two flat arrays; the two host reshapes after the launch restore the shapes.
-/
import proofs.«428607_j12240656794299_3_alg».proof.Proof.KerPieces
import proofs.«428607_j12240656794299_3_alg».proof.Proof.KerHost
import proofs.«428607_j12240656794299_3_alg».proof.Proof.KerPaySpec
import proofs.«428607_j12240656794299_3_alg».proof.Proof.KerFlat
import proofs.«428607_j12240656794299_3_alg».proof.Proof.KerTail
import proofs.«428607_j12240656794299_3_alg».proof.Proof.KerFinal7

noncomputable section

namespace Cert.KernelIdeal.KRun

open Cert.KernelIdeal Cert.KernelIdeal.Gen Cert.KernelIdeal.Blocks Cert.KernelIdeal.KStages Cert.KernelIdeal.Flat Idealize.ShloMosaic Idealize.ShloMosaic.TcCoe Idealize.ShloMosaic.ValueIdx Idealize.SL.Sem Cert.WinAttn

section Output

variable (m : (ℓ : Loc nD τ sig) → Buf (Elt Ideal) ℓ)

/-- The flat output of the arguments: row `b` holds window `b`'s 64 tokens × 192 channels side by side. -/
abbrev G6 (c : Dev nD) : Vec Ideal S4096x12288 .f32 :=
  outFlat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (biasK (F := Ideal) (m ((c.tc : Thread nD τ).loc main_arg6)))

/-- Point `t` stores block `t` of the flat output's rows, all of its columns. -/
theorem idx6 : ∀ t : Fin cfg0.N, win0_6.index t (0 : Fin 2) = t.val ∧ win0_6.index t (1 : Fin 2) = 0 :=
  (by decide +kernel : ∀ t : Fin grid0.N, _)

/-- The bias-and-mask slabs a point loads are the bias plus the masks of its 32 windows: slab `(32 t) mod 64 + tb`
    is the mask of window `32 t + tb`. -/
theorem cload_spec (c : Dev nD) (t : Fin cfg0.N) (tb : Fin 32) (h : Fin 6) (n k : Fin 64) :
    Pieces.cload m c t (ix4 tb h n k)
      = biasK (F := Ideal) (m ((c.tc : Thread nD τ).loc main_arg6)) (ix3 h n k)
        + (m ((c.tc : Thread nD τ).loc main_arg1)) (ix3 (win (blockWin (pt t) tb)) n k) := by
  rw [Pieces.cload_apply, KHost.cblk_apply, slab_eq_win]

/-- What point `t` writes back to the output is block `t` of the flat output: entry `(tb, q)` of the stored block
    is `out` of window `32 t + tb`, and it sits at row `32 t + tb`, column `q` of the array. -/
theorem flushed6_eq (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6, Pieces.outs_fst]
  funext y
  obtain ⟨tb, q, rfl⟩ : ∃ (tb : Fin 32) (q : Fin 12288), y = ix2 tb q := ⟨y 0, y 1, eq_ix2 y⟩
  rw [View.read_apply]
  have hemb : ((cfg0.win 6).blk t).view.emb (ix2 tb q) = ix2 (blockWin (pt t) tb) q := by
    funext a; apply Fin.ext
    match a with
    | ⟨0, _⟩ => show win0_6.index t (0 : Fin 2) * 32 + 1 * tb.val = t.val * 32 + tb.val; rw [(idx6 t).1]; omega
    | ⟨1, _⟩ => show win0_6.index t (1 : Fin 2) * 12288 + 1 * q.val = q.val; rw [(idx6 t).2]; omega
  show k0_pay3 (k0_pay5 (xblk m c t) (wblk m c t) (bqblk m c t)) (k0_pay6 (xblk m c t) (wblk m c t) (bqblk m c t))
        (Pieces.cload m c t) (pwblk m c t) (pbblk m c t) (ix2 tb q) = G6 m c (((cfg0.win 6).blk t).view.emb (ix2 tb q))
  rw [hemb]
  exact Pay.out_block _ _ _ _ _ _ _ _ _ _ _ _ _ (pt t) (KHost.xblk_apply m c t) (KHost.wblk_apply m c t) (KHost.bqblk_apply m c t)
    (cload_spec m c t) (KHost.pwblk_apply m c t) (KHost.pbblk_apply m c t) tb q

/-- An index of the flat output is in point `t`'s block iff each coordinate is in the block's range on its axis. -/
theorem mem_blk6 (t : Fin cfg0.N) (i : S4096x12288.Idx) :
    i ∈ ((cfg0.win 6).blk t).view.set ↔ ∀ a : Fin 2, win0_6.index t a * S32x12288.size a ≤ (i a).val ∧ (i a).val < win0_6.index t a * S32x12288.size a + S32x12288.size a := by
  show i ∈ ((View.whole main_v14_0).slice (win0_6.rect t)).set ↔ _
  rw [View.set_slice_whole, Rect.mem_set_unit]
  exact Iff.rfl

/-- The 128 blocks tile the flat output: row `r` is in the block of point `r / 32`. -/
theorem cover6 (i : S4096x12288.Idx) :
    ∃ t : Fin cfg0.N, (cfg0.win 6).flush t = true ∧ i ∈ ((cfg0.win 6).blk t).view.set := by
  have hi0 : (i 0).val < 4096 := (i 0).isLt
  have hi1 : (i 1).val < 12288 := (i 1).isLt
  have hlt : (i 0).val / 32 < cfg0.N := by rw [N_eq]; omega
  obtain ⟨e0, e1⟩ := idx6 ⟨(i 0).val / 32, hlt⟩
  refine ⟨⟨(i 0).val / 32, hlt⟩, flush0_6 _, ?_⟩
  rw [mem_blk6]
  intro a
  match a with
  | ⟨0, _⟩ =>
    show win0_6.index ⟨(i 0).val / 32, hlt⟩ (0 : Fin 2) * 32 ≤ (i 0).val ∧ (i 0).val < win0_6.index ⟨(i 0).val / 32, hlt⟩ (0 : Fin 2) * 32 + 32
    rw [e0]
    show (i 0).val / 32 * 32 ≤ (i 0).val ∧ (i 0).val < (i 0).val / 32 * 32 + 32
    omega
  | ⟨1, _⟩ =>
    show win0_6.index ⟨(i 0).val / 32, hlt⟩ (1 : Fin 2) * 12288 ≤ (i 1).val ∧ (i 1).val < win0_6.index ⟨(i 0).val / 32, hlt⟩ (1 : Fin 2) * 12288 + 12288
    rw [e1]
    omega

/-- After the last grid point the launch's flat output array holds the flat output of the arguments. -/
theorem final6 (c : Dev nD) : (dats m 0 c).arrAt 6 cfg0.N = G6 m c :=
  (dats m 0 c).arrAt_eq_of_cover 6 (G6 m c) (fun t _ => flushed6_eq m c t) cover6

end Output

theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v15) = outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (biasK (F := Ideal) (m ((c.tc : Thread nD τ).loc main_arg6)))
      ∧ r.2.mem ((c.tc : Thread nD τ).loc main_v16) = attnArr (m ((c.tc : Thread nD τ).loc main_arg0)) (m ((c.tc : Thread nD τ).loc main_arg1)) (m ((c.tc : Thread nD τ).loc main_arg2)) (m ((c.tc : Thread nD τ).loc main_arg3)) (biasK (F := Ideal) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨(h c).1.trans ((congrArg (fun a => shapeCast S4096x64x192 a shapeCasts_S4096x12288_S4096x64x192) (final6 m c)).trans
          (shapeCast_outFlat _ _ _ _ _ _ _)),
        (h c).2.1.trans ((congrArg (fun a => shapeCast S4096x6x64x64 a shapeCasts_S4096x6x4096_S4096x6x64x64) (KFinal7.final7 m c)).trans
          (shapeCast_attnFlat _ _ _ _ _)),
        (h c).2.2⟩)
    (KTail.run_named m ρ)

end Cert.KernelIdeal.KRun

end
-- ==== Proof.RefStages.lean ====
/-
  The reference's host program cut into named stages: each definition is the composition of the host operations
  that produce one intermediate array from the arguments, in the order the program applies them. The run shows the
  two result buffers end at `outR` and `attnR`; the value lemmas read these stages at an index.
    qkvR      x · qwᵀ + qb                                   [4096, 64, 576]
    partsR    the same viewed [3, 4096, 6, 64, 32] (part, window, head, token, channel)
    qR kR vR  its three parts                                 [4096, 6, 64, 32]
    scoreR    (q · s) contracted with k over the channel     [4096, 6, 64, 64]
    idxR      the relative-position index table, wrapped where negative   [4096, 1]
    biasR     the bias table's rows taken at idxR, laid out [6, 64, 64]
    logitR    score + bias, then + mask by window mod 64      [4096, 6, 64, 64]
    attnR     the row softmax of logitR
    outR      (attn contracted with v), heads side by side, times pwᵀ, plus pb
-/
import proofs.«428607_j12240656794299_3_alg».proof.Proof.Gen.ReferenceIdeal

noncomputable section

namespace Cert.ReferenceIdeal.Stages

open Cert.ReferenceIdeal Cert.ReferenceIdeal.Gen Idealize.ShloMosaic Idealize.ShloMosaic.TcCoe

variable {F : FTy → Type} [FloatOps F]

variable (x : FVec F S4096x64x192 .f32) (mask : FVec F S64x64x64 .f32) (qw : FVec F S576x192 .f32) (qb : FVec F S576 .f32)
  (pw : FVec F S192x192 .f32) (pb : FVec F S192 .f32) (tbl : FVec F S225x6 .f32)

/-- The fused projection with its bias. -/
def qkvR : FVec F S4096x64x576 .f32 :=
  addf (Host.dotGeneral dot_S4096x64x192_S576x192_S4096x64x576_2_1_01_0_n_n none x qw)
    (broadcastInDim S4096x64x576 ![0, 1, 2] bcast_S1x1x576_S4096x64x576_0_1_2 (broadcastInDim S1x1x576 ![2] bcast_S576_S1x1x576_2 qb))

/-- The projection split into part, head and channel and laid out part-major. -/
def partsR : FVec F S3x4096x6x64x32 .f32 :=
  transpose S3x4096x6x64x32 [2, 0, 3, 1, 4] (shapeCast S4096x64x3x6x32 (qkvR x qw qb) shapeCasts_S4096x64x576_S4096x64x3x6x32)
    transposes_S4096x64x3x6x32_S3x4096x6x64x32_2_0_3_1_4

/-- The queries. -/
def qR : FVec F S4096x6x64x32 .f32 :=
  shapeCast S4096x6x64x32 (extractStridedSlice S1x4096x6x64x32 ![0, 0, 0, 0, 0] (partsR x qw qb) slices_S3x4096x6x64x32_S1x4096x6x64x32_0_0_0_0_0)
    shapeCasts_S1x4096x6x64x32_S4096x6x64x32
/-- The keys. -/
def kR : FVec F S4096x6x64x32 .f32 :=
  shapeCast S4096x6x64x32 (extractStridedSlice S1x4096x6x64x32 ![1, 0, 0, 0, 0] (partsR x qw qb) slices_S3x4096x6x64x32_S1x4096x6x64x32_1_0_0_0_0)
    shapeCasts_S1x4096x6x64x32_S4096x6x64x32
/-- The values. -/
def vR : FVec F S4096x6x64x32 .f32 :=
  shapeCast S4096x6x64x32 (extractStridedSlice S1x4096x6x64x32 ![2, 0, 0, 0, 0] (partsR x qw qb) slices_S3x4096x6x64x32_S1x4096x6x64x32_2_0_0_0_0)
    shapeCasts_S1x4096x6x64x32_S4096x6x64x32

/-- The scaled queries contracted with the keys over the channel. -/
def scoreR : FVec F S4096x6x64x64 .f32 :=
  Host.dotGeneral dot_S4096x6x64x32_S4096x6x64x32_S4096x6x64x64_3_3_2_2_01_01 none
    (mulf (qR x qw qb) (broadcastInDim S4096x6x64x32 ![] bcast_S_S4096x6x64x32 (constant S_ .f32 0x3E3504F3#32)))
    (kR x qw qb)

/-- The index table as one row of 4096 words. -/
def litR : IVec S4096 32 := shapeCast S4096 (fun i => lit0 (S64x64.rowMajor i) : IVec S64x64 32) shapeCasts_S64x64_S4096

/-- The table's words wrapped where negative (jnp's indexing), as a column of start indices. -/
def idxR : IVec S4096x1 32 :=
  broadcastInDim S4096x1 ![0] bcast_S4096_S4096x1_0
    (select (cmpi .slt litR (broadcastInDim S4096 ![] bcast_S_S4096 (constantI S_ 32 0#32)))
      (addi litR (broadcastInDim S4096 ![] bcast_S_S4096 (constantI S_ 32 225#32))) litR)

/-- The relative-position bias: the table's rows at those indices, laid out head-major. -/
def biasR : FVec F S6x64x64 .f32 :=
  transpose S6x64x64 [2, 0, 1] (shapeCast S64x64x6 (Host.gather gather_S225x6_S4096x1_S4096x6_1_0_n_n_0_1_16 tbl idxR) shapeCasts_S4096x6_S64x64x6)
    transposes_S64x64x6_S6x64x64_2_0_1

/-- The logits: the score plus the bias, then plus the mask of the window's place among 64. -/
def logitR : FVec F S4096x6x64x64 .f32 :=
  shapeCast S4096x6x64x64
    (addf
      (shapeCast S64x64x6x64x64
        (addf (scoreR x qw qb)
          (broadcastInDim S4096x6x64x64 ![0, 1, 2, 3] bcast_S1x6x64x64_S4096x6x64x64_0_1_2_3
            (broadcastInDim S1x6x64x64 ![1, 2, 3] bcast_S6x64x64_S1x6x64x64_1_2_3 (biasR tbl))))
        shapeCasts_S4096x6x64x64_S64x64x6x64x64)
      (broadcastInDim S64x64x6x64x64 ![0, 1, 2, 3, 4] bcast_S1x64x1x64x64_S64x64x6x64x64_0_1_2_3_4
        (broadcastInDim S1x64x1x64x64 ![1, 3, 4] bcast_S64x64x64_S1x64x1x64x64_1_3_4 mask)))
    shapeCasts_S64x64x6x64x64_S4096x6x64x64

/-- The row softmax of an array of logits, as the host spells it: the row maximum from −∞ (taken once more
    against −∞), subtracted; the exponential; the row sum from zero; the quotient. -/
def softmaxR (l : FVec F S4096x6x64x64 .f32) : FVec F S4096x6x64x64 .f32 :=
  let e : FVec F S4096x6x64x64 .f32 :=
    Host.exp (subf l
      (broadcastInDim S4096x6x64x64 ![0, 1, 2, 3] bcast_S4096x6x64x1_S4096x6x64x64_0_1_2_3
        (broadcastInDim S4096x6x64x1 ![0, 1, 2] bcast_S4096x6x64_S4096x6x64x1_0_1_2
          (maximumf (broadcastInDim S4096x6x64 ![] bcast_S_S4096x6x64 (constant S_ .f32 0xFF800000#32))
            (Host.reduce FloatOps.maximumf l (constant S_ .f32 0xFF800000#32) reducesTo_S4096x6x64x64_S4096x6x64_d3 h_S_)))))
  Host.divf e
    (broadcastInDim S4096x6x64x64 ![0, 1, 2, 3] bcast_S4096x6x64x1_S4096x6x64x64_0_1_2_3
      (broadcastInDim S4096x6x64x1 ![0, 1, 2] bcast_S4096x6x64_S4096x6x64x1_0_1_2
        (Host.reduceAdd e (constant S_ .f32 0x00000000#32) reducesTo_S4096x6x64x64_S4096x6x64_d3 h_S_)))

/-- The attention weights (the second result). -/
def attnR : FVec F S4096x6x64x64 .f32 := softmaxR (logitR x mask qw qb tbl)

/-- Weights contracted with values over the second token, heads then laid side by side. -/
def mixOf (a : FVec F S4096x6x64x64 .f32) (v : FVec F S4096x6x64x32 .f32) : FVec F S4096x64x192 .f32 :=
  shapeCast S4096x64x192
    (transpose S4096x64x6x32 [0, 2, 1, 3]
      (Host.dotGeneral dot_S4096x6x64x64_S4096x6x64x32_S4096x6x64x32_3_2_2_3_01_01 none a v)
      transposes_S4096x6x64x32_S4096x64x6x32_0_2_1_3)
    shapeCasts_S4096x64x6x32_S4096x64x192

/-- An array of rows times pwᵀ, plus pb. -/
def outOf (mx : FVec F S4096x64x192 .f32) (pw : FVec F S192x192 .f32) (pb : FVec F S192 .f32) : FVec F S4096x64x192 .f32 :=
  addf (Host.dotGeneral dot_S4096x64x192_S192x192_S4096x64x192_2_1_01_0_n_n none mx pw)
    (broadcastInDim S4096x64x192 ![0, 1, 2] bcast_S1x1x192_S4096x64x192_0_1_2 (broadcastInDim S1x1x192 ![2] bcast_S192_S1x1x192_2 pb))

/-- The weighted values, heads laid side by side. -/
def mixR : FVec F S4096x64x192 .f32 := mixOf (attnR x mask qw qb tbl) (vR x qw qb)

/-- The output projection (the first result). -/
def outR : FVec F S4096x64x192 .f32 := outOf (mixR x mask qw qb tbl) pw pb

end Cert.ReferenceIdeal.Stages

end
-- ==== Proof.RefRun.lean ====
/-
  The reference's run: every weakly fair execution of the host program terminates with the two result buffers at
  the stages `outR` and `attnR` of the arguments, the arguments unchanged.
-/
import proofs.«428607_j12240656794299_3_alg».proof.Proof.RefStages
import Idealize.ShloMosaic.Lib.StableHlo.Run

noncomputable section

namespace Cert.ReferenceIdeal.RefRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-- The host program's 58 operations, in order. -/
abbrev ops : List (HloOp τ sig (Elt F)) :=
  [ nullary main_c (fun i => lit0 (S64x64.rowMajor i)),
    binary main_arg0 main_arg2 main_v0 ((fun l r => Host.dotGeneral dot_S4096x64x192_S576x192_S4096x64x576_2_1_01_0_n_n none l r) : (⟨S4096x64x192, .f32⟩ : BufTy).Contents (Elt F) → (⟨S576x192, .f32⟩ : BufTy).Contents (Elt F) → (⟨S4096x64x576, .f32⟩ : BufTy).Contents (Elt F)),
    unary main_arg3 main_v1 (broadcastInDim S1x1x576 ![2] bcast_S576_S1x1x576_2 : (⟨S576, .f32⟩ : BufTy).Contents (Elt F) → (⟨S1x1x576, .f32⟩ : BufTy).Contents (Elt F)),
    unary main_v1 main_v2 (broadcastInDim S4096x64x576 ![0, 1, 2] bcast_S1x1x576_S4096x64x576_0_1_2 : (⟨S1x1x576, .f32⟩ : BufTy).Contents (Elt F) → (⟨S4096x64x576, .f32⟩ : BufTy).Contents (Elt F)),
    binary main_v0 main_v2 main_v3 (addf : (⟨S4096x64x576, .f32⟩ : BufTy).Contents (Elt F) → (⟨S4096x64x576, .f32⟩ : BufTy).Contents (Elt F) → (⟨S4096x64x576, .f32⟩ : BufTy).Contents (Elt F)),
    reshape main_v3 main_v4 rfl shapeCasts_S4096x64x576_S4096x64x3x6x32,
    unary main_v4 main_v5 ((transpose S3x4096x6x64x32 [2, 0, 3, 1, 4] · transposes_S4096x64x3x6x32_S3x4096x6x64x32_2_0_3_1_4) : (⟨S4096x64x3x6x32, .f32⟩ : BufTy).Contents (Elt F) → (⟨S3x4096x6x64x32, .f32⟩ : BufTy).Contents (Elt F)),
    unary main_v5 main_v6 ((extractStridedSlice S1x4096x6x64x32 ![0, 0, 0, 0, 0] · slices_S3x4096x6x64x32_S1x4096x6x64x32_0_0_0_0_0) : (⟨S3x4096x6x64x32, .f32⟩ : BufTy).Contents (Elt F) → (⟨S1x4096x6x64x32, .f32⟩ : BufTy).Contents (Elt F)),
    reshape main_v6 main_v7 rfl shapeCasts_S1x4096x6x64x32_S4096x6x64x32,
    unary main_v5 main_v8 ((extractStridedSlice S1x4096x6x64x32 ![1, 0, 0, 0, 0] · slices_S3x4096x6x64x32_S1x4096x6x64x32_1_0_0_0_0) : (⟨S3x4096x6x64x32, .f32⟩ : BufTy).Contents (Elt F) → (⟨S1x4096x6x64x32, .f32⟩ : BufTy).Contents (Elt F)),
    reshape main_v8 main_v9 rfl shapeCasts_S1x4096x6x64x32_S4096x6x64x32,
    unary main_v5 main_v10 ((extractStridedSlice S1x4096x6x64x32 ![2, 0, 0, 0, 0] · slices_S3x4096x6x64x32_S1x4096x6x64x32_2_0_0_0_0) : (⟨S3x4096x6x64x32, .f32⟩ : BufTy).Contents (Elt F) → (⟨S1x4096x6x64x32, .f32⟩ : BufTy).Contents (Elt F)),
    reshape main_v10 main_v11 rfl shapeCasts_S1x4096x6x64x32_S4096x6x64x32,
    nullary main_cst (constant S_ .f32 0x3E3504F3#32),
    unary main_cst main_v12 (broadcastInDim S4096x6x64x32 ![] bcast_S_S4096x6x64x32 : (⟨S_, .f32⟩ : BufTy).Contents (Elt F) → (⟨S4096x6x64x32, .f32⟩ : BufTy).Contents (Elt F)),
    binary main_v7 main_v12 main_v13 (mulf : (⟨S4096x6x64x32, .f32⟩ : BufTy).Contents (Elt F) → (⟨S4096x6x64x32, .f32⟩ : BufTy).Contents (Elt F) → (⟨S4096x6x64x32, .f32⟩ : BufTy).Contents (Elt F)),
    binary main_v13 main_v9 main_v14 ((fun l r => Host.dotGeneral dot_S4096x6x64x32_S4096x6x64x32_S4096x6x64x64_3_3_2_2_01_01 none l r) : (⟨S4096x6x64x32, .f32⟩ : BufTy).Contents (Elt F) → (⟨S4096x6x64x32, .f32⟩ : BufTy).Contents (Elt F) → (⟨S4096x6x64x64, .f32⟩ : BufTy).Contents (Elt F)),
    reshape main_c main_v15 rfl shapeCasts_S64x64_S4096,
    nullary main_c_0 (constantI S_ 32 0#32),
    unary main_c_0 main_v16 (broadcastInDim S4096 ![] bcast_S_S4096 : (⟨S_, .i32⟩ : BufTy).Contents (Elt F) → (⟨S4096, .i32⟩ : BufTy).Contents (Elt F)),
    binary main_v15 main_v16 main_v17 (cmpi .slt : (⟨S4096, .i32⟩ : BufTy).Contents (Elt F) → (⟨S4096, .i32⟩ : BufTy).Contents (Elt F) → (⟨S4096, .i1⟩ : BufTy).Contents (Elt F)),
    nullary main_c_1 (constantI S_ 32 225#32),
    unary main_c_1 main_v18 (broadcastInDim S4096 ![] bcast_S_S4096 : (⟨S_, .i32⟩ : BufTy).Contents (Elt F) → (⟨S4096, .i32⟩ : BufTy).Contents (Elt F)),
    binary main_v15 main_v18 main_v19 (addi : (⟨S4096, .i32⟩ : BufTy).Contents (Elt F) → (⟨S4096, .i32⟩ : BufTy).Contents (Elt F) → (⟨S4096, .i32⟩ : BufTy).Contents (Elt F)),
    ternary main_v17 main_v19 main_v15 main_v20 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v20 main_v21 (broadcastInDim S4096x1 ![0] bcast_S4096_S4096x1_0 : (⟨S4096, .i32⟩ : BufTy).Contents (Elt F) → (⟨S4096x1, .i32⟩ : BufTy).Contents (Elt F)),
    binary main_arg6 main_v21 main_v22 ((fun x i => Host.gather gather_S225x6_S4096x1_S4096x6_1_0_n_n_0_1_16 x i) : (⟨S225x6, .f32⟩ : BufTy).Contents (Elt F) → (⟨S4096x1, .i32⟩ : BufTy).Contents (Elt F) → (⟨S4096x6, .f32⟩ : BufTy).Contents (Elt F)),
    reshape main_v22 main_v23 rfl shapeCasts_S4096x6_S64x64x6,
    unary main_v23 main_v24 ((transpose S6x64x64 [2, 0, 1] · transposes_S64x64x6_S6x64x64_2_0_1) : (⟨S64x64x6, .f32⟩ : BufTy).Contents (Elt F) → (⟨S6x64x64, .f32⟩ : BufTy).Contents (Elt F)),
    unary main_v24 main_v25 (broadcastInDim S1x6x64x64 ![1, 2, 3] bcast_S6x64x64_S1x6x64x64_1_2_3 : (⟨S6x64x64, .f32⟩ : BufTy).Contents (Elt F) → (⟨S1x6x64x64, .f32⟩ : BufTy).Contents (Elt F)),
    unary main_v25 main_v26 (broadcastInDim S4096x6x64x64 ![0, 1, 2, 3] bcast_S1x6x64x64_S4096x6x64x64_0_1_2_3 : (⟨S1x6x64x64, .f32⟩ : BufTy).Contents (Elt F) → (⟨S4096x6x64x64, .f32⟩ : BufTy).Contents (Elt F)),
    binary main_v14 main_v26 main_v27 (addf : (⟨S4096x6x64x64, .f32⟩ : BufTy).Contents (Elt F) → (⟨S4096x6x64x64, .f32⟩ : BufTy).Contents (Elt F) → (⟨S4096x6x64x64, .f32⟩ : BufTy).Contents (Elt F)),
    reshape main_v27 main_v28 rfl shapeCasts_S4096x6x64x64_S64x64x6x64x64,
    unary main_arg1 main_v29 (broadcastInDim S1x64x1x64x64 ![1, 3, 4] bcast_S64x64x64_S1x64x1x64x64_1_3_4 : (⟨S64x64x64, .f32⟩ : BufTy).Contents (Elt F) → (⟨S1x64x1x64x64, .f32⟩ : BufTy).Contents (Elt F)),
    unary main_v29 main_v30 (broadcastInDim S64x64x6x64x64 ![0, 1, 2, 3, 4] bcast_S1x64x1x64x64_S64x64x6x64x64_0_1_2_3_4 : (⟨S1x64x1x64x64, .f32⟩ : BufTy).Contents (Elt F) → (⟨S64x64x6x64x64, .f32⟩ : BufTy).Contents (Elt F)),
    binary main_v28 main_v30 main_v31 (addf : (⟨S64x64x6x64x64, .f32⟩ : BufTy).Contents (Elt F) → (⟨S64x64x6x64x64, .f32⟩ : BufTy).Contents (Elt F) → (⟨S64x64x6x64x64, .f32⟩ : BufTy).Contents (Elt F)),
    reshape main_v31 main_v32 rfl shapeCasts_S64x64x6x64x64_S4096x6x64x64,
    nullary main_cst_2 (constant S_ .f32 0xFF800000#32),
    binary main_v32 main_cst_2 main_v33 ((fun x v => Host.reduce FloatOps.maximumf x v reducesTo_S4096x6x64x64_S4096x6x64_d3 h_S_) : (⟨S4096x6x64x64, .f32⟩ : BufTy).Contents (Elt F) → (⟨S_, .f32⟩ : BufTy).Contents (Elt F) → (⟨S4096x6x64, .f32⟩ : BufTy).Contents (Elt F)),
    nullary main_cst_3 (constant S_ .f32 0xFF800000#32),
    unary main_cst_3 main_v34 (broadcastInDim S4096x6x64 ![] bcast_S_S4096x6x64 : (⟨S_, .f32⟩ : BufTy).Contents (Elt F) → (⟨S4096x6x64, .f32⟩ : BufTy).Contents (Elt F)),
    binary main_v34 main_v33 main_v35 (maximumf : (⟨S4096x6x64, .f32⟩ : BufTy).Contents (Elt F) → (⟨S4096x6x64, .f32⟩ : BufTy).Contents (Elt F) → (⟨S4096x6x64, .f32⟩ : BufTy).Contents (Elt F)),
    unary main_v35 main_v36 (broadcastInDim S4096x6x64x1 ![0, 1, 2] bcast_S4096x6x64_S4096x6x64x1_0_1_2 : (⟨S4096x6x64, .f32⟩ : BufTy).Contents (Elt F) → (⟨S4096x6x64x1, .f32⟩ : BufTy).Contents (Elt F)),
    unary main_v36 main_v37 (broadcastInDim S4096x6x64x64 ![0, 1, 2, 3] bcast_S4096x6x64x1_S4096x6x64x64_0_1_2_3 : (⟨S4096x6x64x1, .f32⟩ : BufTy).Contents (Elt F) → (⟨S4096x6x64x64, .f32⟩ : BufTy).Contents (Elt F)),
    binary main_v32 main_v37 main_v38 (subf : (⟨S4096x6x64x64, .f32⟩ : BufTy).Contents (Elt F) → (⟨S4096x6x64x64, .f32⟩ : BufTy).Contents (Elt F) → (⟨S4096x6x64x64, .f32⟩ : BufTy).Contents (Elt F)),
    unary main_v38 main_v39 (Host.exp : (⟨S4096x6x64x64, .f32⟩ : BufTy).Contents (Elt F) → (⟨S4096x6x64x64, .f32⟩ : BufTy).Contents (Elt F)),
    nullary main_cst_4 (constant S_ .f32 0x00000000#32),
    binary main_v39 main_cst_4 main_v40 ((fun x v => Host.reduceAdd x v reducesTo_S4096x6x64x64_S4096x6x64_d3 h_S_) : (⟨S4096x6x64x64, .f32⟩ : BufTy).Contents (Elt F) → (⟨S_, .f32⟩ : BufTy).Contents (Elt F) → (⟨S4096x6x64, .f32⟩ : BufTy).Contents (Elt F)),
    unary main_v40 main_v41 (broadcastInDim S4096x6x64x1 ![0, 1, 2] bcast_S4096x6x64_S4096x6x64x1_0_1_2 : (⟨S4096x6x64, .f32⟩ : BufTy).Contents (Elt F) → (⟨S4096x6x64x1, .f32⟩ : BufTy).Contents (Elt F)),
    unary main_v41 main_v42 (broadcastInDim S4096x6x64x64 ![0, 1, 2, 3] bcast_S4096x6x64x1_S4096x6x64x64_0_1_2_3 : (⟨S4096x6x64x1, .f32⟩ : BufTy).Contents (Elt F) → (⟨S4096x6x64x64, .f32⟩ : BufTy).Contents (Elt F)),
    binary main_v39 main_v42 main_v43 (Host.divf : (⟨S4096x6x64x64, .f32⟩ : BufTy).Contents (Elt F) → (⟨S4096x6x64x64, .f32⟩ : BufTy).Contents (Elt F) → (⟨S4096x6x64x64, .f32⟩ : BufTy).Contents (Elt F)),
    binary main_v43 main_v11 main_v44 ((fun l r => Host.dotGeneral dot_S4096x6x64x64_S4096x6x64x32_S4096x6x64x32_3_2_2_3_01_01 none l r) : (⟨S4096x6x64x64, .f32⟩ : BufTy).Contents (Elt F) → (⟨S4096x6x64x32, .f32⟩ : BufTy).Contents (Elt F) → (⟨S4096x6x64x32, .f32⟩ : BufTy).Contents (Elt F)),
    unary main_v44 main_v45 ((transpose S4096x64x6x32 [0, 2, 1, 3] · transposes_S4096x6x64x32_S4096x64x6x32_0_2_1_3) : (⟨S4096x6x64x32, .f32⟩ : BufTy).Contents (Elt F) → (⟨S4096x64x6x32, .f32⟩ : BufTy).Contents (Elt F)),
    reshape main_v45 main_v46 rfl shapeCasts_S4096x64x6x32_S4096x64x192,
    binary main_v46 main_arg4 main_v47 ((fun l r => Host.dotGeneral dot_S4096x64x192_S192x192_S4096x64x192_2_1_01_0_n_n none l r) : (⟨S4096x64x192, .f32⟩ : BufTy).Contents (Elt F) → (⟨S192x192, .f32⟩ : BufTy).Contents (Elt F) → (⟨S4096x64x192, .f32⟩ : BufTy).Contents (Elt F)),
    unary main_arg5 main_v48 (broadcastInDim S1x1x192 ![2] bcast_S192_S1x1x192_2 : (⟨S192, .f32⟩ : BufTy).Contents (Elt F) → (⟨S1x1x192, .f32⟩ : BufTy).Contents (Elt F)),
    unary main_v48 main_v49 (broadcastInDim S4096x64x192 ![0, 1, 2] bcast_S1x1x192_S4096x64x192_0_1_2 : (⟨S1x1x192, .f32⟩ : BufTy).Contents (Elt F) → (⟨S4096x64x192, .f32⟩ : BufTy).Contents (Elt F)),
    binary main_v47 main_v49 main_v50 (addf : (⟨S4096x64x192, .f32⟩ : BufTy).Contents (Elt F) → (⟨S4096x64x192, .f32⟩ : BufTy).Contents (Elt F) → (⟨S4096x64x192, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., binary_bufs_sub .., unary_bufs_sub .., unary_bufs_sub .., binary_bufs_sub .., reshape_bufs_sub .., unary_bufs_sub .., unary_bufs_sub .., reshape_bufs_sub .., unary_bufs_sub .., reshape_bufs_sub .., unary_bufs_sub .., reshape_bufs_sub .., nullary_bufs_sub .., unary_bufs_sub .., binary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., unary_bufs_sub .., unary_bufs_sub .., binary_bufs_sub .., reshape_bufs_sub .., unary_bufs_sub .., unary_bufs_sub .., binary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., reshape_bufs_sub .., binary_bufs_sub .., unary_bufs_sub .., unary_bufs_sub .., binary_bufs_sub ..⟩

/-- The first result buffer after the operations, from any contents: the output projection stage of the arguments. -/
theorem out_eq (V : Valuation τ sig (Elt F)) :
    after (ops (F := F)) V (Proc.devRef .tc main_v50)
      = outR (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) := by
  after_results_simp
  rfl

/-- The second result buffer after the operations: the attention-weight stage of the arguments. -/
theorem attn_eq (V : Valuation τ sig (Elt F)) :
    after (ops (F := F)) V (Proc.devRef .tc main_v43)
      = attnR (V (Proc.devRef .tc main_arg0)) (V (Proc.devRef .tc main_arg1)) (V (Proc.devRef .tc main_arg2)) (V (Proc.devRef .tc main_arg3))
          (V (Proc.devRef .tc main_arg6)) := by
  after_results_simp
  rfl

/-- No operation writes an argument buffer. -/
theorem arg0_eq (V : Valuation τ sig (Elt F)) : after (ops (F := F)) V (Proc.devRef .tc main_arg0) = V (Proc.devRef .tc main_arg0) := by
  after_results_simp
theorem arg1_eq (V : Valuation τ sig (Elt F)) : after (ops (F := F)) V (Proc.devRef .tc main_arg1) = V (Proc.devRef .tc main_arg1) := by
  after_results_simp
theorem arg2_eq (V : Valuation τ sig (Elt F)) : after (ops (F := F)) V (Proc.devRef .tc main_arg2) = V (Proc.devRef .tc main_arg2) := by
  after_results_simp
theorem arg3_eq (V : Valuation τ sig (Elt F)) : after (ops (F := F)) V (Proc.devRef .tc main_arg3) = V (Proc.devRef .tc main_arg3) := by
  after_results_simp
theorem arg4_eq (V : Valuation τ sig (Elt F)) : after (ops (F := F)) V (Proc.devRef .tc main_arg4) = V (Proc.devRef .tc main_arg4) := by
  after_results_simp
theorem arg5_eq (V : Valuation τ sig (Elt F)) : after (ops (F := F)) V (Proc.devRef .tc main_arg5) = V (Proc.devRef .tc main_arg5) := by
  after_results_simp
theorem arg6_eq (V : Valuation τ sig (Elt F)) : after (ops (F := F)) V (Proc.devRef .tc main_arg6) = V (Proc.devRef .tc main_arg6) := by
  after_results_simp

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50) = outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v43) = attnR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  exact (θ_run defs _ _).mono (fun _ h c => ⟨(h c main_v50).trans (out_eq _), (h c main_v43).trans (attn_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _)⟩)
    (run_seq scopedRefs_eq scopedSems_eq defs main (fun _ => ops) main_eq (fun _ => ops_sub) m ρ)

end Cert.ReferenceIdeal.RefRun

end
-- ==== Proof.RefValueA.lean ====
/-
  The reference's stages up to the logits, read at an index on the extended reals: each is the specification's
  quantity of the same name.
    qkvR   at (b, n, o)      the sum over the 192 channels of x[b,n,c] · qw[o,c], plus qb[o]
    partsR at (s, b, h, n, d) the projection's column 192 s + 32 h + d (row-major position of (b, n, s, h, d)
                              among [4096, 64, 3, 6, 32] is that of (b, n, 192 s + 32 h + d) among [4096, 64, 576])
    qR kR vR                  parts 0, 1, 2
    scoreR at (b, h, n, m)    the sum over the 32 channels of (q · scale) · k
    logitR at (b, h, n, m)    (score + bias) + mask at window b mod 64, regrouped by associativity; window b sits
                              at (b / 64, b mod 64) of the [64, 64] view since 64 (b / 64) + b mod 64 = b
-/
import proofs.«428607_j12240656794299_3_alg».proof.Proof.RefStages
import proofs.«428607_j12240656794299_3_alg».proof.Proof.Spec
import Idealize.ShloMosaic.Lib.Pipeline.Value
import Idealize.ShloMosaic.Lib.ValueLayout
import Idealize.ShloMosaic.Lib.IdealHost

noncomputable section

namespace Cert.ReferenceIdeal.RefVal

open Cert.ReferenceIdeal Cert.ReferenceIdeal.Gen Cert.ReferenceIdeal.Stages Idealize.ShloMosaic Idealize.ShloMosaic.ValueIdx Cert.WinAttn

variable (x : FVec Ideal S4096x64x192 .f32) (mask : FVec Ideal S64x64x64 .f32) (qw : FVec Ideal S576x192 .f32) (qb : FVec Ideal S576 .f32)
  (tbl : FVec Ideal S225x6 .f32)

/-- The first product at (b, n, o): the contraction runs over the last axis of both operands, so the left operand
    is read at (b, n, c) and the right at (o, c). -/
private theorem proj_dot_apply (b : Fin 4096) (n : Fin 64) (o : Fin 576) :
    Host.dotGeneral dot_S4096x64x192_S576x192_S4096x64x576_2_1_01_0_n_n none x qw (ix3 b n o)
      = ∑ c : Fin 192, x (ix3 b n c) * qw (ix2 o c) := by
  show FloatOps.dotGeneral _ none _ x qw (ix3 b n o) = _
  rw [Ideal.dotGeneral_apply,
    ← Equiv.sum_comp (contrEquiv1 dot_S4096x64x192_S576x192_S4096x64x576_2_1_01_0_n_n 192 rfl rfl).symm]
  refine Finset.sum_congr rfl fun c _ => ?_
  have c3 := contrEquiv1_symm_val dot_S4096x64x192_S576x192_S4096x64x576_2_1_01_0_n_n 192 rfl rfl c
  have l3 : dot_S4096x64x192_S576x192_S4096x64x576_2_1_01_0_n_n.lhsIdx (ix3 b n o)
      ((contrEquiv1 _ 192 rfl rfl).symm c) = ix3 b n c := by
    funext ax; apply Fin.ext
    match ax with
    | ⟨0, _⟩ => simp [DotDims.lhsIdx, dot_S4096x64x192_S576x192_S4096x64x576_2_1_01_0_n_n]; rfl
    | ⟨1, _⟩ => simp [DotDims.lhsIdx, dot_S4096x64x192_S576x192_S4096x64x576_2_1_01_0_n_n]; rfl
    | ⟨2, _⟩ => simp [DotDims.lhsIdx, dot_S4096x64x192_S576x192_S4096x64x576_2_1_01_0_n_n]; exact c3
  have r3 : dot_S4096x64x192_S576x192_S4096x64x576_2_1_01_0_n_n.rhsIdx (ix3 b n o)
      ((contrEquiv1 _ 192 rfl rfl).symm c) = ix2 o c := by
    funext ax; apply Fin.ext
    match ax with
    | ⟨0, _⟩ => simp [DotDims.rhsIdx, dot_S4096x64x192_S576x192_S4096x64x576_2_1_01_0_n_n]; rfl
    | ⟨1, _⟩ => simp [DotDims.rhsIdx, dot_S4096x64x192_S576x192_S4096x64x576_2_1_01_0_n_n]; exact c3
  rw [l3, r3]

/-- The projection's bias laid along every token of every window reads qb[o] at (b, n, o). -/
private theorem proj_bias_apply (b : Fin 4096) (n : Fin 64) (o : Fin 576) :
    broadcastInDim S4096x64x576 ![0, 1, 2] bcast_S1x1x576_S4096x64x576_0_1_2
      (broadcastInDim S1x1x576 ![2] bcast_S576_S1x1x576_2 qb) (ix3 b n o) = qb (ix1 o) := by
  refine (broadcastInDim_apply ![0, 1, 2] bcast_S1x1x576_S4096x64x576_0_1_2 _ (ix3 b n o)
    (ix3 (0 : Fin 1) (0 : Fin 1) o) ?_).trans ?_
  · intro a
    match a with
    | ⟨0, _⟩ => rfl
    | ⟨1, _⟩ => rfl
    | ⟨2, _⟩ => rfl
  · refine broadcastInDim_apply ![2] bcast_S576_S1x1x576_2 qb _ (ix1 o) ?_
    intro a
    match a with
    | ⟨0, _⟩ => rfl

theorem qkvR_apply (b : Fin 4096) (n : Fin 64) (o : Fin 576) :
    qkvR x qw qb (ix3 b n o) = qkv x qw qb b n o := by
  unfold qkvR qkv
  rw [addf_apply, proj_dot_apply, proj_bias_apply]

/-- The projection split and laid out part-major: at (s, b, h, n, d) it is the projection's column 192 s + 32 h + d
    of token n of window b. -/
private theorem partsR_apply (s : Fin 3) (b : Fin 4096) (h : Fin 6) (n : Fin 64) (d : Fin 32) :
    partsR x qw qb (ix5 s b h n d) = qkv x qw qb b n (col s h d) := by
  unfold partsR
  refine (transpose_apply [2, 0, 3, 1, 4] _ transposes_S4096x64x3x6x32_S3x4096x6x64x32_2_0_3_1_4
    (ix5 s b h n d) (ix5 b n s h d) ?_).trans ?_
  · intro a
    match a with
    | ⟨0, _⟩ => rfl
    | ⟨1, _⟩ => rfl
    | ⟨2, _⟩ => rfl
    | ⟨3, _⟩ => rfl
    | ⟨4, _⟩ => rfl
  refine (shapeCast_apply _ shapeCasts_S4096x64x576_S4096x64x3x6x32 (ix5 b n s h d) (ix3 b n (col s h d)) ?_).trans ?_
  · rw [Shape.rowMajor_val_three, Shape.rowMajor_val_five]
    show (b.val * 64 + n.val) * 576 + (s.val * 192 + h.val * 32 + d.val)
      = (((b.val * 64 + n.val) * 3 + s.val) * 6 + h.val) * 32 + d.val
    omega
  exact qkvR_apply x qw qb b n (col s h d)

/-- The queries: part 0 of the projection, the leading unit axis of the cut dropped. -/
theorem qR_apply (b : Fin 4096) (h : Fin 6) (n : Fin 64) (d : Fin 32) :
    qR x qw qb (ix4 b h n d) = qkv x qw qb b n (col 0 h d) := by
  unfold qR
  refine (shapeCast_apply _ shapeCasts_S1x4096x6x64x32_S4096x6x64x32 (ix4 b h n d) (ix5 (0 : Fin 1) b h n d) ?_).trans ?_
  · rw [Shape.rowMajor_val_five, Shape.rowMajor_val_four]
    show ((((0 : Fin 1).val * 4096 + b.val) * 6 + h.val) * 64 + n.val) * 32 + d.val
      = ((b.val * 6 + h.val) * 64 + n.val) * 32 + d.val
    rw [show ((0 : Fin 1).val) = 0 from rfl, Nat.zero_mul, Nat.zero_add]
  refine (extractStridedSlice_apply ![0, 0, 0, 0, 0] _ slices_S3x4096x6x64x32_S1x4096x6x64x32_0_0_0_0_0
    (ix5 (0 : Fin 1) b h n d) (ix5 (0 : Fin 3) b h n d) ?_).trans ?_
  · intro a
    match a with
    | ⟨0, _⟩ => rfl
    | ⟨1, _⟩ => exact (Nat.zero_add _).symm
    | ⟨2, _⟩ => exact (Nat.zero_add _).symm
    | ⟨3, _⟩ => exact (Nat.zero_add _).symm
    | ⟨4, _⟩ => exact (Nat.zero_add _).symm
  exact partsR_apply x qw qb 0 b h n d

/-- The keys: part 1 of the projection, the leading unit axis of the cut dropped. -/
theorem kR_apply (b : Fin 4096) (h : Fin 6) (n : Fin 64) (d : Fin 32) :
    kR x qw qb (ix4 b h n d) = qkv x qw qb b n (col 1 h d) := by
  unfold kR
  refine (shapeCast_apply _ shapeCasts_S1x4096x6x64x32_S4096x6x64x32 (ix4 b h n d) (ix5 (0 : Fin 1) b h n d) ?_).trans ?_
  · rw [Shape.rowMajor_val_five, Shape.rowMajor_val_four]
    show ((((0 : Fin 1).val * 4096 + b.val) * 6 + h.val) * 64 + n.val) * 32 + d.val
      = ((b.val * 6 + h.val) * 64 + n.val) * 32 + d.val
    rw [show ((0 : Fin 1).val) = 0 from rfl, Nat.zero_mul, Nat.zero_add]
  refine (extractStridedSlice_apply ![1, 0, 0, 0, 0] _ slices_S3x4096x6x64x32_S1x4096x6x64x32_1_0_0_0_0
    (ix5 (0 : Fin 1) b h n d) (ix5 (1 : Fin 3) b h n d) ?_).trans ?_
  · intro a
    match a with
    | ⟨0, _⟩ => rfl
    | ⟨1, _⟩ => exact (Nat.zero_add _).symm
    | ⟨2, _⟩ => exact (Nat.zero_add _).symm
    | ⟨3, _⟩ => exact (Nat.zero_add _).symm
    | ⟨4, _⟩ => exact (Nat.zero_add _).symm
  exact partsR_apply x qw qb 1 b h n d

/-- The values: part 2 of the projection, the leading unit axis of the cut dropped. -/
theorem vR_apply (b : Fin 4096) (h : Fin 6) (n : Fin 64) (d : Fin 32) :
    vR x qw qb (ix4 b h n d) = qkv x qw qb b n (col 2 h d) := by
  unfold vR
  refine (shapeCast_apply _ shapeCasts_S1x4096x6x64x32_S4096x6x64x32 (ix4 b h n d) (ix5 (0 : Fin 1) b h n d) ?_).trans ?_
  · rw [Shape.rowMajor_val_five, Shape.rowMajor_val_four]
    show ((((0 : Fin 1).val * 4096 + b.val) * 6 + h.val) * 64 + n.val) * 32 + d.val
      = ((b.val * 6 + h.val) * 64 + n.val) * 32 + d.val
    rw [show ((0 : Fin 1).val) = 0 from rfl, Nat.zero_mul, Nat.zero_add]
  refine (extractStridedSlice_apply ![2, 0, 0, 0, 0] _ slices_S3x4096x6x64x32_S1x4096x6x64x32_2_0_0_0_0
    (ix5 (0 : Fin 1) b h n d) (ix5 (2 : Fin 3) b h n d) ?_).trans ?_
  · intro a
    match a with
    | ⟨0, _⟩ => rfl
    | ⟨1, _⟩ => exact (Nat.zero_add _).symm
    | ⟨2, _⟩ => exact (Nat.zero_add _).symm
    | ⟨3, _⟩ => exact (Nat.zero_add _).symm
    | ⟨4, _⟩ => exact (Nat.zero_add _).symm
  exact partsR_apply x qw qb 2 b h n d

/-- The second product at (b, h, n, m): window and head are carried along, the channel is contracted, so the left
    operand is read at (b, h, n, c) and the right at (b, h, m, c). -/
private theorem score_dot_apply (A B : FVec Ideal S4096x6x64x32 .f32) (b : Fin 4096) (h : Fin 6) (n m : Fin 64) :
    Host.dotGeneral dot_S4096x6x64x32_S4096x6x64x32_S4096x6x64x64_3_3_2_2_01_01 none A B (ix4 b h n m)
      = ∑ c : Fin 32, A (ix4 b h n c) * B (ix4 b h m c) := by
  show FloatOps.dotGeneral _ none _ A B (ix4 b h n m) = _
  rw [Ideal.dotGeneral_apply,
    ← Equiv.sum_comp (contrEquiv1 dot_S4096x6x64x32_S4096x6x64x32_S4096x6x64x64_3_3_2_2_01_01 32 rfl rfl).symm]
  refine Finset.sum_congr rfl fun c _ => ?_
  have c3 := contrEquiv1_symm_val dot_S4096x6x64x32_S4096x6x64x32_S4096x6x64x64_3_3_2_2_01_01 32 rfl rfl c
  have l3 : dot_S4096x6x64x32_S4096x6x64x32_S4096x6x64x64_3_3_2_2_01_01.lhsIdx (ix4 b h n m)
      ((contrEquiv1 _ 32 rfl rfl).symm c) = ix4 b h n c := by
    funext ax; apply Fin.ext
    match ax with
    | ⟨0, _⟩ => simp [DotDims.lhsIdx, dot_S4096x6x64x32_S4096x6x64x32_S4096x6x64x64_3_3_2_2_01_01]; rfl
    | ⟨1, _⟩ => simp [DotDims.lhsIdx, dot_S4096x6x64x32_S4096x6x64x32_S4096x6x64x64_3_3_2_2_01_01]; rfl
    | ⟨2, _⟩ => simp [DotDims.lhsIdx, dot_S4096x6x64x32_S4096x6x64x32_S4096x6x64x64_3_3_2_2_01_01]; rfl
    | ⟨3, _⟩ => simp [DotDims.lhsIdx, dot_S4096x6x64x32_S4096x6x64x32_S4096x6x64x64_3_3_2_2_01_01]; exact c3
  have r3 : dot_S4096x6x64x32_S4096x6x64x32_S4096x6x64x64_3_3_2_2_01_01.rhsIdx (ix4 b h n m)
      ((contrEquiv1 _ 32 rfl rfl).symm c) = ix4 b h m c := by
    funext ax; apply Fin.ext
    match ax with
    | ⟨0, _⟩ => simp [DotDims.rhsIdx, dot_S4096x6x64x32_S4096x6x64x32_S4096x6x64x64_3_3_2_2_01_01]; rfl
    | ⟨1, _⟩ => simp [DotDims.rhsIdx, dot_S4096x6x64x32_S4096x6x64x32_S4096x6x64x64_3_3_2_2_01_01]; rfl
    | ⟨2, _⟩ => simp [DotDims.rhsIdx, dot_S4096x6x64x32_S4096x6x64x32_S4096x6x64x64_3_3_2_2_01_01]; rfl
    | ⟨3, _⟩ => simp [DotDims.rhsIdx, dot_S4096x6x64x32_S4096x6x64x32_S4096x6x64x64_3_3_2_2_01_01]; exact c3
  rw [l3, r3]

theorem scoreR_apply (b : Fin 4096) (h : Fin 6) (n m : Fin 64) :
    scoreR x qw qb (ix4 b h n m) = score x qw qb b h n m := by
  unfold scoreR score
  rw [score_dot_apply]
  refine Finset.sum_congr rfl fun c _ => ?_
  rw [mulf_apply, qR_apply, kR_apply, broadcastInDim_scalar_apply]
  rfl

/-- An array over (head, token, token) laid along every window reads its own entry at (h, n, m). -/
private theorem bias_bcast_apply (B : FVec Ideal S6x64x64 .f32) (b : Fin 4096) (h : Fin 6) (n m : Fin 64) :
    broadcastInDim S4096x6x64x64 ![0, 1, 2, 3] bcast_S1x6x64x64_S4096x6x64x64_0_1_2_3
      (broadcastInDim S1x6x64x64 ![1, 2, 3] bcast_S6x64x64_S1x6x64x64_1_2_3 B) (ix4 b h n m) = B (ix3 h n m) := by
  refine (broadcastInDim_apply ![0, 1, 2, 3] bcast_S1x6x64x64_S4096x6x64x64_0_1_2_3 _ (ix4 b h n m)
    (ix4 (0 : Fin 1) h n m) ?_).trans ?_
  · intro a
    match a with
    | ⟨0, _⟩ => rfl
    | ⟨1, _⟩ => rfl
    | ⟨2, _⟩ => rfl
    | ⟨3, _⟩ => rfl
  · refine broadcastInDim_apply ![1, 2, 3] bcast_S6x64x64_S1x6x64x64_1_2_3 B _ (ix3 h n m) ?_
    intro a
    match a with
    | ⟨0, _⟩ => rfl
    | ⟨1, _⟩ => rfl
    | ⟨2, _⟩ => rfl

/-- The masks laid along every group of 64 windows and every head read, at (g, w, h, n, m), mask w at (n, m). -/
private theorem mask_bcast_apply (g w : Fin 64) (h : Fin 6) (n m : Fin 64) :
    broadcastInDim S64x64x6x64x64 ![0, 1, 2, 3, 4] bcast_S1x64x1x64x64_S64x64x6x64x64_0_1_2_3_4
      (broadcastInDim S1x64x1x64x64 ![1, 3, 4] bcast_S64x64x64_S1x64x1x64x64_1_3_4 mask) (ix5 g w h n m)
      = mask (ix3 w n m) := by
  refine (broadcastInDim_apply ![0, 1, 2, 3, 4] bcast_S1x64x1x64x64_S64x64x6x64x64_0_1_2_3_4 _ (ix5 g w h n m)
    (ix5 (0 : Fin 1) w (0 : Fin 1) n m) ?_).trans ?_
  · intro a
    match a with
    | ⟨0, _⟩ => rfl
    | ⟨1, _⟩ => rfl
    | ⟨2, _⟩ => rfl
    | ⟨3, _⟩ => rfl
    | ⟨4, _⟩ => rfl
  · refine broadcastInDim_apply ![1, 3, 4] bcast_S64x64x64_S1x64x1x64x64_1_3_4 mask _ (ix3 w n m) ?_
    intro a
    match a with
    | ⟨0, _⟩ => rfl
    | ⟨1, _⟩ => rfl
    | ⟨2, _⟩ => rfl

theorem logitR_apply (b : Fin 4096) (h : Fin 6) (n m : Fin 64) :
    logitR x mask qw qb tbl (ix4 b h n m) = logit x mask qw qb (biasR tbl) b h n m := by
  have hq : b.val / 64 < 64 := by have := b.isLt; omega
  have hpos : ((b.val / 64 * 64 + b.val % 64) * 6 + h.val) * 64 + n.val
      = (b.val * 6 + h.val) * 64 + n.val := by
    rw [Nat.div_add_mod' b.val 64]
  unfold logitR logit
  refine (shapeCast_apply _ shapeCasts_S64x64x6x64x64_S4096x6x64x64 (ix4 b h n m)
    (ix5 (⟨b.val / 64, hq⟩ : Fin 64) (win b) h n m) ?_).trans ?_
  · rw [Shape.rowMajor_val_five, Shape.rowMajor_val_four]
    show ((((b.val / 64) * 64 + b.val % 64) * 6 + h.val) * 64 + n.val) * 64 + m.val
      = ((b.val * 6 + h.val) * 64 + n.val) * 64 + m.val
    rw [hpos]
  rw [addf_apply, mask_bcast_apply]
  rw [shapeCast_apply _ shapeCasts_S4096x6x64x64_S64x64x6x64x64
    (ix5 (⟨b.val / 64, hq⟩ : Fin 64) (win b) h n m) (ix4 b h n m) (by
      rw [Shape.rowMajor_val_five, Shape.rowMajor_val_four]
      show ((b.val * 6 + h.val) * 64 + n.val) * 64 + m.val
        = ((((b.val / 64) * 64 + b.val % 64) * 6 + h.val) * 64 + n.val) * 64 + m.val
      rw [hpos])]
  rw [addf_apply, scoreR_apply, bias_bcast_apply]
  exact add_assoc _ _ _

end Cert.ReferenceIdeal.RefVal

end
-- ==== Proof.RefValueB.lean ====
/-
  The reference's softmax, its weighted sum of values and its output projection, read at an index on the extended
  reals, each over ANY operand arrays.
-/
import proofs.«428607_j12240656794299_3_alg».proof.Proof.RefStages
import proofs.«428607_j12240656794299_3_alg».proof.Proof.Spec
import Idealize.ShloMosaic.Lib.Pipeline.Value
import Idealize.ShloMosaic.Lib.ValueLayout

noncomputable section

namespace Cert.ReferenceIdeal.RefVal

open Cert.ReferenceIdeal Cert.ReferenceIdeal.Gen Cert.ReferenceIdeal.Stages Idealize.ShloMosaic Idealize.ShloMosaic.ValueIdx Cert.WinAttn

/-! ## The row softmax -/

/-- Dropping the last axis of [4096, 6, 64, 64] leaves [4096, 6, 64]. -/
private theorem reduces_last : S4096x6x64x64.Reduces [3] S4096x6x64 := by decide

/-- The index (b, h, n) with the coordinate `k` put back on the last axis is (b, h, n, k). -/
private theorem lift_last (b : Fin 4096) (h : Fin 6) (n : Fin 64) (k : Fin (S4096x6x64x64.size 3)) :
    reduces_last.lift (ix3 b h n) k = ix4 b h n (⟨k.val, k.isLt⟩ : Fin 64) := by
  funext c; apply Fin.ext
  fin_cases c <;> rfl

/-- An array over (b, h, n) broadcast along a new last axis of 64, at (b, h, n, m), is the array at (b, h, n). -/
private theorem keepLast_apply (z : FVec Ideal S4096x6x64 .f32) (b : Fin 4096) (h : Fin 6) (n m : Fin 64) :
    broadcastInDim S4096x6x64x64 ![0, 1, 2, 3] bcast_S4096x6x64x1_S4096x6x64x64_0_1_2_3
      (broadcastInDim S4096x6x64x1 ![0, 1, 2] bcast_S4096x6x64_S4096x6x64x1_0_1_2 z) (ix4 b h n m) = z (ix3 b h n) := by
  rw [broadcastInDim_apply (k := ix4 b h n (0 : Fin 1)) (hk := by
      intro a; match a with
      | ⟨0, _⟩ => rfl
      | ⟨1, _⟩ => rfl
      | ⟨2, _⟩ => rfl
      | ⟨3, _⟩ => rfl)]
  exact broadcastInDim_apply _ _ _ _ (ix3 b h n) (by
      intro a; match a with
      | ⟨0, _⟩ => rfl
      | ⟨1, _⟩ => rfl
      | ⟨2, _⟩ => rfl)

/-- The maximum against −∞ changes nothing on the extended reals: the word is ⊥. -/
private theorem max_negInf (y : EReal) : max (Ideal.ofBits .f32 0xFF800000#32) y = y := by
  simp [Ideal.ofBits, Ideal.ieee]

/-- The host's row maximum (the reduce from −∞, then once more against −∞) at (b, h, n) is the row's maximum. -/
private theorem rowMaxR_apply (l : FVec Ideal S4096x6x64x64 .f32) (b : Fin 4096) (h : Fin 6) (n : Fin 64) :
    maximumf (broadcastInDim S4096x6x64 ![] bcast_S_S4096x6x64 (constant (F := Ideal) S_ .f32 0xFF800000#32))
        (Host.reduce FloatOps.maximumf l (constant (F := Ideal) S_ .f32 0xFF800000#32) reducesTo_S4096x6x64x64_S4096x6x64_d3 h_S_)
        (ix3 b h n)
      = rowMax (fun k => l (ix4 b h n k)) := by
  rw [maximumf_apply, Host.reduce_eq_fold_single FloatOps.maximumf l _ reducesTo_S4096x6x64x64_S4096x6x64_d3 reduces_last h_S_]
  refine (max_negInf _).trans ?_
  unfold rowMax
  have hf : (l ∘ reduces_last.lift (ix3 b h n)) = fun k : Fin 64 => l (ix4 b h n k) :=
    funext fun k => congrArg l (lift_last b h n k)
  exact congrArg (fun f => Finset.fold max (Ideal.ofBits .f32 0xFF800000#32) f (Finset.univ : Finset (Fin 64))) hf

/-- The host's row sum from zero at (b, h, n) is the sum over the row. -/
private theorem rowSumR_apply (e : FVec Ideal S4096x6x64x64 .f32) (b : Fin 4096) (h : Fin 6) (n : Fin 64) :
    Host.reduceAdd e (constant (F := Ideal) S_ .f32 0x00000000#32) reducesTo_S4096x6x64x64_S4096x6x64_d3 h_S_ (ix3 b h n)
      = ∑ k : Fin 64, e (ix4 b h n k) := by
  unfold Host.reduceAdd
  rw [Ideal.hostReduceAdd_def, Ideal.hostReduceAdd_single _ reduces_last]
  show Ideal.ofBits .f32 0x00000000#32 + _ = _
  rw [Ideal.ofBits_zero_f32, zero_add]
  exact Finset.sum_congr rfl fun k _ => congrArg e (lift_last b h n k)

/-- The exponentials of the logits less their row maximum. -/
private def expR (l : FVec Ideal S4096x6x64x64 .f32) : FVec Ideal S4096x6x64x64 .f32 :=
  Host.exp (subf l
    (broadcastInDim S4096x6x64x64 ![0, 1, 2, 3] bcast_S4096x6x64x1_S4096x6x64x64_0_1_2_3
      (broadcastInDim S4096x6x64x1 ![0, 1, 2] bcast_S4096x6x64_S4096x6x64x1_0_1_2
        (maximumf (broadcastInDim S4096x6x64 ![] bcast_S_S4096x6x64 (constant S_ .f32 0xFF800000#32))
          (Host.reduce FloatOps.maximumf l (constant S_ .f32 0xFF800000#32) reducesTo_S4096x6x64x64_S4096x6x64_d3 h_S_)))))

private theorem expR_apply (l : FVec Ideal S4096x6x64x64 .f32) (b : Fin 4096) (h : Fin 6) (n k : Fin 64) :
    expR l (ix4 b h n k) = Ideal.exp (l (ix4 b h n k) - rowMax (fun k => l (ix4 b h n k))) := by
  unfold expR Host.exp
  rw [Ideal.hostUnary_exp_def, subf_apply, keepLast_apply, rowMaxR_apply]

/-- The host's softmax is the exponentials over their broadcast row sums. -/
private theorem softmaxR_eq (l : FVec Ideal S4096x6x64x64 .f32) :
    softmaxR l = Host.divf (expR l)
      (broadcastInDim S4096x6x64x64 ![0, 1, 2, 3] bcast_S4096x6x64x1_S4096x6x64x64_0_1_2_3
        (broadcastInDim S4096x6x64x1 ![0, 1, 2] bcast_S4096x6x64_S4096x6x64x1_0_1_2
          (Host.reduceAdd (expR l) (constant S_ .f32 0x00000000#32) reducesTo_S4096x6x64x64_S4096x6x64_d3 h_S_))) := rfl

theorem softmaxR_apply (l : FVec Ideal S4096x6x64x64 .f32) (b : Fin 4096) (h : Fin 6) (n m : Fin 64) :
    softmaxR l (ix4 b h n m) = softmaxRow (fun k => l (ix4 b h n k)) m := by
  rw [softmaxR_eq]
  unfold Host.divf
  show FloatOps.hostDivf (expR l (ix4 b h n m)) _ = _
  rw [Ideal.hostDivf_def, keepLast_apply, rowSumR_apply, expR_apply]
  unfold softmaxRow
  exact congrArg (Ideal.div _) (Finset.sum_congr rfl fun k _ => expR_apply l b h n k)

/-! ## The weighted sum of the values -/

private theorem lhs_mix_0 (i : S4096x6x64x32.Idx) (q : dot_S4096x6x64x64_S4096x6x64x32_S4096x6x64x32_3_2_2_3_01_01.contr.Idx) :
    (dot_S4096x6x64x64_S4096x6x64x32_S4096x6x64x32_3_2_2_3_01_01.lhsIdx i q 0).val = (i 0).val := by
  unfold DotDims.lhsIdx
  rw [dif_pos (show (0 : Fin S4096x6x64x64.rank) ∈ dot_S4096x6x64x64_S4096x6x64x32_S4096x6x64x32_3_2_2_3_01_01.lhsBatch by decide)]
  rfl

private theorem lhs_mix_1 (i : S4096x6x64x32.Idx) (q : dot_S4096x6x64x64_S4096x6x64x32_S4096x6x64x32_3_2_2_3_01_01.contr.Idx) :
    (dot_S4096x6x64x64_S4096x6x64x32_S4096x6x64x32_3_2_2_3_01_01.lhsIdx i q 1).val = (i 1).val := by
  unfold DotDims.lhsIdx
  rw [dif_pos (show (1 : Fin S4096x6x64x64.rank) ∈ dot_S4096x6x64x64_S4096x6x64x32_S4096x6x64x32_3_2_2_3_01_01.lhsBatch by decide)]
  rfl

private theorem lhs_mix_2 (i : S4096x6x64x32.Idx) (q : dot_S4096x6x64x64_S4096x6x64x32_S4096x6x64x32_3_2_2_3_01_01.contr.Idx) :
    (dot_S4096x6x64x64_S4096x6x64x32_S4096x6x64x32_3_2_2_3_01_01.lhsIdx i q 2).val = (i 2).val := by
  unfold DotDims.lhsIdx
  rw [dif_neg (show ¬(2 : Fin S4096x6x64x64.rank) ∈ dot_S4096x6x64x64_S4096x6x64x32_S4096x6x64x32_3_2_2_3_01_01.lhsBatch by decide),
    dif_pos (show (2 : Fin S4096x6x64x64.rank) ∈ dot_S4096x6x64x64_S4096x6x64x32_S4096x6x64x32_3_2_2_3_01_01.lhsNonContracting by decide)]
  rfl

private theorem lhs_mix_3 (i : S4096x6x64x32.Idx) (q : dot_S4096x6x64x64_S4096x6x64x32_S4096x6x64x32_3_2_2_3_01_01.contr.Idx) :
    (dot_S4096x6x64x64_S4096x6x64x32_S4096x6x64x32_3_2_2_3_01_01.lhsIdx i q 3).val = (q ⟨0, by decide⟩).val :=
  dot_S4096x6x64x64_S4096x6x64x32_S4096x6x64x32_3_2_2_3_01_01.lhsIdx_val_of_single rfl i q

private theorem rhs_mix_0 (i : S4096x6x64x32.Idx) (q : dot_S4096x6x64x64_S4096x6x64x32_S4096x6x64x32_3_2_2_3_01_01.contr.Idx) :
    (dot_S4096x6x64x64_S4096x6x64x32_S4096x6x64x32_3_2_2_3_01_01.rhsIdx i q 0).val = (i 0).val := by
  unfold DotDims.rhsIdx
  rw [dif_pos (show (0 : Fin S4096x6x64x32.rank) ∈ dot_S4096x6x64x64_S4096x6x64x32_S4096x6x64x32_3_2_2_3_01_01.rhsBatch by decide)]
  rfl

private theorem rhs_mix_1 (i : S4096x6x64x32.Idx) (q : dot_S4096x6x64x64_S4096x6x64x32_S4096x6x64x32_3_2_2_3_01_01.contr.Idx) :
    (dot_S4096x6x64x64_S4096x6x64x32_S4096x6x64x32_3_2_2_3_01_01.rhsIdx i q 1).val = (i 1).val := by
  unfold DotDims.rhsIdx
  rw [dif_pos (show (1 : Fin S4096x6x64x32.rank) ∈ dot_S4096x6x64x64_S4096x6x64x32_S4096x6x64x32_3_2_2_3_01_01.rhsBatch by decide)]
  rfl

private theorem rhs_mix_2 (i : S4096x6x64x32.Idx) (q : dot_S4096x6x64x64_S4096x6x64x32_S4096x6x64x32_3_2_2_3_01_01.contr.Idx) :
    (dot_S4096x6x64x64_S4096x6x64x32_S4096x6x64x32_3_2_2_3_01_01.rhsIdx i q 2).val = (q ⟨0, by decide⟩).val :=
  dot_S4096x6x64x64_S4096x6x64x32_S4096x6x64x32_3_2_2_3_01_01.rhsIdx_val_of_single rfl i q

private theorem rhs_mix_3 (i : S4096x6x64x32.Idx) (q : dot_S4096x6x64x64_S4096x6x64x32_S4096x6x64x32_3_2_2_3_01_01.contr.Idx) :
    (dot_S4096x6x64x64_S4096x6x64x32_S4096x6x64x32_3_2_2_3_01_01.rhsIdx i q 3).val = (i 3).val := by
  unfold DotDims.rhsIdx
  rw [dif_neg (show ¬(3 : Fin S4096x6x64x32.rank) ∈ dot_S4096x6x64x64_S4096x6x64x32_S4096x6x64x32_3_2_2_3_01_01.rhsBatch by decide),
    dif_pos (show (3 : Fin S4096x6x64x32.rank) ∈ dot_S4096x6x64x64_S4096x6x64x32_S4096x6x64x32_3_2_2_3_01_01.rhsNonContracting by decide)]
  rfl

/-- The weights contracted with the values, window by window and head by head, at an index: the sum over the
    second token. -/
private theorem dotMix_apply (a : FVec Ideal S4096x6x64x64 .f32) (v : FVec Ideal S4096x6x64x32 .f32)
    (b : Fin 4096) (h : Fin 6) (n : Fin 64) (d : Fin 32) :
    Host.dotGeneral (F := Ideal) dot_S4096x6x64x64_S4096x6x64x32_S4096x6x64x32_3_2_2_3_01_01 none a v (ix4 b h n d)
      = ∑ m : Fin 64, a (ix4 b h n m) * v (ix4 b h m d) := by
  simp only [Host.dotGeneral]
  rw [Ideal.dotGeneral_apply, ← Equiv.sum_comp (contrEquiv1 dot_S4096x6x64x64_S4096x6x64x32_S4096x6x64x32_3_2_2_3_01_01 64 rfl rfl).symm]
  refine Finset.sum_congr rfl fun k _ => ?_
  have hk := contrEquiv1_symm_val dot_S4096x6x64x64_S4096x6x64x32_S4096x6x64x32_3_2_2_3_01_01 64 rfl rfl k
  have el : dot_S4096x6x64x64_S4096x6x64x32_S4096x6x64x32_3_2_2_3_01_01.lhsIdx (ix4 b h n d)
      ((contrEquiv1 dot_S4096x6x64x64_S4096x6x64x32_S4096x6x64x32_3_2_2_3_01_01 64 rfl rfl).symm k) = ix4 b h n k := funext fun c => Fin.ext (by
    match c with
    | ⟨0, _⟩ => exact lhs_mix_0 _ _
    | ⟨1, _⟩ => exact lhs_mix_1 _ _
    | ⟨2, _⟩ => exact lhs_mix_2 _ _
    | ⟨3, _⟩ => exact (lhs_mix_3 _ _).trans hk)
  have er : dot_S4096x6x64x64_S4096x6x64x32_S4096x6x64x32_3_2_2_3_01_01.rhsIdx (ix4 b h n d)
      ((contrEquiv1 dot_S4096x6x64x64_S4096x6x64x32_S4096x6x64x32_3_2_2_3_01_01 64 rfl rfl).symm k) = ix4 b h k d := funext fun c => Fin.ext (by
    match c with
    | ⟨0, _⟩ => exact rhs_mix_0 _ _
    | ⟨1, _⟩ => exact rhs_mix_1 _ _
    | ⟨2, _⟩ => exact (rhs_mix_2 _ _).trans hk
    | ⟨3, _⟩ => exact rhs_mix_3 _ _)
  rw [el, er]

/-- The heads laid side by side: channel `c` of the 192 is channel `c mod 32` of head `c / 32`. -/
private theorem sideBySide_apply (z : FVec Ideal S4096x6x64x32 .f32) (b : Fin 4096) (n : Fin 64) (c : Fin 192) :
    shapeCast S4096x64x192
      (transpose S4096x64x6x32 [0, 2, 1, 3] z transposes_S4096x6x64x32_S4096x64x6x32_0_2_1_3)
      shapeCasts_S4096x64x6x32_S4096x64x192 (ix3 b n c) = z (ix4 b (headOf c) n (chanOf c)) := by
  rw [shapeCast_apply (k := ix4 b n (headOf c) (chanOf c)) (hk := by
      rw [Shape.rowMajor_val_four, Shape.rowMajor_val_three]
      show ((b.val * 64 + n.val) * 6 + c.val / 32) * 32 + c.val % 32 = (b.val * 64 + n.val) * 192 + c.val
      omega)]
  exact transpose_apply _ _ _ _ (ix4 b (headOf c) n (chanOf c)) (by
      intro a; match a with
      | ⟨0, _⟩ => rfl
      | ⟨1, _⟩ => rfl
      | ⟨2, _⟩ => rfl
      | ⟨3, _⟩ => rfl)

theorem mixOf_apply (a : FVec Ideal S4096x6x64x64 .f32) (v : FVec Ideal S4096x6x64x32 .f32) (b : Fin 4096) (n : Fin 64) (c : Fin 192) :
    mixOf a v (ix3 b n c) = ∑ m : Fin 64, a (ix4 b (headOf c) n m) * v (ix4 b (headOf c) m (chanOf c)) := by
  unfold mixOf
  rw [sideBySide_apply, dotMix_apply]

/-! ## The output projection -/

private theorem lhs_out_0 (i : S4096x64x192.Idx) (q : dot_S4096x64x192_S192x192_S4096x64x192_2_1_01_0_n_n.contr.Idx) :
    (dot_S4096x64x192_S192x192_S4096x64x192_2_1_01_0_n_n.lhsIdx i q 0).val = (i 0).val := by
  unfold DotDims.lhsIdx
  rw [dif_neg (show ¬(0 : Fin S4096x64x192.rank) ∈ dot_S4096x64x192_S192x192_S4096x64x192_2_1_01_0_n_n.lhsBatch by decide),
    dif_pos (show (0 : Fin S4096x64x192.rank) ∈ dot_S4096x64x192_S192x192_S4096x64x192_2_1_01_0_n_n.lhsNonContracting by decide)]
  rfl

private theorem lhs_out_1 (i : S4096x64x192.Idx) (q : dot_S4096x64x192_S192x192_S4096x64x192_2_1_01_0_n_n.contr.Idx) :
    (dot_S4096x64x192_S192x192_S4096x64x192_2_1_01_0_n_n.lhsIdx i q 1).val = (i 1).val := by
  unfold DotDims.lhsIdx
  rw [dif_neg (show ¬(1 : Fin S4096x64x192.rank) ∈ dot_S4096x64x192_S192x192_S4096x64x192_2_1_01_0_n_n.lhsBatch by decide),
    dif_pos (show (1 : Fin S4096x64x192.rank) ∈ dot_S4096x64x192_S192x192_S4096x64x192_2_1_01_0_n_n.lhsNonContracting by decide)]
  rfl

private theorem lhs_out_2 (i : S4096x64x192.Idx) (q : dot_S4096x64x192_S192x192_S4096x64x192_2_1_01_0_n_n.contr.Idx) :
    (dot_S4096x64x192_S192x192_S4096x64x192_2_1_01_0_n_n.lhsIdx i q 2).val = (q ⟨0, by decide⟩).val :=
  dot_S4096x64x192_S192x192_S4096x64x192_2_1_01_0_n_n.lhsIdx_val_of_single rfl i q

private theorem rhs_out_0 (i : S4096x64x192.Idx) (q : dot_S4096x64x192_S192x192_S4096x64x192_2_1_01_0_n_n.contr.Idx) :
    (dot_S4096x64x192_S192x192_S4096x64x192_2_1_01_0_n_n.rhsIdx i q 0).val = (i 2).val := by
  unfold DotDims.rhsIdx
  rw [dif_neg (show ¬(0 : Fin S192x192.rank) ∈ dot_S4096x64x192_S192x192_S4096x64x192_2_1_01_0_n_n.rhsBatch by decide),
    dif_pos (show (0 : Fin S192x192.rank) ∈ dot_S4096x64x192_S192x192_S4096x64x192_2_1_01_0_n_n.rhsNonContracting by decide)]
  rfl

private theorem rhs_out_1 (i : S4096x64x192.Idx) (q : dot_S4096x64x192_S192x192_S4096x64x192_2_1_01_0_n_n.contr.Idx) :
    (dot_S4096x64x192_S192x192_S4096x64x192_2_1_01_0_n_n.rhsIdx i q 1).val = (q ⟨0, by decide⟩).val :=
  dot_S4096x64x192_S192x192_S4096x64x192_2_1_01_0_n_n.rhsIdx_val_of_single rfl i q

/-- The product of an array of rows with the transposed weights, at an index: the sum over the channel. -/
private theorem dotOut_apply (mx : FVec Ideal S4096x64x192 .f32) (pw : FVec Ideal S192x192 .f32) (b : Fin 4096) (n : Fin 64) (o : Fin 192) :
    Host.dotGeneral (F := Ideal) dot_S4096x64x192_S192x192_S4096x64x192_2_1_01_0_n_n none mx pw (ix3 b n o)
      = ∑ c : Fin 192, mx (ix3 b n c) * pw (ix2 o c) := by
  simp only [Host.dotGeneral]
  rw [Ideal.dotGeneral_apply, ← Equiv.sum_comp (contrEquiv1 dot_S4096x64x192_S192x192_S4096x64x192_2_1_01_0_n_n 192 rfl rfl).symm]
  refine Finset.sum_congr rfl fun k _ => ?_
  have hk := contrEquiv1_symm_val dot_S4096x64x192_S192x192_S4096x64x192_2_1_01_0_n_n 192 rfl rfl k
  have el : dot_S4096x64x192_S192x192_S4096x64x192_2_1_01_0_n_n.lhsIdx (ix3 b n o)
      ((contrEquiv1 dot_S4096x64x192_S192x192_S4096x64x192_2_1_01_0_n_n 192 rfl rfl).symm k) = ix3 b n k := funext fun a => Fin.ext (by
    match a with
    | ⟨0, _⟩ => exact lhs_out_0 _ _
    | ⟨1, _⟩ => exact lhs_out_1 _ _
    | ⟨2, _⟩ => exact (lhs_out_2 _ _).trans hk)
  have er : dot_S4096x64x192_S192x192_S4096x64x192_2_1_01_0_n_n.rhsIdx (ix3 b n o)
      ((contrEquiv1 dot_S4096x64x192_S192x192_S4096x64x192_2_1_01_0_n_n 192 rfl rfl).symm k) = ix2 o k := funext fun a => Fin.ext (by
    match a with
    | ⟨0, _⟩ => exact rhs_out_0 _ _
    | ⟨1, _⟩ => exact (rhs_out_1 _ _).trans hk)
  rw [el, er]

theorem outOf_apply (mx : FVec Ideal S4096x64x192 .f32) (pw : FVec Ideal S192x192 .f32) (pb : FVec Ideal S192 .f32)
    (b : Fin 4096) (n : Fin 64) (o : Fin 192) :
    outOf mx pw pb (ix3 b n o) = (∑ c : Fin 192, mx (ix3 b n c) * pw (ix2 o c)) + pb (ix1 o) := by
  unfold outOf
  rw [addf_apply, dotOut_apply]
  refine congrArg (_ + ·) ?_
  rw [broadcastInDim_apply (k := ix3 (0 : Fin 1) (0 : Fin 1) o) (hk := by
      intro a; match a with
      | ⟨0, _⟩ => rfl
      | ⟨1, _⟩ => rfl
      | ⟨2, _⟩ => rfl)]
  exact broadcastInDim_apply _ _ _ _ (ix1 o) (by
      intro a; match a with
      | ⟨0, _⟩ => rfl)

end Cert.ReferenceIdeal.RefVal

end
-- ==== Proof.RefValue.lean ====
/-
  The reference's two results are the specification's arrays. At an index: the attention weights are the row softmax
  of the logits, and the logits read at an index are the specification's; the output is the projection of the weighted
  values, whose entries are sums of weights times value columns of the fused projection.
-/
import proofs.«428607_j12240656794299_3_alg».proof.Proof.RefValueA
import proofs.«428607_j12240656794299_3_alg».proof.Proof.RefValueB

noncomputable section

namespace Cert.ReferenceIdeal.RefVal

open Cert.ReferenceIdeal Cert.ReferenceIdeal.Gen Cert.ReferenceIdeal.Stages Idealize.ShloMosaic Idealize.ShloMosaic.ValueIdx Cert.WinAttn

variable (x : FVec Ideal S4096x64x192 .f32) (mask : FVec Ideal S64x64x64 .f32) (qw : FVec Ideal S576x192 .f32) (qb : FVec Ideal S576 .f32)
  (pw : FVec Ideal S192x192 .f32) (pb : FVec Ideal S192 .f32) (tbl : FVec Ideal S225x6 .f32)

/-- The weights at an index. -/
theorem attnR_apply (b : Fin 4096) (h : Fin 6) (n k : Fin 64) :
    attnR x mask qw qb tbl (ix4 b h n k) = attn x mask qw qb (biasR tbl) b h n k := by
  unfold attnR
  rw [softmaxR_apply]
  unfold attn
  congr 1
  funext j
  exact logitR_apply x mask qw qb tbl b h n j

theorem attnR_eq : attnR x mask qw qb tbl = attnArr x mask qw qb (biasR tbl) := by
  funext j
  obtain ⟨b, h, n, k, rfl⟩ : ∃ (b : Fin 4096) (h : Fin 6) (n k : Fin 64), j = ix4 b h n k := ⟨j 0, j 1, j 2, j 3, eq_ix4 j⟩
  rw [attnR_apply, attnArr_apply]

/-- The weighted values at an index. -/
theorem mixR_apply (b : Fin 4096) (n : Fin 64) (c : Fin 192) :
    mixR x mask qw qb tbl (ix3 b n c) = mix x mask qw qb (biasR tbl) b n (headOf c) (chanOf c) := by
  unfold mixR
  rw [mixOf_apply]
  unfold mix
  exact Finset.sum_congr rfl (fun j _ => by rw [attnR_apply, vR_apply])

theorem outR_eq : outR x mask qw qb pw pb tbl = outArr x mask qw qb pw pb (biasR tbl) := by
  funext j
  obtain ⟨b, n, o, rfl⟩ : ∃ (b : Fin 4096) (n : Fin 64) (o : Fin 192), j = ix3 b n o := ⟨j 0, j 1, j 2, eq_ix3 j⟩
  unfold outR
  rw [outOf_apply, outArr_apply]
  unfold out
  congr 1
  exact Finset.sum_congr rfl (fun c _ => by rw [mixR_apply])

end Cert.ReferenceIdeal.RefVal

end
-- ==== Proof.Bias.lean ====
/-
  The two programs gather the same bias: the kernel program's index table is the reference's (the same 4096 words,
  all between 0 and 224, so the reference's wrap of negative words selects nothing), hence the same rows of the
  table in the same layout.
-/
import proofs.«428607_j12240656794299_3_alg».proof.Proof.KerStages
import proofs.«428607_j12240656794299_3_alg».proof.Proof.RefStages
import Idealize.ShloMosaic.PureOps.Ideal
import Idealize.ShloMosaic.Lib.Decide
import Idealize.ShloMosaic.Lib.ValueIdx

noncomputable section

namespace Cert.Bias

open Idealize.ShloMosaic Idealize.ShloMosaic.ValueIdx

/-- The two programs print the same table: word for word over the 4096 positions. -/
theorem lit_eq : ∀ p : Fin 4096, Cert.KernelIdeal.lit0 p = Cert.ReferenceIdeal.lit0 p := by decide +kernel

/-- No word of the table is negative as a signed number (each is at most 224): the signed comparison with zero
    is false at every position. -/
theorem lit_nonneg : ∀ p : Fin 4096, IntOp.cmpi .slt (Cert.ReferenceIdeal.lit0 p) 0#32 = 0#1 := by decide +kernel

/-- The reference views its [64, 64] table as one row of 4096: a reshape keeps the row-major position, so the word
    at position `i` of the row is the table's word at that same position. -/
theorem litR_apply (i : Cert.ReferenceIdeal.S4096.Idx) :
    Cert.ReferenceIdeal.Stages.litR i = Cert.ReferenceIdeal.lit0 (Cert.ReferenceIdeal.S4096.rowMajor i) := by
  unfold Cert.ReferenceIdeal.Stages.litR shapeCast
  exact congrArg Cert.ReferenceIdeal.lit0 (Fin.ext (Shape.rowMajor_reshapeEquiv _ i))

/-- The two rows of 4096 words are the same row. -/
theorem litK_eq_litR : (Cert.KernelIdeal.KStages.litK : IVec ⟨1, ![4096]⟩ 32) = Cert.ReferenceIdeal.Stages.litR := by
  funext i
  rw [litR_apply]
  exact lit_eq _

/-- The start indices agree: on the kernel side the selecting mask is the constant false, on the reference side it
    is the comparison `word < 0`, false at every position; both selections therefore keep the word itself, and the
    column is the same broadcast of the same row. -/
theorem idx_eq : (Cert.KernelIdeal.KStages.idxK : IVec ⟨2, ![4096, 1]⟩ 32) = Cert.ReferenceIdeal.Stages.idxR := by
  unfold Cert.KernelIdeal.KStages.idxK Cert.ReferenceIdeal.Stages.idxR
  rw [litK_eq_litR]
  refine congrArg (broadcastInDim (s := Cert.ReferenceIdeal.S4096) Cert.ReferenceIdeal.S4096x1 ![0]
    Cert.ReferenceIdeal.Gen.bcast_S4096_S4096x1_0) ?_
  funext i
  rw [select_apply, select_apply]
  have hK : constantI Cert.KernelIdeal.S4096 1 (0#1) i = 0#1 := rfl
  rw [hK, select_zero]
  have hR : cmpi .slt Cert.ReferenceIdeal.Stages.litR
      (broadcastInDim Cert.ReferenceIdeal.S4096 ![] Cert.ReferenceIdeal.Gen.bcast_S_S4096
        (constantI Cert.ReferenceIdeal.S_ 32 0#32)) i = 0#1 := by
    show IntOp.cmpi .slt (Cert.ReferenceIdeal.Stages.litR i) 0#32 = 0#1
    rw [litR_apply]
    exact lit_nonneg _
  rw [hR, select_zero]

/-- With the same start indices the two gathers read the same rows of the table, and the reshape to [64, 64, 6] and
    the transposition to head-major are the same operations on both sides. -/
theorem bias_eq (tbl : FVec Ideal ⟨2, ![225, 6]⟩ .f32) :
    (Cert.KernelIdeal.KStages.biasK tbl : FVec Ideal ⟨3, ![6, 64, 64]⟩ .f32) = Cert.ReferenceIdeal.Stages.biasR tbl := by
  unfold Cert.KernelIdeal.KStages.biasK Cert.ReferenceIdeal.Stages.biasR
  rw [idx_eq]
  rfl

end Cert.Bias

end
-- ==== Proof.lean ====
/-
  The certificate of the windowed-attention kernel against its jnp reference, over the extended reals.
  Both programs compute, for each of 4096 windows of 64 tokens, the fused query/key/value projection, the scaled
  query–key scores per head, the logits (score plus a relative-position bias gathered from a table by a fixed
  index table, plus the mask of the window's place among 64), their row softmax (the attention weights, the second
  result) and the output projection of the weighted values (the first result): Proof/Spec.lean states these index
  by index. The kernel handles 32 windows per grid point on blocks, with bias and mask added once beforehand and the
  weights transposed beforehand; the reference works on whole arrays and adds bias and mask one after the other.
  At the ideal instance the two agree entry by entry: a change of float format is the identity, a block product into
  a zero accumulator is the plain sum of products, and the only law between the two texts is the associativity of
  addition on the extended reals (score + (bias + mask) against (score + bias) + mask), so the precondition is never
  opened. The two programs' bias tables are the same rows of the same table (Proof/Bias.lean).
  The frames of the two kernel programs are the generated ones; the reference's frame is its run with the results
  dropped; the idealization rewrote nothing, so `preserves` is trivial.
-/
import proofs.«428607_j12240656794299_3_alg».proof.Defs
import proofs.«428607_j12240656794299_3_alg».proof.Proof.Gen.Kernel
import proofs.«428607_j12240656794299_3_alg».proof.Proof.Gen.Kernel.Frame
import proofs.«428607_j12240656794299_3_alg».proof.Proof.Gen.KernelIdeal
import proofs.«428607_j12240656794299_3_alg».proof.Proof.Gen.KernelIdeal.Frame
import proofs.«428607_j12240656794299_3_alg».proof.Proof.Gen.ReferenceIdeal
import proofs.«428607_j12240656794299_3_alg».proof.Proof.Gen.Pre_finite_inputs
import proofs.«428607_j12240656794299_3_alg».proof.Proof.KerRun
import proofs.«428607_j12240656794299_3_alg».proof.Proof.RefRun
import proofs.«428607_j12240656794299_3_alg».proof.Proof.RefValue
import proofs.«428607_j12240656794299_3_alg».proof.Proof.Bias
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.RefRun.run (F := Ideal) m ρ)

/-- Both runs end at the specification's two arrays of the (agreeing) arguments, the bias the same table rows. -/
theorem algebraic : Cert.algebraic_KernelIdeal_ReferenceIdeal := by
  intro m ρ m' ρ' _ hagree
  refine ⟨_, _, Cert.KernelIdeal.KRun.run m ρ, ?_⟩
  refine (θ_run Cert.ReferenceIdeal.defs _ _).mono (fun _ h c => ⟨(h c).1.trans ?_, (h c).2.1.trans ?_, (h c).2.2⟩)
    (Cert.ReferenceIdeal.RefRun.run (F := Ideal) m' ρ')
  · rw [Cert.ReferenceIdeal.RefVal.outR_eq, (hagree c).1, (hagree c).2.1, (hagree c).2.2.1, (hagree c).2.2.2.1,
      (hagree c).2.2.2.2.1, (hagree c).2.2.2.2.2.1, (hagree c).2.2.2.2.2.2, ← Cert.Bias.bias_eq]
  · rw [Cert.ReferenceIdeal.RefVal.attnR_eq, (hagree c).1, (hagree c).2.1, (hagree c).2.2.1, (hagree c).2.2.2.1,
      (hagree c).2.2.2.2.2.2, ← Cert.Bias.bias_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
